-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v34)) (v1 : (c : Dev Cert.KernelIdeal.nD) → Buf (Elt Ideal) ((c.tc : Thread Cert.KernelIdeal.nD Cert.KernelIdeal.τ).loc Cert.KernelIdeal.main_v42)) (v2 : (c : Dev Cert.KernelIdeal.nD) → Buf (Elt Ideal) ((c.tc : Thread Cert.KernelIdeal.nD Cert.KernelIdeal.τ).loc Cert.KernelIdeal.main_v67)) (v3 : (c : Dev Cert.KernelIdeal.nD) → Buf (Elt Ideal) ((c.tc : Thread Cert.KernelIdeal.nD Cert.KernelIdeal.τ).loc Cert.KernelIdeal.main_v68)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v34) = v0 c
          ∧ r.2.mem ((c.tc : Thread Cert.KernelIdeal.nD Cert.KernelIdeal.τ).loc Cert.KernelIdeal.main_v42) = v1 c
          ∧ r.2.mem ((c.tc : Thread Cert.KernelIdeal.nD Cert.KernelIdeal.τ).loc Cert.KernelIdeal.main_v67) = v2 c
          ∧ r.2.mem ((c.tc : Thread Cert.KernelIdeal.nD Cert.KernelIdeal.τ).loc Cert.KernelIdeal.main_v68) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v50) = v0 c
          ∧ r.2.mem ((c.tc : Thread Cert.ReferenceIdeal.nD Cert.ReferenceIdeal.τ).loc Cert.ReferenceIdeal.main_v86) = v1 c
          ∧ r.2.mem ((c.tc : Thread Cert.ReferenceIdeal.nD Cert.ReferenceIdeal.τ).loc Cert.ReferenceIdeal.main_v111) = v2 c
          ∧ r.2.mem ((c.tc : Thread Cert.ReferenceIdeal.nD Cert.ReferenceIdeal.τ).loc Cert.ReferenceIdeal.main_v112) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S49152x3 : Shape := ⟨2, ![49152, 3]⟩
abbrev S786432x3 : Shape := ⟨2, ![786432, 3]⟩
abbrev S786432 : Shape := ⟨1, ![786432]⟩
abbrev S49152 : Shape := ⟨1, ![49152]⟩
abbrev S32 : Shape := ⟨1, ![32]⟩
abbrev S32x64 : Shape := ⟨2, ![32, 64]⟩
abbrev S64 : Shape := ⟨1, ![64]⟩
abbrev S64x64 : Shape := ⟨2, ![64, 64]⟩
abbrev S64x1 : Shape := ⟨2, ![64, 1]⟩
abbrev S1 : Shape := ⟨1, ![1]⟩
abbrev S_ : Shape := ⟨0, ![]⟩

class Facts : Prop where
  bcast_S_S49152x3 : S_.BroadcastsInDim S49152x3 (![] : Fin 0 → Fin S49152x3.rank)
  reducesTo_S49152x3_S_d0_1 : S49152x3.ReducesTo [0, 1] S_
  h_S_ : 0 < S_.numel
  bcast_S_S786432x3 : S_.BroadcastsInDim S786432x3 (![] : Fin 0 → Fin S786432x3.rank)
  reducesTo_S786432x3_S_d0_1 : S786432x3.ReducesTo [0, 1] S_
  bcast_S_S49152 : S_.BroadcastsInDim S49152 (![] : Fin 0 → Fin S49152.rank)
  reducesTo_S49152_S_d0 : S49152.ReducesTo [0] S_
  bcast_S_S32 : S_.BroadcastsInDim S32 (![] : Fin 0 → Fin S32.rank)
  reducesTo_S32_S_d0 : S32.ReducesTo [0] S_
  bcast_S_S32x64 : S_.BroadcastsInDim S32x64 (![] : Fin 0 → Fin S32x64.rank)
  reducesTo_S32x64_S_d0_1 : S32x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_
  bcast_S_S786432 : S_.BroadcastsInDim S786432 (![] : Fin 0 → Fin S786432.rank)
  reducesTo_S786432_S_d0 : S786432.ReducesTo [0] S_

variable [Facts]

def fn_part3 {F : FTy → Type} [FloatOps F] (main_arg3 : IVec S786432 32) (main_arg4 : IVec S786432 32) (main_v48 : IVec S_ 1) (main_v50 : IVec S786432 1) : IVec S_ 1 :=
  let main_c_19 : IVec S_ 1 := constantI S_ 1 1#1
  let main_v51 : IVec S_ 1 := (fun x v => Host.reduce IntOp.andi x v reducesTo_S786432_S_d0 h_S_) main_v50 main_c_19
  let main_v52 : IVec S_ 1 := andi main_v48 main_v51
  let main_c_20 : IVec S_ 32 := constantI S_ 32 0#32
  let main_v53 : IVec S786432 32 := broadcastInDim S786432 ![] bcast_S_S786432 main_c_20
  let main_v54 : IVec S786432 1 := cmpi .sge main_arg3 main_v53
  let main_c_21 : IVec S_ 1 := constantI S_ 1 1#1
  let main_v55 : IVec S_ 1 := (fun x v => Host.reduce IntOp.andi x v reducesTo_S786432_S_d0 h_S_) main_v54 main_c_21
  let main_v56 : IVec S_ 1 := andi main_v52 main_v55
  let main_c_22 : IVec S_ 32 := constantI S_ 32 0#32
  let main_v57 : IVec S786432 32 := broadcastInDim S786432 ![] bcast_S_S786432 main_c_22
  let main_v58 : IVec S786432 1 := cmpi .sge main_arg4 main_v57
  let main_c_23 : IVec S_ 1 := constantI S_ 1 1#1
  let main_v59 : IVec S_ 1 := (fun x v => Host.reduce IntOp.andi x v reducesTo_S786432_S_d0 h_S_) main_v58 main_c_23
  let main_v60 : IVec S_ 1 := andi main_v56 main_v59
  let main_c_24 : IVec S_ 32 := constantI S_ 32 8#32
  let main_v61 : IVec S786432 32 := broadcastInDim S786432 ![] bcast_S_S786432 main_c_24
  let main_v62 : IVec S786432 1 := cmpi .slt main_arg4 main_v61
  let main_c_25 : IVec S_ 1 := constantI S_ 1 1#1
  let main_v63 : IVec S_ 1 := (fun x v => Host.reduce IntOp.andi x v reducesTo_S786432_S_d0 h_S_) main_v62 main_c_25
  let main_v64 : IVec S_ 1 := andi main_v60 main_v63
  main_v64

def fn_part2 {F : FTy → Type} [FloatOps F] (main_arg2 : IVec S786432 32) (main_arg3 : IVec S786432 32) (main_arg4 : IVec S786432 32) (main_arg10 : FVec F S64 .f32) (main_arg11 : FVec F S64x1 .f32) (main_arg12 : FVec F S1 .f32) (main_v33 : IVec S_ 1) : IVec S_ 1 :=
  let main_v34 : FVec F S64 .f32 := Host.absf main_arg10
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64x1 .f32 := Host.absf main_arg11
  let main_cst_14 : FVec F S_ .f32 := constant S_ .f32 0x7F800000#32
  let main_v40 : FVec F S64x1 .f32 := broadcastInDim S64x1 ![] bcast_S_S64x1 main_cst_14
  let main_v41 : IVec S64x1 1 := cmpf .olt main_v39 main_v40
  let main_c_15 : IVec S_ 1 := constantI S_ 1 1#1
  let main_v42 : IVec S_ 1 := (fun x v => Host.reduce IntOp.andi x v reducesTo_S64x1_S_d0_1 h_S_) main_v41 main_c_15
  let main_v43 : IVec S_ 1 := andi main_v38 main_v42
  let main_v44 : FVec F S1 .f32 := Host.absf main_arg12
  let main_cst_16 : FVec F S_ .f32 := constant S_ .f32 0x7F800000#32
  let main_v45 : FVec F S1 .f32 := broadcastInDim S1 ![] bcast_S_S1 main_cst_16
  let main_v46 : IVec S1 1 := cmpf .olt main_v44 main_v45
  let main_c_17 : IVec S_ 1 := constantI S_ 1 1#1
  let main_v47 : IVec S_ 1 := (fun x v => Host.reduce IntOp.andi x v reducesTo_S1_S_d0 h_S_) main_v46 main_c_17
  let main_v48 : IVec S_ 1 := andi main_v43 main_v47
  let main_c_18 : IVec S_ 32 := constantI S_ 32 0#32
  let main_v49 : IVec S786432 32 := broadcastInDim S786432 ![] bcast_S_S786432 main_c_18
  let main_v50 : IVec S786432 1 := cmpi .sge main_arg2 main_v49
  fn_part3 (F := F) main_arg3 main_arg4 main_v48 main_v50

def fn_part1 {F : FTy → Type} [FloatOps F] (main_arg2 : IVec S786432 32) (main_arg3 : IVec S786432 32) (main_arg4 : IVec S786432 32) (main_arg7 : FVec F S32x64 .f32) (main_arg8 : FVec F S64 .f32) (main_arg9 : FVec F S64x64 .f32) (main_arg10 : FVec F S64 .f32) (main_arg11 : FVec F S64x1 .f32) (main_arg12 : FVec F S1 .f32) (main_v13 : IVec S_ 1) (main_v16 : IVec S32 1) : IVec S_ 1 :=
  let main_c_5 : IVec S_ 1 := constantI S_ 1 1#1
  let main_v17 : IVec S_ 1 := (fun x v => Host.reduce IntOp.andi x v reducesTo_S32_S_d0 h_S_) main_v16 main_c_5
  let main_v18 : IVec S_ 1 := andi main_v13 main_v17
  let main_v19 : FVec F S32x64 .f32 := Host.absf main_arg7
  let main_cst_6 : FVec F S_ .f32 := constant S_ .f32 0x7F800000#32
  let main_v20 : FVec F S32x64 .f32 := broadcastInDim S32x64 ![] bcast_S_S32x64 main_cst_6
  let main_v21 : IVec S32x64 1 := cmpf .olt main_v19 main_v20
  let main_c_7 : IVec S_ 1 := constantI S_ 1 1#1
  let main_v22 : IVec S_ 1 := (fun x v => Host.reduce IntOp.andi x v reducesTo_S32x64_S_d0_1 h_S_) main_v21 main_c_7
  let main_v23 : IVec S_ 1 := andi main_v18 main_v22
  let main_v24 : FVec F S64 .f32 := Host.absf main_arg8
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x64 .f32 := Host.absf main_arg9
  let main_cst_10 : FVec F S_ .f32 := constant S_ .f32 0x7F800000#32
  let main_v30 : FVec F S64x64 .f32 := broadcastInDim S64x64 ![] bcast_S_S64x64 main_cst_10
  let main_v31 : IVec S64x64 1 := cmpf .olt main_v29 main_v30
  let main_c_11 : IVec S_ 1 := constantI S_ 1 1#1
  let main_v32 : IVec S_ 1 := (fun x v => Host.reduce IntOp.andi x v reducesTo_S64x64_S_d0_1 h_S_) main_v31 main_c_11
  let main_v33 : IVec S_ 1 := andi main_v28 main_v32
  fn_part2 (F := F) main_arg2 main_arg3 main_arg4 main_arg10 main_arg11 main_arg12 main_v33

def fn {F : FTy → Type} [FloatOps F] (main_arg0 : FVec F S49152x3 .f32) (main_arg1 : FVec F S786432x3 .f32) (main_arg2 : IVec S786432 32) (main_arg3 : IVec S786432 32) (main_arg4 : IVec S786432 32) (main_arg5 : FVec F S49152 .f32) (main_arg6 : FVec F S32 .f32) (main_arg7 : FVec F S32x64 .f32) (main_arg8 : FVec F S64 .f32) (main_arg9 : FVec F S64x64 .f32) (main_arg10 : FVec F S64 .f32) (main_arg11 : FVec F S64x1 .f32) (main_arg12 : FVec F S1 .f32) : IVec S_ 1 :=
  let main_v0 : FVec F S49152x3 .f32 := Host.absf main_arg0
  let main_cst : FVec F S_ .f32 := constant S_ .f32 0x7F800000#32
  let main_v1 : FVec F S49152x3 .f32 := broadcastInDim S49152x3 ![] bcast_S_S49152x3 main_cst
  let main_v2 : IVec S49152x3 1 := cmpf .olt main_v0 main_v1
  let main_c : IVec S_ 1 := constantI S_ 1 1#1
  let main_v3 : IVec S_ 1 := (fun x v => Host.reduce IntOp.andi x v reducesTo_S49152x3_S_d0_1 h_S_) main_v2 main_c
  let main_v4 : FVec F S786432x3 .f32 := Host.absf main_arg1
  let main_cst_0 : FVec F S_ .f32 := constant S_ .f32 0x7F800000#32
  let main_v5 : FVec F S786432x3 .f32 := broadcastInDim S786432x3 ![] bcast_S_S786432x3 main_cst_0
  let main_v6 : IVec S786432x3 1 := cmpf .olt main_v4 main_v5
  let main_c_1 : IVec S_ 1 := constantI S_ 1 1#1
  let main_v7 : IVec S_ 1 := (fun x v => Host.reduce IntOp.andi x v reducesTo_S786432x3_S_d0_1 h_S_) main_v6 main_c_1
  let main_v8 : IVec S_ 1 := andi main_v3 main_v7
  let main_v9 : FVec F S49152 .f32 := Host.absf main_arg5
  let main_cst_2 : FVec F S_ .f32 := constant S_ .f32 0x7F800000#32
  let main_v10 : FVec F S49152 .f32 := broadcastInDim S49152 ![] bcast_S_S49152 main_cst_2
  let main_v11 : IVec S49152 1 := cmpf .olt main_v9 main_v10
  let main_c_3 : IVec S_ 1 := constantI S_ 1 1#1
  let main_v12 : IVec S_ 1 := (fun x v => Host.reduce IntOp.andi x v reducesTo_S49152_S_d0 h_S_) main_v11 main_c_3
  let main_v13 : IVec S_ 1 := andi main_v8 main_v12
  let main_v14 : FVec F S32 .f32 := Host.absf main_arg6
  let main_cst_4 : FVec F S_ .f32 := constant S_ .f32 0x7F800000#32
  let main_v15 : FVec F S32 .f32 := broadcastInDim S32 ![] bcast_S_S32 main_cst_4
  let main_v16 : IVec S32 1 := cmpf .olt main_v14 main_v15
  fn_part1 (F := F) main_arg2 main_arg3 main_arg4 main_arg7 main_arg8 main_arg9 main_arg10 main_arg11 main_arg12 main_v13 main_v16
-- ==== Kernel.lean ====
abbrev S49152x3 : Shape := ⟨2, ![49152, 3]⟩
abbrev S786432x3 : Shape := ⟨2, ![786432, 3]⟩
abbrev S786432 : Shape := ⟨1, ![786432]⟩
abbrev S49152 : Shape := ⟨1, ![49152]⟩
abbrev S32 : Shape := ⟨1, ![32]⟩
abbrev S32x64 : Shape := ⟨2, ![32, 64]⟩
abbrev S64 : Shape := ⟨1, ![64]⟩
abbrev S64x64 : Shape := ⟨2, ![64, 64]⟩
abbrev S64x1 : Shape := ⟨2, ![64, 1]⟩
abbrev S1 : Shape := ⟨1, ![1]⟩
abbrev S_ : Shape := ⟨0, ![]⟩
abbrev S786432x1 : Shape := ⟨2, ![786432, 1]⟩
abbrev S3x786432 : Shape := ⟨2, ![3, 786432]⟩
abbrev S32x1 : Shape := ⟨2, ![32, 1]⟩
abbrev S1x1 : Shape := ⟨2, ![1, 1]⟩
abbrev S64x32 : Shape := ⟨2, ![64, 32]⟩
abbrev S4x786432 : Shape := ⟨2, ![4, 786432]⟩
abbrev S3x4096 : Shape := ⟨2, ![3, 4096]⟩
abbrev S4x4096 : Shape := ⟨2, ![4, 4096]⟩
abbrev S4096 : Shape := ⟨1, ![4096]⟩
abbrev S1x4096 : Shape := ⟨2, ![1, 4096]⟩
abbrev S32x4096 : Shape := ⟨2, ![32, 4096]⟩
abbrev S64x4096 : Shape := ⟨2, ![64, 4096]⟩
abbrev S1x786432 : Shape := ⟨2, ![1, 786432]⟩
abbrev S8 : Shape := ⟨1, ![8]⟩
abbrev S786432x3x1 : Shape := ⟨3, ![786432, 3, 1]⟩
abbrev S786432x1x3 : Shape := ⟨3, ![786432, 1, 3]⟩
abbrev S786432x3x3 : Shape := ⟨3, ![786432, 3, 3]⟩
abbrev S8x3x3 : Shape := ⟨3, ![8, 3, 3]⟩
abbrev S8x1 : Shape := ⟨2, ![8, 1]⟩
abbrev S8x1x1 : Shape := ⟨3, ![8, 1, 1]⟩
abbrev S24x3 : Shape := ⟨2, ![24, 3]⟩

abbrev nBuf : Space → Nat
  | .hbm => 95
  | .vmem => 13
  | .smem => 0
  | _ => 0

abbrev bufTy : (tb : Table) → Fin (tcTables nBuf tb) → BufTy
  | .hbm, ⟨0, _⟩ => ⟨S49152x3, .f32⟩
  | .hbm, ⟨1, _⟩ => ⟨S786432x3, .f32⟩
  | .hbm, ⟨2, _⟩ => ⟨S786432, .i32⟩
  | .hbm, ⟨3, _⟩ => ⟨S786432, .i32⟩
  | .hbm, ⟨4, _⟩ => ⟨S786432, .i32⟩
  | .hbm, ⟨5, _⟩ => ⟨S49152, .f32⟩
  | .hbm, ⟨6, _⟩ => ⟨S32, .f32⟩
  | .hbm, ⟨7, _⟩ => ⟨S32x64, .f32⟩
  | .hbm, ⟨8, _⟩ => ⟨S64, .f32⟩
  | .hbm, ⟨9, _⟩ => ⟨S64x64, .f32⟩
  | .hbm, ⟨10, _⟩ => ⟨S64, .f32⟩
  | .hbm, ⟨11, _⟩ => ⟨S64x1, .f32⟩
  | .hbm, ⟨12, _⟩ => ⟨S1, .f32⟩
  | .hbm, ⟨13, _⟩ => ⟨S_, .i32⟩
  | .hbm, ⟨14, _⟩ => ⟨S786432, .i32⟩
  | .hbm, ⟨15, _⟩ => ⟨S786432, .i1⟩
  | .hbm, ⟨16, _⟩ => ⟨S_, .i32⟩
  | .hbm, ⟨17, _⟩ => ⟨S786432, .i32⟩
  | .hbm, ⟨18, _⟩ => ⟨S786432, .i32⟩
  | .hbm, ⟨19, _⟩ => ⟨S786432, .i32⟩
  | .hbm, ⟨20, _⟩ => ⟨S786432x1, .i32⟩
  | .hbm, ⟨21, _⟩ => ⟨S786432x3, .f32⟩
  | .hbm, ⟨22, _⟩ => ⟨S_, .i32⟩
  | .hbm, ⟨23, _⟩ => ⟨S786432, .i32⟩
  | .hbm, ⟨24, _⟩ => ⟨S786432, .i1⟩
  | .hbm, ⟨25, _⟩ => ⟨S_, .i32⟩
  | .hbm, ⟨26, _⟩ => ⟨S786432, .i32⟩
  | .hbm, ⟨27, _⟩ => ⟨S786432, .i32⟩
  | .hbm, ⟨28, _⟩ => ⟨S786432, .i32⟩
  | .hbm, ⟨29, _⟩ => ⟨S786432x1, .i32⟩
  | .hbm, ⟨30, _⟩ => ⟨S786432x3, .f32⟩
  | .hbm, ⟨31, _⟩ => ⟨S786432x3, .f32⟩
  | .hbm, ⟨32, _⟩ => ⟨S786432x3, .f32⟩
  | .hbm, ⟨33, _⟩ => ⟨S3x786432, .f32⟩
  | .hbm, ⟨34, _⟩ => ⟨S32x1, .f32⟩
  | .hbm, ⟨35, _⟩ => ⟨S64x1, .f32⟩
  | .hbm, ⟨36, _⟩ => ⟨S64x1, .f32⟩
  | .hbm, ⟨37, _⟩ => ⟨S1x1, .f32⟩
  | .hbm, ⟨38, _⟩ => ⟨S32x64, .bf16⟩
  | .hbm, ⟨39, _⟩ => ⟨S64x32, .f32⟩
  | .hbm, ⟨40, _⟩ => ⟨S64x32, .bf16⟩
  | .hbm, ⟨41, _⟩ => ⟨S64x64, .bf16⟩
  | .hbm, ⟨42, _⟩ => ⟨S64x64, .f32⟩
  | .hbm, ⟨43, _⟩ => ⟨S64x64, .bf16⟩
  | .hbm, ⟨44, _⟩ => ⟨S4x786432, .f32⟩
  | .hbm, ⟨45, _⟩ => ⟨S3x786432, .f32⟩
  | .hbm, ⟨46, _⟩ => ⟨S786432x3, .f32⟩
  | .hbm, ⟨47, _⟩ => ⟨S1x786432, .f32⟩
  | .hbm, ⟨48, _⟩ => ⟨S786432, .f32⟩
  | .hbm, ⟨49, _⟩ => ⟨S_, .f32⟩
  | .hbm, ⟨50, _⟩ => ⟨S8, .f32⟩
  | .hbm, ⟨51, _⟩ => ⟨S786432x1, .i32⟩
  | .hbm, ⟨52, _⟩ => ⟨S8, .f32⟩
  | .hbm, ⟨53, _⟩ => ⟨S_, .f32⟩
  | .hbm, ⟨54, _⟩ => ⟨S49152x3, .f32⟩
  | .hbm, ⟨55, _⟩ => ⟨S786432x1, .i32⟩
  | .hbm, ⟨56, _⟩ => ⟨S49152x3, .f32⟩
  | .hbm, ⟨57, _⟩ => ⟨S_, .f32⟩
  | .hbm, ⟨58, _⟩ => ⟨S49152x3, .f32⟩
  | .hbm, ⟨59, _⟩ => ⟨S786432x1, .i32⟩
  | .hbm, ⟨60, _⟩ => ⟨S49152x3, .f32⟩
  | .hbm, ⟨61, _⟩ => ⟨S49152x3, .f32⟩
  | .hbm, ⟨62, _⟩ => ⟨S49152x3, .f32⟩
  | .hbm, ⟨63, _⟩ => ⟨S786432x3, .f32⟩
  | .hbm, ⟨64, _⟩ => ⟨S786432x3x1, .f32⟩
  | .hbm, ⟨65, _⟩ => ⟨S786432x1x3, .f32⟩
  | .hbm, ⟨66, _⟩ => ⟨S786432x3x3, .f32⟩
  | .hbm, ⟨67, _⟩ => ⟨S786432x3x3, .f32⟩
  | .hbm, ⟨68, _⟩ => ⟨S786432x3x3, .f32⟩
  | .hbm, ⟨69, _⟩ => ⟨S_, .f32⟩
  | .hbm, ⟨70, _⟩ => ⟨S8x3x3, .f32⟩
  | .hbm, ⟨71, _⟩ => ⟨S786432x1, .i32⟩
  | .hbm, ⟨72, _⟩ => ⟨S8x3x3, .f32⟩
  | .hbm, ⟨73, _⟩ => ⟨S8, .i32⟩
  | .hbm, ⟨74, _⟩ => ⟨S_, .i32⟩
  | .hbm, ⟨75, _⟩ => ⟨S8, .i32⟩
  | .hbm, ⟨76, _⟩ => ⟨S8, .i32⟩
  | .hbm, ⟨77, _⟩ => ⟨S_, .i32⟩
  | .hbm, ⟨78, _⟩ => ⟨S8, .i32⟩
  | .hbm, ⟨79, _⟩ => ⟨S8, .i1⟩
  | .hbm, ⟨80, _⟩ => ⟨S_, .i32⟩
  | .hbm, ⟨81, _⟩ => ⟨S8, .i32⟩
  | .hbm, ⟨82, _⟩ => ⟨S8, .i32⟩
  | .hbm, ⟨83, _⟩ => ⟨S8, .i32⟩
  | .hbm, ⟨84, _⟩ => ⟨S8x1, .i32⟩
  | .hbm, ⟨85, _⟩ => ⟨S8, .f32⟩
  | .hbm, ⟨86, _⟩ => ⟨S_, .f32⟩
  | .hbm, ⟨87, _⟩ => ⟨S8x3x3, .f32⟩
  | .hbm, ⟨88, _⟩ => ⟨S8x3x3, .f32⟩
  | .hbm, ⟨89, _⟩ => ⟨S8x1x1, .f32⟩
  | .hbm, ⟨90, _⟩ => ⟨S8x3x3, .f32⟩
  | .hbm, ⟨91, _⟩ => ⟨S8x3x3, .f32⟩
  | .hbm, ⟨92, _⟩ => ⟨S24x3, .f32⟩
  | .hbm, ⟨93, _⟩ => ⟨S_, .f32⟩
  | .hbm, ⟨94, _⟩ => ⟨S1, .f32⟩
  | .local _ .vmem, ⟨0, _⟩ => ⟨S3x4096, .f32⟩
  | .local _ .vmem, ⟨1, _⟩ => ⟨S3x4096, .f32⟩
  | .local _ .vmem, ⟨2, _⟩ => ⟨S32x1, .f32⟩
  | .local _ .vmem, ⟨3, _⟩ => ⟨S32x64, .bf16⟩
  | .local _ .vmem, ⟨4, _⟩ => ⟨S64x1, .f32⟩
  | .local _ .vmem, ⟨5, _⟩ => ⟨S64x32, .bf16⟩
  | .local _ .vmem, ⟨6, _⟩ => ⟨S64x64, .bf16⟩
  | .local _ .vmem, ⟨7, _⟩ => ⟨S64x1, .f32⟩
  | .local _ .vmem, ⟨8, _⟩ => ⟨S64x64, .bf16⟩
  | .local _ .vmem, ⟨9, _⟩ => ⟨S64x1, .f32⟩
  | .local _ .vmem, ⟨10, _⟩ => ⟨S1x1, .f32⟩
  | .local _ .vmem, ⟨11, _⟩ => ⟨S4x4096, .f32⟩
  | .local _ .vmem, ⟨12, _⟩ => ⟨S4x4096, .f32⟩
  | _, _ => ⟨S49152x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_c : Ref sig .tc := ⟨.hbm, 13, rfl⟩
abbrev main_v0 : Ref sig .tc := ⟨.hbm, 14, rfl⟩
abbrev main_v1 : Ref sig .tc := ⟨.hbm, 15, rfl⟩
abbrev main_c_0 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_c_1 : Ref sig .tc := ⟨.hbm, 22, rfl⟩
abbrev main_v7 : Ref sig .tc := ⟨.hbm, 23, rfl⟩
abbrev main_v8 : Ref sig .tc := ⟨.hbm, 24, rfl⟩
abbrev main_c_2 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_cst : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_cst_3 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_cst_4 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_cst_5 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_c_6 : Ref sig .tc := ⟨.hbm, 74, rfl⟩
abbrev main_v53 : Ref sig .tc := ⟨.hbm, 75, rfl⟩
abbrev main_v54 : Ref sig .tc := ⟨.hbm, 76, rfl⟩
abbrev main_c_7 : Ref sig .tc := ⟨.hbm, 77, rfl⟩
abbrev main_v55 : Ref sig .tc := ⟨.hbm, 78, rfl⟩
abbrev main_v56 : Ref sig .tc := ⟨.hbm, 79, rfl⟩
abbrev main_c_8 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_cst_9 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_cst_10 : Ref sig .tc := ⟨.hbm, 93, rfl⟩
abbrev main_v68 : Ref sig .tc := ⟨.hbm, 94, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg10_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem10_1 : DmaSem sig := 12

abbrev nD : Nat := 1
abbrev τ : Topo := Topo.v7x

variable {F : FTy → Type} [FloatOps F]

abbrev grid0 : Pipeline.Grid := ⟨1, ![192], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S3x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S32x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S32x64 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x32 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x64 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S64x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S64x64 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S64x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S4x4096 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

class Facts₀ : Prop where
  bcast_S_S786432 : S_.BroadcastsInDim S786432 (![] : Fin 0 → Fin S786432.rank)
  bcast_S786432_S786432x1_0 : S786432.BroadcastsInDim S786432x1 (![0] : Fin 1 → Fin S786432x1.rank)
  transposes_S786432x3_S3x786432_1_0 : S786432x3.Transposes [1, 0] S3x786432
  shapeCasts_S32_S32x1 : S32.ShapeCasts S32x1
  shapeCasts_S64_S64x1 : S64.ShapeCasts S64x1
  shapeCasts_S1_S1x1 : S1.ShapeCasts S1x1
  bitsLt_bf16_f32 : FTy.bits .bf16 < FTy.bits .f32
  transposes_S32x64_S64x32_1_0 : S32x64.Transposes [1, 0] S64x32
  transposes_S64x64_S64x64_1_0 : S64x64.Transposes [1, 0] S64x64
  inb_S3x4096_S3x4096_0_0 : ∀ a, (![0, 0] : Fin 2 → Nat) a + S3x4096.size a ≤ S3x4096.size a
  h_S3x4096 : 0 < S3x4096.numel
  shapeCasts_S3x4096_S3x4096 : S3x4096.ShapeCasts S3x4096
  reduces_S3x4096_S4096 : S3x4096.Reduces [0] S4096
  shapeCasts_S4096_S1x4096 : S4096.ShapeCasts S1x4096
  inb_S32x1_S32x1_0_0 : ∀ a, (![0, 0] : Fin 2 → Nat) a + S32x1.size a ≤ S32x1.size a
  h_S32x1 : 0 < S32x1.numel
  shapeCasts_S32x1_S32x1 : S32x1.ShapeCasts S32x1
  broadcasts_S1x4096_S32x4096 : S1x4096.Broadcasts S32x4096
  broadcasts_S32x1_S32x4096 : S32x1.Broadcasts S32x4096
  inb_S64x32_S64x32_0_0 : ∀ a, (![0, 0] : Fin 2 → Nat) a + S64x32.size a ≤ S64x32.size a
  h_S64x32 : 0 < S64x32.numel
  shapeCasts_S64x32_S64x32 : S64x32.ShapeCasts S64x32
  inb_S64x1_S64x1_0_0 : ∀ a, (![0, 0] : Fin 2 → Nat) a + S64x1.size a ≤ S64x1.size a
  h_S64x1 : 0 < S64x1.numel
  shapeCasts_S64x1_S64x1 : S64x1.ShapeCasts S64x1
  broadcasts_S64x1_S64x4096 : S64x1.Broadcasts S64x4096
  inb_S64x64_S64x64_0_0 : ∀ a, (![0, 0] : Fin 2 → Nat) a + S64x64.size a ≤ S64x64.size a
  h_S64x64 : 0 < S64x64.numel
  shapeCasts_S64x64_S64x64 : S64x64.ShapeCasts S64x64
  reduces_S64x4096_S4096 : S64x4096.Reduces [0] S4096
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S1x4096 : S1x1.Broadcasts S1x4096
  inb_S32x64_S32x64_0_0 : ∀ a, (![0, 0] : Fin 2 → Nat) a + S32x64.size a ≤ S32x64.size a
  h_S32x64 : 0 < S32x64.numel
  shapeCasts_S32x64_S32x64 : S32x64.ShapeCasts S32x64
  reduces_S32x4096_S4096 : S32x4096.Reduces [0] S4096
  broadcasts_S1x4096_S3x4096 : S1x4096.Broadcasts S3x4096
  inb_S4x4096_S3x4096_0_0 : ∀ a, (![0, 0] : Fin 2 → Nat) a + S3x4096.size a ≤ S4x4096.size a
  inb_S4x4096_S1x4096_3_0 : ∀ a, (![3, 0] : Fin 2 → Nat) a + S1x4096.size a ≤ S4x4096.size a
  h_S1x4096 : 0 < S1x4096.numel
  slices_S4x786432_S3x786432_0_0 : S4x786432.Slices ![0, 0] S3x786432
  transposes_S3x786432_S786432x3_1_0 : S3x786432.Transposes [1, 0] S786432x3
  slices_S4x786432_S1x786432_3_0 : S4x786432.Slices ![3, 0] S1x786432
  shapeCasts_S1x786432_S786432 : S1x786432.ShapeCasts S786432
  bcast_S_S8 : S_.BroadcastsInDim S8 (![] : Fin 0 → Fin S8.rank)
  bcast_S_S49152x3 : S_.BroadcastsInDim S49152x3 (![] : Fin 0 → Fin S49152x3.rank)
  bcast_S786432x3_S786432x3x1_0_1 : S786432x3.BroadcastsInDim S786432x3x1 (![0, 1] : Fin 2 → Fin S786432x3x1.rank)
  bcast_S786432x3_S786432x1x3_0_2 : S786432x3.BroadcastsInDim S786432x1x3 (![0, 2] : Fin 2 → Fin S786432x1x3.rank)
  bcast_S786432x3x1_S786432x3x3_0_1_2 : S786432x3x1.BroadcastsInDim S786432x3x3 (![0, 1, 2] : Fin 3 → Fin S786432x3x3.rank)
  bcast_S786432x1x3_S786432x3x3_0_1_2 : S786432x1x3.BroadcastsInDim S786432x3x3 (![0, 1, 2] : Fin 3 → Fin S786432x3x3.rank)
  bcast_S_S8x3x3 : S_.BroadcastsInDim S8x3x3 (![] : Fin 0 → Fin S8x3x3.rank)
  bcast_S8_S8x1_0 : S8.BroadcastsInDim S8x1 (![0] : Fin 1 → Fin S8x1.rank)
  bcast_S8_S8x1x1_0 : S8.BroadcastsInDim S8x1x1 (![0] : Fin 1 → Fin S8x1x1.rank)
  bcast_S8x1x1_S8x3x3_0_1_2 : S8x1x1.BroadcastsInDim S8x3x3 (![0, 1, 2] : Fin 3 → Fin S8x3x3.rank)
  shapeCasts_S8x3x3_S24x3 : S8x3x3.ShapeCasts S24x3
  bcast_S_S1 : S_.BroadcastsInDim S1 (![] : Fin 0 → Fin S1.rank)
  gather_S49152x3_S786432x1_S786432x3_1_0_n_n_0_1_13_wf : GatherDims.WF S49152x3 S786432x1 S786432x3 [1] [0] [] [0] [] 1 ![1, 3]
  dot_S64x32_S32x4096_S64x4096_1_0_0_1_n_n_wf : DotDims.WF S64x32 S32x4096 S64x4096 [1] [0] [0] [1] [] []
  dot_S64x64_S64x4096_S64x4096_1_0_0_1_n_n_wf : DotDims.WF S64x64 S64x4096 S64x4096 [1] [0] [0] [1] [] []
  dot_S32x64_S64x4096_S32x4096_1_0_0_1_n_n_wf : DotDims.WF S32x64 S64x4096 S32x4096 [1] [0] [0] [1] [] []
  scatter_S8_S786432x1_S786432_n_0_0_1_wf : ScatterDims.WF S8 S786432x1 S786432 [] [0] [0] 1
  scatter_S49152x3_S786432x1_S786432x3_1_0_0_1_wf : ScatterDims.WF S49152x3 S786432x1 S786432x3 [1] [0] [0] 1
  scatter_S8x3x3_S786432x1_S786432x3x3_12_0_0_1_wf : ScatterDims.WF S8x3x3 S786432x1 S786432x3x3 [1, 2] [0] [0] 1
  gather_S49152_S8x1_S8_n_0_n_n_0_1_1_wf : GatherDims.WF S49152 S8x1 S8 [] [0] [] [0] [] 1 ![1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S3x4096.size a ≤ S3x786432.size a
  hwx0_0 : ∀ i : grid0.Coords, EltTy.bits .f32 = 32 ∨ (Rect.block (s := S3x786432) S3x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S32x1.size a ≤ S32x1.size a
  hwx0_1 : ∀ i : grid0.Coords, EltTy.bits .f32 = 32 ∨ (Rect.block (s := S32x1) S32x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S32x64.size a ≤ S32x64.size a
  hwx0_2 : ∀ i : grid0.Coords, EltTy.bits .bf16 = 32 ∨ (Rect.block (s := S32x64) S32x64.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x1.size a ≤ S64x1.size a
  hwx0_3 : ∀ i : grid0.Coords, EltTy.bits .f32 = 32 ∨ (Rect.block (s := S64x1) S64x1.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x32.size a ≤ S64x32.size a
  hwx0_4 : ∀ i : grid0.Coords, EltTy.bits .bf16 = 32 ∨ (Rect.block (s := S64x32) S64x32.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x64.size a ≤ S64x64.size a
  hwx0_5 : ∀ i : grid0.Coords, EltTy.bits .bf16 = 32 ∨ (Rect.block (s := S64x64) S64x64.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S64x1.size a ≤ S64x1.size a
  hwx0_6 : ∀ i : grid0.Coords, EltTy.bits .f32 = 32 ∨ (Rect.block (s := S64x1) S64x1.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S64x64.size a ≤ S64x64.size a
  hwx0_7 : ∀ i : grid0.Coords, EltTy.bits .bf16 = 32 ∨ (Rect.block (s := S64x64) S64x64.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S64x1.size a ≤ S64x1.size a
  hwx0_8 : ∀ i : grid0.Coords, EltTy.bits .f32 = 32 ∨ (Rect.block (s := S64x1) S64x1.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x1.size a ≤ S1x1.size a
  hwx0_9 : ∀ i : grid0.Coords, EltTy.bits .f32 = 32 ∨ (Rect.block (s := S1x1) S1x1.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S4x4096.size a ≤ S4x786432.size a
  hwx0_10 : ∀ i : grid0.Coords, EltTy.bits .f32 = 32 ∨ (Rect.block (s := S4x786432) S4x4096.size (cc0_transform_10 i) (hinb0_10 i)).WholeWords (EltTy.packing .f32)

variable [Facts₀]

def gather_S49152x3_S786432x1_S786432x3_1_0_n_n_0_1_13 : GatherDims S49152x3 S786432x1 S786432x3 where
  offsetDims := [1]
  collapsedSliceDims := [0]
  operandBatchingDims := []
  startIndicesBatchingDims := []
  startIndexMap := [0]
  indexVectorDim := 1
  sliceSizes := ![1, 3]
  wf := gather_S49152x3_S786432x1_S786432x3_1_0_n_n_0_1_13_wf
def dot_S64x32_S32x4096_S64x4096_1_0_0_1_n_n : DotDims S64x32 S32x4096 S64x4096 where
  lhsContracting := [1]
  rhsContracting := [0]
  lhsNonContracting := [0]
  rhsNonContracting := [1]
  lhsBatch := []
  rhsBatch := []
  wf := dot_S64x32_S32x4096_S64x4096_1_0_0_1_n_n_wf
def dot_S64x64_S64x4096_S64x4096_1_0_0_1_n_n : DotDims S64x64 S64x4096 S64x4096 where
  lhsContracting := [1]
  rhsContracting := [0]
  lhsNonContracting := [0]
  rhsNonContracting := [1]
  lhsBatch := []
  rhsBatch := []
  wf := dot_S64x64_S64x4096_S64x4096_1_0_0_1_n_n_wf
def dot_S32x64_S64x4096_S32x4096_1_0_0_1_n_n : DotDims S32x64 S64x4096 S32x4096 where
  lhsContracting := [1]
  rhsContracting := [0]
  lhsNonContracting := [0]
  rhsNonContracting := [1]
  lhsBatch := []
  rhsBatch := []
  wf := dot_S32x64_S64x4096_S32x4096_1_0_0_1_n_n_wf
def scatter_S8_S786432x1_S786432_n_0_0_1 : ScatterDims S8 S786432x1 S786432 where
  updateWindowDims := []
  insertedWindowDims := [0]
  scatterDimsToOperandDims := [0]
  indexVectorDim := 1
  wf := scatter_S8_S786432x1_S786432_n_0_0_1_wf
def scatter_S49152x3_S786432x1_S786432x3_1_0_0_1 : ScatterDims S49152x3 S786432x1 S786432x3 where
  updateWindowDims := [1]
  insertedWindowDims := [0]
  scatterDimsToOperandDims := [0]
  indexVectorDim := 1
  wf := scatter_S49152x3_S786432x1_S786432x3_1_0_0_1_wf
def scatter_S8x3x3_S786432x1_S786432x3x3_12_0_0_1 : ScatterDims S8x3x3 S786432x1 S786432x3x3 where
  updateWindowDims := [1, 2]
  insertedWindowDims := [0]
  scatterDimsToOperandDims := [0]
  indexVectorDim := 1
  wf := scatter_S8x3x3_S786432x1_S786432x3x3_12_0_0_1_wf
def gather_S49152_S8x1_S8_n_0_n_n_0_1_1 : GatherDims S49152 S8x1 S8 where
  offsetDims := []
  collapsedSliceDims := [0]
  operandBatchingDims := []
  startIndicesBatchingDims := []
  startIndexMap := [0]
  indexVectorDim := 1
  sliceSizes := ![1]
  wf := gather_S49152_S8x1_S8_n_0_n_n_0_1_1_wf

abbrev win0_0 : Pipeline.Window sig grid0 :=
  Pipeline.Window.ofSpec (Memref.whole main_v16) S3x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v17) S32x1.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v21) S32x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v18) S64x1.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v23) S64x32.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v24) S64x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v19) S64x1.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v26) S64x64.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg11) S64x1.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v20) S1x1.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v27) S4x4096.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

class Facts : Prop extends Facts₀ where

variable [Facts]
-- ==== ReferenceIdeal.lean ====
abbrev S49152x3 : Shape := ⟨2, ![49152, 3]⟩
abbrev S786432x3 : Shape := ⟨2, ![786432, 3]⟩
abbrev S786432 : Shape := ⟨1, ![786432]⟩
abbrev S49152 : Shape := ⟨1, ![49152]⟩
abbrev S32 : Shape := ⟨1, ![32]⟩
abbrev S32x64 : Shape := ⟨2, ![32, 64]⟩
abbrev S64 : Shape := ⟨1, ![64]⟩
abbrev S64x64 : Shape := ⟨2, ![64, 64]⟩
abbrev S64x1 : Shape := ⟨2, ![64, 1]⟩
abbrev S1 : Shape := ⟨1, ![1]⟩
abbrev S_ : Shape := ⟨0, ![]⟩
abbrev S786432x1 : Shape := ⟨2, ![786432, 1]⟩
abbrev S1x32 : Shape := ⟨2, ![1, 32]⟩
abbrev S786432x32 : Shape := ⟨2, ![786432, 32]⟩
abbrev S786432x64 : Shape := ⟨2, ![786432, 64]⟩
abbrev S1x64 : Shape := ⟨2, ![1, 64]⟩
abbrev S1x1 : Shape := ⟨2, ![1, 1]⟩
abbrev S8 : Shape := ⟨1, ![8]⟩
abbrev S786432x3x1 : Shape := ⟨3, ![786432, 3, 1]⟩
abbrev S786432x1x3 : Shape := ⟨3, ![786432, 1, 3]⟩
abbrev S786432x3x3 : Shape := ⟨3, ![786432, 3, 3]⟩
abbrev S8x3x3 : Shape := ⟨3, ![8, 3, 3]⟩
abbrev S8x1 : Shape := ⟨2, ![8, 1]⟩
abbrev S8x1x1 : Shape := ⟨3, ![8, 1, 1]⟩
abbrev S24x3 : Shape := ⟨2, ![24, 3]⟩

abbrev nBuf : Space → Nat
  | .hbm => 181
  | .vmem => 0
  | .smem => 0
  | _ => 0

abbrev hbmTy0_0 (i : Nat) : BufTy := match i % 128 with
  | 0 => ⟨S49152x3, .f32⟩
  | 1 => ⟨S786432x3, .f32⟩
  | 2 => ⟨S786432, .i32⟩
  | 3 => ⟨S786432, .i32⟩
  | 4 => ⟨S786432, .i32⟩
  | 5 => ⟨S49152, .f32⟩
  | 6 => ⟨S32, .f32⟩
  | 7 => ⟨S32x64, .f32⟩
  | 8 => ⟨S64, .f32⟩
  | 9 => ⟨S64x64, .f32⟩
  | 10 => ⟨S64, .f32⟩
  | 11 => ⟨S64x1, .f32⟩
  | 12 => ⟨S1, .f32⟩
  | 13 => ⟨S_, .i32⟩
  | 14 => ⟨S786432, .i32⟩
  | 15 => ⟨S786432, .i1⟩
  | 16 => ⟨S_, .i32⟩
  | 17 => ⟨S786432, .i32⟩
  | 18 => ⟨S786432, .i32⟩
  | 19 => ⟨S786432, .i32⟩
  | 20 => ⟨S786432x1, .i32⟩
  | 21 => ⟨S786432x3, .f32⟩
  | 22 => ⟨S786432x3, .f32⟩
  | 23 => ⟨S_, .i32⟩
  | 24 => ⟨S786432, .i32⟩
  | 25 => ⟨S786432, .i1⟩
  | 26 => ⟨S_, .i32⟩
  | 27 => ⟨S786432, .i32⟩
  | 28 => ⟨S786432, .i32⟩
  | 29 => ⟨S786432, .i32⟩
  | 30 => ⟨S786432x1, .i32⟩
  | 31 => ⟨S786432x3, .f32⟩
  | 32 => ⟨S786432x3, .f32⟩
  | 33 => ⟨S786432x3, .f32⟩
  | 34 => ⟨S_, .f32⟩
  | 35 => ⟨S786432, .f32⟩
  | 36 => ⟨S_, .f32⟩
  | 37 => ⟨S786432, .f32⟩
  | 38 => ⟨S786432, .f32⟩
  | 39 => ⟨S786432, .f32⟩
  | 40 => ⟨S_, .f32⟩
  | 41 => ⟨S786432, .f32⟩
  | 42 => ⟨S786432, .f32⟩
  | 43 => ⟨S786432x1, .f32⟩
  | 44 => ⟨S1x32, .f32⟩
  | 45 => ⟨S786432x32, .f32⟩
  | 46 => ⟨S786432x32, .f32⟩
  | 47 => ⟨S786432x32, .f32⟩
  | 48 => ⟨S786432x32, .f32⟩
  | 49 => ⟨S_, .f32⟩
  | 50 => ⟨S786432x32, .f32⟩
  | 51 => ⟨S786432x32, .f32⟩
  | 52 => ⟨S786432x32, .f32⟩
  | 53 => ⟨S786432x32, .f32⟩
  | 54 => ⟨S786432x64, .f32⟩
  | 55 => ⟨S1x64, .f32⟩
  | 56 => ⟨S786432x64, .f32⟩
  | 57 => ⟨S786432x64, .f32⟩
  | 58 => ⟨S786432x64, .f32⟩
  | 59 => ⟨S786432x64, .f32⟩
  | 60 => ⟨S_, .f32⟩
  | 61 => ⟨S786432x64, .f32⟩
  | 62 => ⟨S786432x64, .f32⟩
  | 63 => ⟨S_, .f32⟩
  | 64 => ⟨S786432x64, .f32⟩
  | 65 => ⟨S786432x64, .f32⟩
  | 66 => ⟨S_, .f32⟩
  | 67 => ⟨S786432x64, .f32⟩
  | 68 => ⟨S786432x64, .f32⟩
  | 69 => ⟨S786432x64, .f32⟩
  | 70 => ⟨S786432x64, .f32⟩
  | 71 => ⟨S786432x64, .f32⟩
  | 72 => ⟨S1x64, .f32⟩
  | 73 => ⟨S786432x64, .f32⟩
  | 74 => ⟨S786432x64, .f32⟩
  | 75 => ⟨S786432x64, .f32⟩
  | 76 => ⟨S786432x64, .f32⟩
  | 77 => ⟨S_, .f32⟩
  | 78 => ⟨S786432x64, .f32⟩
  | 79 => ⟨S786432x64, .f32⟩
  | 80 => ⟨S_, .f32⟩
  | 81 => ⟨S786432x64, .f32⟩
  | 82 => ⟨S786432x64, .f32⟩
  | 83 => ⟨S_, .f32⟩
  | 84 => ⟨S786432x64, .f32⟩
  | 85 => ⟨S786432x64, .f32⟩
  | 86 => ⟨S786432x64, .f32⟩
  | 87 => ⟨S786432x64, .f32⟩
  | 88 => ⟨S786432x1, .f32⟩
  | 89 => ⟨S1x1, .f32⟩
  | 90 => ⟨S786432x1, .f32⟩
  | 91 => ⟨S786432x1, .f32⟩
  | 92 => ⟨S786432, .f32⟩
  | 93 => ⟨S_, .f32⟩
  | 94 => ⟨S8, .f32⟩
  | 95 => ⟨S786432x1, .i32⟩
  | 96 => ⟨S8, .f32⟩
  | 97 => ⟨S_, .f32⟩
  | 98 => ⟨S8, .f32⟩
  | 99 => ⟨S_, .f32⟩
  | 100 => ⟨S8, .f32⟩
  | 101 => ⟨S1, .i32⟩
  | 102 => ⟨S_, .i32⟩
  | 103 => ⟨S786432x1, .i32⟩
  | 104 => ⟨S786432x1, .i1⟩
  | 105 => ⟨S1x1, .i32⟩
  | 106 => ⟨S786432x1, .i32⟩
  | 107 => ⟨S786432x1, .i1⟩
  | 108 => ⟨S786432x1, .i1⟩
  | 109 => ⟨S_, .i1⟩
  | 110 => ⟨S786432, .i1⟩
  | 111 => ⟨S786432, .f32⟩
  | 112 => ⟨S_, .f32⟩
  | 113 => ⟨S786432, .f32⟩
  | 114 => ⟨S786432, .f32⟩
  | 115 => ⟨S786432x1, .f32⟩
  | 116 => ⟨S786432x64, .f32⟩
  | 117 => ⟨S786432x64, .f32⟩
  | 118 => ⟨S786432x64, .f32⟩
  | 119 => ⟨S786432x64, .f32⟩
  | 120 => ⟨S786432x64, .f32⟩
  | 121 => ⟨S786432x64, .f32⟩
  | 122 => ⟨S786432x64, .f32⟩
  | 123 => ⟨S786432x64, .f32⟩
  | 124 => ⟨S786432x64, .f32⟩
  | 125 => ⟨S786432x64, .f32⟩
  | 126 => ⟨S786432x32, .f32⟩
  | 127 => ⟨S786432x32, .f32⟩
  | _ => ⟨S49152x3, .f32⟩

abbrev hbmTy0_1 (i : Nat) : BufTy := match i % 128 with
  | 0 => ⟨S786432x32, .f32⟩
  | 1 => ⟨S786432x32, .f32⟩
  | 2 => ⟨S_, .f32⟩
  | 3 => ⟨S786432, .f32⟩
  | 4 => ⟨S786432x1, .f32⟩
  | 5 => ⟨S_, .f32⟩
  | 6 => ⟨S786432, .f32⟩
  | 7 => ⟨S786432, .f32⟩
  | 8 => ⟨S786432x3, .f32⟩
  | 9 => ⟨S786432x3, .f32⟩
  | 10 => ⟨S786432x3, .f32⟩
  | 11 => ⟨S786432x3, .f32⟩
  | 12 => ⟨S786432x3, .f32⟩
  | 13 => ⟨S_, .f32⟩
  | 14 => ⟨S49152x3, .f32⟩
  | 15 => ⟨S49152x3, .f32⟩
  | 16 => ⟨S_, .f32⟩
  | 17 => ⟨S49152x3, .f32⟩
  | 18 => ⟨S49152x3, .f32⟩
  | 19 => ⟨S49152x3, .f32⟩
  | 20 => ⟨S49152x3, .f32⟩
  | 21 => ⟨S786432x3, .f32⟩
  | 22 => ⟨S786432x3x1, .f32⟩
  | 23 => ⟨S786432x1x3, .f32⟩
  | 24 => ⟨S786432x3x3, .f32⟩
  | 25 => ⟨S786432x3x3, .f32⟩
  | 26 => ⟨S786432x3x3, .f32⟩
  | 27 => ⟨S_, .f32⟩
  | 28 => ⟨S8x3x3, .f32⟩
  | 29 => ⟨S786432x1, .i32⟩
  | 30 => ⟨S8x3x3, .f32⟩
  | 31 => ⟨S8, .i32⟩
  | 32 => ⟨S_, .i32⟩
  | 33 => ⟨S8, .i32⟩
  | 34 => ⟨S8, .i32⟩
  | 35 => ⟨S_, .i32⟩
  | 36 => ⟨S8, .i32⟩
  | 37 => ⟨S8, .i1⟩
  | 38 => ⟨S_, .i32⟩
  | 39 => ⟨S8, .i32⟩
  | 40 => ⟨S8, .i32⟩
  | 41 => ⟨S8, .i32⟩
  | 42 => ⟨S8x1, .i32⟩
  | 43 => ⟨S8, .f32⟩
  | 44 => ⟨S_, .f32⟩
  | 45 => ⟨S8x3x3, .f32⟩
  | 46 => ⟨S8x3x3, .f32⟩
  | 47 => ⟨S8x1x1, .f32⟩
  | 48 => ⟨S8x3x3, .f32⟩
  | 49 => ⟨S8x3x3, .f32⟩
  | 50 => ⟨S24x3, .f32⟩
  | 51 => ⟨S_, .f32⟩
  | 52 => ⟨S1, .f32⟩
  | _ => ⟨S49152x3, .f32⟩

abbrev hbmTy (i : Nat) : BufTy := match i / 128 with
  | 0 => hbmTy0_0 i
  | 1 => hbmTy0_1 i
  | _ => ⟨S49152x3, .f32⟩

abbrev bufTy : (tb : Table) → Fin (tcTables nBuf tb) → BufTy
  | .hbm, ⟨i, _⟩ => hbmTy i
  | _, _ => ⟨S49152x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_c : Ref sig .tc := ⟨.hbm, 13, rfl⟩
abbrev main_v0 : Ref sig .tc := ⟨.hbm, 14, rfl⟩
abbrev main_v1 : Ref sig .tc := ⟨.hbm, 15, rfl⟩
abbrev main_c_0 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_c_1 : Ref sig .tc := ⟨.hbm, 23, rfl⟩
abbrev main_v8 : Ref sig .tc := ⟨.hbm, 24, rfl⟩
abbrev main_v9 : Ref sig .tc := ⟨.hbm, 25, rfl⟩
abbrev main_c_2 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_cst : Ref sig .tc := ⟨.hbm, 34, rfl⟩
abbrev main_v17 : Ref sig .tc := ⟨.hbm, 35, rfl⟩
abbrev main_cst_3 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_cst_4 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_cst_5 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_call0_v0 : Ref sig .tc := ⟨.hbm, 58, rfl⟩
abbrev main_call0_v1 : Ref sig .tc := ⟨.hbm, 59, rfl⟩
abbrev main_call0_cst : Ref sig .tc := ⟨.hbm, 60, rfl⟩
abbrev main_call0_v2 : Ref sig .tc := ⟨.hbm, 61, rfl⟩
abbrev main_call0_v3 : Ref sig .tc := ⟨.hbm, 62, rfl⟩
abbrev main_call0_cst_0 : Ref sig .tc := ⟨.hbm, 63, rfl⟩
abbrev main_call0_v4 : Ref sig .tc := ⟨.hbm, 64, rfl⟩
abbrev main_v37_2 : Ref sig .tc := ⟨.hbm, 65, rfl⟩
abbrev main_call0_cst_1 : Ref sig .tc := ⟨.hbm, 66, rfl⟩
abbrev main_call0_v6 : Ref sig .tc := ⟨.hbm, 67, rfl⟩
abbrev main_call0_v7 : Ref sig .tc := ⟨.hbm, 68, rfl⟩
abbrev main_v37_1 : Ref sig .tc := ⟨.hbm, 69, rfl⟩
abbrev main_v37_0 : Ref sig .tc := ⟨.hbm, 70, rfl⟩
abbrev main_v38 : Ref sig .tc := ⟨.hbm, 71, rfl⟩
abbrev main_v39 : Ref sig .tc := ⟨.hbm, 72, rfl⟩
abbrev main_v40 : Ref sig .tc := ⟨.hbm, 73, rfl⟩
abbrev main_v41 : Ref sig .tc := ⟨.hbm, 74, rfl⟩
abbrev main_call1_v0 : Ref sig .tc := ⟨.hbm, 75, rfl⟩
abbrev main_call1_v1 : Ref sig .tc := ⟨.hbm, 76, rfl⟩
abbrev main_call1_cst : Ref sig .tc := ⟨.hbm, 77, rfl⟩
abbrev main_call1_v2 : Ref sig .tc := ⟨.hbm, 78, rfl⟩
abbrev main_call1_v3 : Ref sig .tc := ⟨.hbm, 79, rfl⟩
abbrev main_call1_cst_0 : Ref sig .tc := ⟨.hbm, 80, rfl⟩
abbrev main_call1_v4 : Ref sig .tc := ⟨.hbm, 81, rfl⟩
abbrev main_v42_2 : Ref sig .tc := ⟨.hbm, 82, rfl⟩
abbrev main_call1_cst_1 : Ref sig .tc := ⟨.hbm, 83, rfl⟩
abbrev main_call1_v6 : Ref sig .tc := ⟨.hbm, 84, rfl⟩
abbrev main_call1_v7 : Ref sig .tc := ⟨.hbm, 85, rfl⟩
abbrev main_v42_1 : Ref sig .tc := ⟨.hbm, 86, rfl⟩
abbrev main_v42_0 : Ref sig .tc := ⟨.hbm, 87, rfl⟩
abbrev main_v43 : Ref sig .tc := ⟨.hbm, 88, rfl⟩
abbrev main_v44 : Ref sig .tc := ⟨.hbm, 89, rfl⟩
abbrev main_v45 : Ref sig .tc := ⟨.hbm, 90, rfl⟩
abbrev main_v46 : Ref sig .tc := ⟨.hbm, 91, rfl⟩
abbrev main_v47 : Ref sig .tc := ⟨.hbm, 92, rfl⟩
abbrev main_cst_6 : Ref sig .tc := ⟨.hbm, 93, rfl⟩
abbrev main_v48 : Ref sig .tc := ⟨.hbm, 94, rfl⟩
abbrev main_v49 : Ref sig .tc := ⟨.hbm, 95, rfl⟩
abbrev main_v50 : Ref sig .tc := ⟨.hbm, 96, rfl⟩
abbrev main_cst_7 : Ref sig .tc := ⟨.hbm, 97, rfl⟩
abbrev main_v51 : Ref sig .tc := ⟨.hbm, 98, rfl⟩
abbrev main_cst_8 : Ref sig .tc := ⟨.hbm, 99, rfl⟩
abbrev main_v52 : Ref sig .tc := ⟨.hbm, 100, rfl⟩
abbrev main_c_9 : Ref sig .tc := ⟨.hbm, 101, rfl⟩
abbrev main_c_10 : Ref sig .tc := ⟨.hbm, 102, rfl⟩
abbrev main_v53 : Ref sig .tc := ⟨.hbm, 103, rfl⟩
abbrev main_v54 : Ref sig .tc := ⟨.hbm, 104, rfl⟩
abbrev main_v55 : Ref sig .tc := ⟨.hbm, 105, rfl⟩
abbrev main_v56 : Ref sig .tc := ⟨.hbm, 106, rfl⟩
abbrev main_v57 : Ref sig .tc := ⟨.hbm, 107, rfl⟩
abbrev main_v58 : Ref sig .tc := ⟨.hbm, 108, rfl⟩
abbrev main_c_11 : Ref sig .tc := ⟨.hbm, 109, rfl⟩
abbrev main_v59 : Ref sig .tc := ⟨.hbm, 110, rfl⟩
abbrev main_v60 : Ref sig .tc := ⟨.hbm, 111, rfl⟩
abbrev main_cst_12 : Ref sig .tc := ⟨.hbm, 112, rfl⟩
abbrev main_v61 : Ref sig .tc := ⟨.hbm, 113, rfl⟩
abbrev main_v62 : Ref sig .tc := ⟨.hbm, 114, rfl⟩
abbrev main_v63 : Ref sig .tc := ⟨.hbm, 115, rfl⟩
abbrev main_v64 : Ref sig .tc := ⟨.hbm, 116, rfl⟩
abbrev main_call2_v0 : Ref sig .tc := ⟨.hbm, 117, rfl⟩
abbrev main_call2_v1 : Ref sig .tc := ⟨.hbm, 118, rfl⟩
abbrev main_call2_v2 : Ref sig .tc := ⟨.hbm, 119, rfl⟩
abbrev main_v65 : Ref sig .tc := ⟨.hbm, 120, rfl⟩
abbrev main_v66 : Ref sig .tc := ⟨.hbm, 121, rfl⟩
abbrev main_call3_v0 : Ref sig .tc := ⟨.hbm, 122, rfl⟩
abbrev main_call3_v1 : Ref sig .tc := ⟨.hbm, 123, rfl⟩
abbrev main_call3_v2 : Ref sig .tc := ⟨.hbm, 124, rfl⟩
abbrev main_v67 : Ref sig .tc := ⟨.hbm, 125, rfl⟩
abbrev main_v68 : Ref sig .tc := ⟨.hbm, 126, rfl⟩
abbrev main_v69 : Ref sig .tc := ⟨.hbm, 127, rfl⟩
abbrev main_v70 : Ref sig .tc := ⟨.hbm, 128, rfl⟩
abbrev main_v71 : Ref sig .tc := ⟨.hbm, 129, rfl⟩
abbrev main_cst_13 : Ref sig .tc := ⟨.hbm, 130, rfl⟩
abbrev main_v72 : Ref sig .tc := ⟨.hbm, 131, rfl⟩
abbrev main_v73 : Ref sig .tc := ⟨.hbm, 132, rfl⟩
abbrev main_cst_14 : Ref sig .tc := ⟨.hbm, 133, rfl⟩
abbrev main_v74 : Ref sig .tc := ⟨.hbm, 134, rfl⟩
abbrev main_v75 : Ref sig .tc := ⟨.hbm, 135, rfl⟩
abbrev main_v76 : Ref sig .tc := ⟨.hbm, 136, rfl⟩
abbrev main_v77 : Ref sig .tc := ⟨.hbm, 137, rfl⟩
abbrev main_v78 : Ref sig .tc := ⟨.hbm, 138, rfl⟩
abbrev main_v79 : Ref sig .tc := ⟨.hbm, 139, rfl⟩
abbrev main_v80 : Ref sig .tc := ⟨.hbm, 140, rfl⟩
abbrev main_cst_15 : Ref sig .tc := ⟨.hbm, 141, rfl⟩
abbrev main_v81 : Ref sig .tc := ⟨.hbm, 142, rfl⟩
abbrev main_v82 : Ref sig .tc := ⟨.hbm, 143, rfl⟩
abbrev main_cst_16 : Ref sig .tc := ⟨.hbm, 144, rfl⟩
abbrev main_v83 : Ref sig .tc := ⟨.hbm, 145, rfl⟩
abbrev main_v84 : Ref sig .tc := ⟨.hbm, 146, rfl⟩
abbrev main_v85 : Ref sig .tc := ⟨.hbm, 147, rfl⟩
abbrev main_v86 : Ref sig .tc := ⟨.hbm, 148, rfl⟩
abbrev main_v87 : Ref sig .tc := ⟨.hbm, 149, rfl⟩
abbrev main_v88 : Ref sig .tc := ⟨.hbm, 150, rfl⟩
abbrev main_v89 : Ref sig .tc := ⟨.hbm, 151, rfl⟩
abbrev main_v90 : Ref sig .tc := ⟨.hbm, 152, rfl⟩
abbrev main_v91 : Ref sig .tc := ⟨.hbm, 153, rfl⟩
abbrev main_v92 : Ref sig .tc := ⟨.hbm, 154, rfl⟩
abbrev main_cst_17 : Ref sig .tc := ⟨.hbm, 155, rfl⟩
abbrev main_v93 : Ref sig .tc := ⟨.hbm, 156, rfl⟩
abbrev main_v94 : Ref sig .tc := ⟨.hbm, 157, rfl⟩
abbrev main_v95 : Ref sig .tc := ⟨.hbm, 158, rfl⟩
abbrev main_v96 : Ref sig .tc := ⟨.hbm, 159, rfl⟩
abbrev main_c_18 : Ref sig .tc := ⟨.hbm, 160, rfl⟩
abbrev main_v97 : Ref sig .tc := ⟨.hbm, 161, rfl⟩
abbrev main_v98 : Ref sig .tc := ⟨.hbm, 162, rfl⟩
abbrev main_c_19 : Ref sig .tc := ⟨.hbm, 163, rfl⟩
abbrev main_v99 : Ref sig .tc := ⟨.hbm, 164, rfl⟩
abbrev main_v100 : Ref sig .tc := ⟨.hbm, 165, rfl⟩
abbrev main_c_20 : Ref sig .tc := ⟨.hbm, 166, rfl⟩
abbrev main_v101 : Ref sig .tc := ⟨.hbm, 167, rfl⟩
abbrev main_v102 : Ref sig .tc := ⟨.hbm, 168, rfl⟩
abbrev main_v103 : Ref sig .tc := ⟨.hbm, 169, rfl⟩
abbrev main_v104 : Ref sig .tc := ⟨.hbm, 170, rfl⟩
abbrev main_v105 : Ref sig .tc := ⟨.hbm, 171, rfl⟩
abbrev main_cst_21 : Ref sig .tc := ⟨.hbm, 172, rfl⟩
abbrev main_v106 : Ref sig .tc := ⟨.hbm, 173, rfl⟩
abbrev main_v107 : Ref sig .tc := ⟨.hbm, 174, rfl⟩
abbrev main_v108 : Ref sig .tc := ⟨.hbm, 175, rfl⟩
abbrev main_v109 : Ref sig .tc := ⟨.hbm, 176, rfl⟩
abbrev main_v110 : Ref sig .tc := ⟨.hbm, 177, rfl⟩
abbrev main_v111 : Ref sig .tc := ⟨.hbm, 178, rfl⟩
abbrev main_cst_22 : Ref sig .tc := ⟨.hbm, 179, rfl⟩
abbrev main_v112 : Ref sig .tc := ⟨.hbm, 180, rfl⟩

abbrev nD : Nat := 1
abbrev τ : Topo := Topo.v7x

variable {F : FTy → Type} [FloatOps F]

class Facts₀ : Prop where
  bcast_S_S786432 : S_.BroadcastsInDim S786432 (![] : Fin 0 → Fin S786432.rank)
  bcast_S786432_S786432x1_0 : S786432.BroadcastsInDim S786432x1 (![0] : Fin 1 → Fin S786432x1.rank)
  reducesTo_S786432x3_S786432_d1 : S786432x3.ReducesTo [1] S786432
  h_S_ : 0 < S_.numel
  bcast_S32_S1x32_1 : S32.BroadcastsInDim S1x32 (![1] : Fin 1 → Fin S1x32.rank)
  bcast_S786432x1_S786432x32_0_1 : S786432x1.BroadcastsInDim S786432x32 (![0, 1] : Fin 2 → Fin S786432x32.rank)
  bcast_S1x32_S786432x32_0_1 : S1x32.BroadcastsInDim S786432x32 (![0, 1] : Fin 2 → Fin S786432x32.rank)
  bcast_S_S786432x32 : S_.BroadcastsInDim S786432x32 (![] : Fin 0 → Fin S786432x32.rank)
  bcast_S64_S1x64_1 : S64.BroadcastsInDim S1x64 (![1] : Fin 1 → Fin S1x64.rank)
  bcast_S1x64_S786432x64_0_1 : S1x64.BroadcastsInDim S786432x64 (![0, 1] : Fin 2 → Fin S786432x64.rank)
  bcast_S_S786432x64 : S_.BroadcastsInDim S786432x64 (![] : Fin 0 → Fin S786432x64.rank)
  bcast_S1_S1x1_1 : S1.BroadcastsInDim S1x1 (![1] : Fin 1 → Fin S1x1.rank)
  bcast_S1x1_S786432x1_0_1 : S1x1.BroadcastsInDim S786432x1 (![0, 1] : Fin 2 → Fin S786432x1.rank)
  shapeCasts_S786432x1_S786432 : S786432x1.ShapeCasts S786432
  bcast_S_S8 : S_.BroadcastsInDim S8 (![] : Fin 0 → Fin S8.rank)
  bcast_S_S786432x1 : S_.BroadcastsInDim S786432x1 (![] : Fin 0 → Fin S786432x1.rank)
  reducesTo_S786432x1_S786432_d1 : S786432x1.ReducesTo [1] S786432
  reducesTo_S786432x32_S786432_d1 : S786432x32.ReducesTo [1] S786432
  shapeCasts_S786432_S786432x1 : S786432.ShapeCasts S786432x1
  bcast_S786432_S786432x3_0 : S786432.BroadcastsInDim S786432x3 (![0] : Fin 1 → Fin S786432x3.rank)
  bcast_S_S49152x3 : S_.BroadcastsInDim S49152x3 (![] : Fin 0 → Fin S49152x3.rank)
  bcast_S786432x3_S786432x3x1_0_1 : S786432x3.BroadcastsInDim S786432x3x1 (![0, 1] : Fin 2 → Fin S786432x3x1.rank)
  bcast_S786432x3_S786432x1x3_0_2 : S786432x3.BroadcastsInDim S786432x1x3 (![0, 2] : Fin 2 → Fin S786432x1x3.rank)
  bcast_S786432x3x1_S786432x3x3_0_1_2 : S786432x3x1.BroadcastsInDim S786432x3x3 (![0, 1, 2] : Fin 3 → Fin S786432x3x3.rank)
  bcast_S786432x1x3_S786432x3x3_0_1_2 : S786432x1x3.BroadcastsInDim S786432x3x3 (![0, 1, 2] : Fin 3 → Fin S786432x3x3.rank)
  bcast_S_S8x3x3 : S_.BroadcastsInDim S8x3x3 (![] : Fin 0 → Fin S8x3x3.rank)
  bcast_S8_S8x1_0 : S8.BroadcastsInDim S8x1 (![0] : Fin 1 → Fin S8x1.rank)
  bcast_S8_S8x1x1_0 : S8.BroadcastsInDim S8x1x1 (![0] : Fin 1 → Fin S8x1x1.rank)
  bcast_S8x1x1_S8x3x3_0_1_2 : S8x1x1.BroadcastsInDim S8x3x3 (![0, 1, 2] : Fin 3 → Fin S8x3x3.rank)
  shapeCasts_S8x3x3_S24x3 : S8x3x3.ShapeCasts S24x3
  bcast_S_S1 : S_.BroadcastsInDim S1 (![] : Fin 0 → Fin S1.rank)
  gather_S49152x3_S786432x1_S786432x3_1_0_n_n_0_1_13_wf : GatherDims.WF S49152x3 S786432x1 S786432x3 [1] [0] [] [0] [] 1 ![1, 3]
  dot_S786432x32_S32x64_S786432x64_1_0_0_1_n_n_wf : DotDims.WF S786432x32 S32x64 S786432x64 [1] [0] [0] [1] [] []
  dot_S786432x64_S64x64_S786432x64_1_0_0_1_n_n_wf : DotDims.WF S786432x64 S64x64 S786432x64 [1] [0] [0] [1] [] []
  dot_S786432x64_S64x1_S786432x1_1_0_0_1_n_n_wf : DotDims.WF S786432x64 S64x1 S786432x1 [1] [0] [0] [1] [] []
  scatter_S8_S786432x1_S786432_n_0_0_1_wf : ScatterDims.WF S8 S786432x1 S786432 [] [0] [0] 1
  gather_S8_S786432x1_S786432_n_0_n_n_0_1_1_wf : GatherDims.WF S8 S786432x1 S786432 [] [0] [] [0] [] 1 ![1]
  dot_S786432x1_S64x1_S786432x64_1_1_0_0_n_n_wf : DotDims.WF S786432x1 S64x1 S786432x64 [1] [1] [0] [0] [] []
  dot_S786432x64_S64x64_S786432x64_1_1_0_0_n_n_wf : DotDims.WF S786432x64 S64x64 S786432x64 [1] [1] [0] [0] [] []
  dot_S786432x64_S32x64_S786432x32_1_1_0_0_n_n_wf : DotDims.WF S786432x64 S32x64 S786432x32 [1] [1] [0] [0] [] []
  scatter_S49152x3_S786432x1_S786432x3_1_0_0_1_wf : ScatterDims.WF S49152x3 S786432x1 S786432x3 [1] [0] [0] 1
  scatter_S8x3x3_S786432x1_S786432x3x3_12_0_0_1_wf : ScatterDims.WF S8x3x3 S786432x1 S786432x3x3 [1, 2] [0] [0] 1
  gather_S49152_S8x1_S8_n_0_n_n_0_1_1_wf : GatherDims.WF S49152 S8x1 S8 [] [0] [] [0] [] 1 ![1]

variable [Facts₀]

def gather_S49152x3_S786432x1_S786432x3_1_0_n_n_0_1_13 : GatherDims S49152x3 S786432x1 S786432x3 where
  offsetDims := [1]
  collapsedSliceDims := [0]
  operandBatchingDims := []
  startIndicesBatchingDims := []
  startIndexMap := [0]
  indexVectorDim := 1
  sliceSizes := ![1, 3]
  wf := gather_S49152x3_S786432x1_S786432x3_1_0_n_n_0_1_13_wf
def dot_S786432x32_S32x64_S786432x64_1_0_0_1_n_n : DotDims S786432x32 S32x64 S786432x64 where
  lhsContracting := [1]
  rhsContracting := [0]
  lhsNonContracting := [0]
  rhsNonContracting := [1]
  lhsBatch := []
  rhsBatch := []
  wf := dot_S786432x32_S32x64_S786432x64_1_0_0_1_n_n_wf
def dot_S786432x64_S64x64_S786432x64_1_0_0_1_n_n : DotDims S786432x64 S64x64 S786432x64 where
  lhsContracting := [1]
  rhsContracting := [0]
  lhsNonContracting := [0]
  rhsNonContracting := [1]
  lhsBatch := []
  rhsBatch := []
  wf := dot_S786432x64_S64x64_S786432x64_1_0_0_1_n_n_wf
def dot_S786432x64_S64x1_S786432x1_1_0_0_1_n_n : DotDims S786432x64 S64x1 S786432x1 where
  lhsContracting := [1]
  rhsContracting := [0]
  lhsNonContracting := [0]
  rhsNonContracting := [1]
  lhsBatch := []
  rhsBatch := []
  wf := dot_S786432x64_S64x1_S786432x1_1_0_0_1_n_n_wf
def scatter_S8_S786432x1_S786432_n_0_0_1 : ScatterDims S8 S786432x1 S786432 where
  updateWindowDims := []
  insertedWindowDims := [0]
  scatterDimsToOperandDims := [0]
  indexVectorDim := 1
  wf := scatter_S8_S786432x1_S786432_n_0_0_1_wf
def gather_S8_S786432x1_S786432_n_0_n_n_0_1_1 : GatherDims S8 S786432x1 S786432 where
  offsetDims := []
  collapsedSliceDims := [0]
  operandBatchingDims := []
  startIndicesBatchingDims := []
  startIndexMap := [0]
  indexVectorDim := 1
  sliceSizes := ![1]
  wf := gather_S8_S786432x1_S786432_n_0_n_n_0_1_1_wf
def dot_S786432x1_S64x1_S786432x64_1_1_0_0_n_n : DotDims S786432x1 S64x1 S786432x64 where
  lhsContracting := [1]
  rhsContracting := [1]
  lhsNonContracting := [0]
  rhsNonContracting := [0]
  lhsBatch := []
  rhsBatch := []
  wf := dot_S786432x1_S64x1_S786432x64_1_1_0_0_n_n_wf
def dot_S786432x64_S64x64_S786432x64_1_1_0_0_n_n : DotDims S786432x64 S64x64 S786432x64 where
  lhsContracting := [1]
  rhsContracting := [1]
  lhsNonContracting := [0]
  rhsNonContracting := [0]
  lhsBatch := []
  rhsBatch := []
  wf := dot_S786432x64_S64x64_S786432x64_1_1_0_0_n_n_wf
def dot_S786432x64_S32x64_S786432x32_1_1_0_0_n_n : DotDims S786432x64 S32x64 S786432x32 where
  lhsContracting := [1]
  rhsContracting := [1]
  lhsNonContracting := [0]
  rhsNonContracting := [0]
  lhsBatch := []
  rhsBatch := []
  wf := dot_S786432x64_S32x64_S786432x32_1_1_0_0_n_n_wf
def scatter_S49152x3_S786432x1_S786432x3_1_0_0_1 : ScatterDims S49152x3 S786432x1 S786432x3 where
  updateWindowDims := [1]
  insertedWindowDims := [0]
  scatterDimsToOperandDims := [0]
  indexVectorDim := 1
  wf := scatter_S49152x3_S786432x1_S786432x3_1_0_0_1_wf
def scatter_S8x3x3_S786432x1_S786432x3x3_12_0_0_1 : ScatterDims S8x3x3 S786432x1 S786432x3x3 where
  updateWindowDims := [1, 2]
  insertedWindowDims := [0]
  scatterDimsToOperandDims := [0]
  indexVectorDim := 1
  wf := scatter_S8x3x3_S786432x1_S786432x3x3_12_0_0_1_wf
def gather_S49152_S8x1_S8_n_0_n_n_0_1_1 : GatherDims S49152 S8x1 S8 where
  offsetDims := []
  collapsedSliceDims := [0]
  operandBatchingDims := []
  startIndicesBatchingDims := []
  startIndexMap := [0]
  indexVectorDim := 1
  sliceSizes := ![1]
  wf := gather_S49152_S8x1_S8_n_0_n_n_0_1_1_wf

class Facts : Prop extends Facts₀ where

variable [Facts]
-- ==== Proof.Consts.lean ====
/-
  The float constants the two programs spell, as the extended reals their bit patterns denote:
  0, 1, -2, 2, 1/2, and the small positive shift that keeps an edge's length away from zero.
-/
import Idealize.ShloMosaic.PureOps.Ideal
import Idealize.ShloMosaic.PureOps.Ideal.Laws

noncomputable section

namespace Cert.EdgeMlp.Consts

open Idealize.ShloMosaic

/-- The pattern of +0.0 denotes 0. -/
theorem ofBits_zero : Ideal.ofBits .f32 0x00000000#32 = 0 := Ideal.ofBits_zero_f32

/-- The pattern of 1.0 denotes 1. -/
theorem ofBits_one : Ideal.ofBits .f32 0x3F800000#32 = ((1 : ℝ) : EReal) := by
  simp [Ideal.ofBits, Ideal.ieee, -EReal.coe_mul]; norm_num

/-- The pattern of 2.0 denotes 2. -/
theorem ofBits_two : Ideal.ofBits .f32 0x40000000#32 = ((2 : ℝ) : EReal) := by
  simp [Ideal.ofBits, Ideal.ieee, -EReal.coe_mul]; norm_num

/-- The pattern of -2.0 denotes -2. -/
theorem ofBits_neg_two : Ideal.ofBits .f32 0xC0000000#32 = ((-2 : ℝ) : EReal) := by
  simp [Ideal.ofBits, Ideal.ieee, -EReal.coe_mul]; norm_num

/-- The pattern of 0.5 denotes 1/2. -/
theorem ofBits_half : Ideal.ofBits .f32 0x3F000000#32 = ((1 / 2 : ℝ) : EReal) := by
  simp [Ideal.ofBits, Ideal.ieee, -EReal.coe_mul]; norm_num

/-- The shift under the square root, as a real number (a positive dyadic rational close to 1e-12). -/
def epsR : ℝ := 9223372 / 2 ^ 63

/-- The shift's pattern denotes that real. -/
theorem ofBits_eps : Ideal.ofBits .f32 0x2B8CBCCC#32 = ((epsR : ℝ) : EReal) := by
  simp [Ideal.ofBits, Ideal.ieee, -EReal.coe_mul, epsR]; norm_num

/-- The shift is positive. -/
theorem epsR_pos : 0 < epsR := by unfold epsR; positivity

end Cert.EdgeMlp.Consts

end
-- ==== Proof.Spec.lean ====
/-
  One edge of the network, written twice over the extended reals.

  An edge has a displacement D (three coordinates). Its length is len = sqrt (sum of squares + shift); the
  radial features are rbf k = exp (-(len - c k)^2); two layers z1 = rbf W1 + b1, h1 = z1 sig(z1) and
  z2 = h1 W2 + b2, h2 = z2 sig(z2) follow (sig the logistic function); the edge energy is h2 W3 + b3.
  The gradient of the energy in D is what the forces and stresses are made of.

  The kernel computes that gradient by the chain rule written out by hand, with the cotangent of the
  energy fixed at 1; the reference gets it from reverse-mode differentiation, which keeps the cotangent
  ct as data, splits a product's cotangent into two summands, and carries the factor 1/2 of the square
  root's derivative. The definitions kerE, kerG follow the kernel's order of operations and refE, refG
  the reference's, operation by operation, so that each program reads as its own definition; that the two
  agree on real data is proved apart (ker_eq_ref).
-/
import Idealize.ShloMosaic.PureOps.Ideal
import Idealize.ShloMosaic.PureOps.Ideal.Laws

noncomputable section

namespace Cert.EdgeMlp

open Idealize.ShloMosaic

/-- The network's parameters: radial centres, two hidden layers, the output layer. -/
structure Params where
  c : Fin 32 → EReal
  W1 : Fin 32 → Fin 64 → EReal
  b1 : Fin 64 → EReal
  W2 : Fin 64 → Fin 64 → EReal
  b2 : Fin 64 → EReal
  W3 : Fin 64 → EReal
  b3 : EReal

/-- The float literals of the two programs, by their patterns. -/
abbrev zero32 : EReal := Ideal.ofBits .f32 0x00000000#32
abbrev one32 : EReal := Ideal.ofBits .f32 0x3F800000#32
abbrev two32 : EReal := Ideal.ofBits .f32 0x40000000#32
abbrev negtwo32 : EReal := Ideal.ofBits .f32 0xC0000000#32
abbrev half32 : EReal := Ideal.ofBits .f32 0x3F000000#32
abbrev eps32 : EReal := Ideal.ofBits .f32 0x2B8CBCCC#32

variable (P : Params) (D : Fin 3 → EReal)

/-! ## The kernel's order of operations -/

def kLen : EReal := Ideal.sqrt ((∑ a : Fin 3, D a * D a) + eps32)
def kDiff (k : Fin 32) : EReal := kLen D - P.c k
def kRbf (k : Fin 32) : EReal := Ideal.exp (zero32 - kDiff P D k * kDiff P D k)
def kZ1 (h : Fin 64) : EReal := (∑ k : Fin 32, P.W1 k h * kRbf P D k) + P.b1 h
def kS1 (h : Fin 64) : EReal := Ideal.logistic (kZ1 P D h)
def kH1 (h : Fin 64) : EReal := kZ1 P D h * kS1 P D h
def kZ2 (h : Fin 64) : EReal := (∑ j : Fin 64, P.W2 j h * kH1 P D j) + P.b2 h
def kS2 (h : Fin 64) : EReal := Ideal.logistic (kZ2 P D h)
def kH2 (h : Fin 64) : EReal := kZ2 P D h * kS2 P D h
/-- The edge energy, the kernel's way. -/
def kerE : EReal := (∑ h : Fin 64, kH2 P D h * P.W3 h) + P.b3
def kDz2 (h : Fin 64) : EReal := P.W3 h * (kS2 P D h + kZ2 P D h * (kS2 P D h * (one32 - kS2 P D h)))
def kDh1 (j : Fin 64) : EReal := ∑ h : Fin 64, P.W2 j h * kDz2 P D h
def kDz1 (j : Fin 64) : EReal := kDh1 P D j * (kS1 P D j + kZ1 P D j * (kS1 P D j * (one32 - kS1 P D j)))
def kDrbf (k : Fin 32) : EReal := ∑ h : Fin 64, P.W1 k h * kDz1 P D h
def kSum : EReal := ∑ k : Fin 32, (kDrbf P D k * (negtwo32 * kDiff P D k)) * kRbf P D k
/-- The energy's gradient in the displacement, the kernel's way. -/
def kerG (a : Fin 3) : EReal := Ideal.div (kSum P D) (kLen D) * D a

/-! ## The reference's order of operations -/

def rLen : EReal := Ideal.sqrt ((zero32 + ∑ a : Fin 3, D a * D a) + eps32)
def rHalf : EReal := Ideal.div half32 (rLen D)
def rDiff (k : Fin 32) : EReal := rLen D - P.c k
def rTwo (k : Fin 32) : EReal := two32 * rDiff P D k
def rRbf (k : Fin 32) : EReal := Ideal.exp (-(rDiff P D k * rDiff P D k))
def rZ1 (h : Fin 64) : EReal := (∑ k : Fin 32, rRbf P D k * P.W1 k h) + P.b1 h
/-- The logistic function as the reference spells it. -/
def rSig (z : EReal) : EReal := Ideal.div one32 (one32 + Ideal.exp (-z))
def rS1 (h : Fin 64) : EReal := rSig (rZ1 P D h)
def rDs1 (h : Fin 64) : EReal := rS1 P D h * (one32 - rS1 P D h)
def rH1 (h : Fin 64) : EReal := rZ1 P D h * rS1 P D h
def rZ2 (h : Fin 64) : EReal := (∑ j : Fin 64, rH1 P D j * P.W2 j h) + P.b2 h
def rS2 (h : Fin 64) : EReal := rSig (rZ2 P D h)
def rDs2 (h : Fin 64) : EReal := rS2 P D h * (one32 - rS2 P D h)
def rH2 (h : Fin 64) : EReal := rZ2 P D h * rS2 P D h
/-- The edge energy, the reference's way. -/
def refE : EReal := (∑ h : Fin 64, rH2 P D h * P.W3 h) + P.b3

variable (ct : EReal)

def rCtH2 (h : Fin 64) : EReal := ∑ _j : Fin 1, ct * P.W3 h
def rCtZ2 (h : Fin 64) : EReal := rCtH2 P ct h * rS2 P D h + (rZ2 P D h * rCtH2 P ct h) * rDs2 P D h
def rCtH1 (j : Fin 64) : EReal := ∑ h : Fin 64, rCtZ2 P D ct h * P.W2 j h
def rCtZ1 (j : Fin 64) : EReal := rCtH1 P D ct j * rS1 P D j + (rZ1 P D j * rCtH1 P D ct j) * rDs1 P D j
def rCtRbf (k : Fin 32) : EReal := ∑ h : Fin 64, rCtZ1 P D ct h * P.W1 k h
def rTerm (k : Fin 32) : EReal := (-(rCtRbf P D ct k * rRbf P D k)) * rTwo P D k
def rSum : EReal := zero32 + ∑ _j : Fin 1, (zero32 + ∑ k : Fin 32, rTerm P D ct k)
def rX : EReal := rSum P D ct * rHalf D
/-- The energy's gradient in the displacement, the reference's way, at cotangent ct. -/
def refG (a : Fin 3) : EReal := D a * rX P D ct + rX P D ct * D a

/-! ## Real data -/

/-- Every parameter is a real number. -/
structure Params.IsReal (P : Params) : Prop where
  c : ∀ k, ∃ r : ℝ, P.c k = (r : EReal)
  W1 : ∀ k h, ∃ r : ℝ, P.W1 k h = (r : EReal)
  b1 : ∀ h, ∃ r : ℝ, P.b1 h = (r : EReal)
  W2 : ∀ j h, ∃ r : ℝ, P.W2 j h = (r : EReal)
  b2 : ∀ h, ∃ r : ℝ, P.b2 h = (r : EReal)
  W3 : ∀ h, ∃ r : ℝ, P.W3 h = (r : EReal)
  b3 : ∃ r : ℝ, P.b3 = (r : EReal)

end Cert.EdgeMlp

end
-- ==== Proof.ArrSpec.lean ====
/-
  The two programs' shared data, read out of the argument arrays: the network's parameters, the row of the position
  table a node index word addresses (negative words wrap once by the table's height, then the row is clamped into
  the table), the displacement of edge e (its bond vector plus the destination's position minus the source's), and
  the array of four rows by edges that the kernel's launch leaves: the gradient in rows 0 to 2, the energy in row 3.
-/
import proofs.«419757_j17763984736960_3_alg».proof.Proof.Spec
import Idealize.ShloMosaic.PureOps
import Idealize.ShloMosaic.Lib.ValueIdx

noncomputable section

namespace Cert.EdgeMlp

open Idealize.ShloMosaic Idealize.ShloMosaic.ValueIdx

/-- The parameters, from the seven parameter arrays. -/
def paramsOf (x6 : FVec Ideal ⟨1, ![32]⟩ .f32) (x7 : FVec Ideal ⟨2, ![32, 64]⟩ .f32) (x8 : FVec Ideal ⟨1, ![64]⟩ .f32)
    (x9 : FVec Ideal ⟨2, ![64, 64]⟩ .f32) (x10 : FVec Ideal ⟨1, ![64]⟩ .f32) (x11 : FVec Ideal ⟨2, ![64, 1]⟩ .f32)
    (x12 : FVec Ideal ⟨1, ![1]⟩ .f32) : Params where
  c k := x6 (ix1 k)
  W1 k h := x7 (ix2 k h)
  b1 h := x8 (ix1 h)
  W2 j h := x9 (ix2 j h)
  b2 h := x10 (ix1 h)
  W3 h := x11 (ix2 h (0 : Fin 1))
  b3 := x12 (ix1 (0 : Fin 1))

/-- A negative node index word wraps once by the number of nodes. -/
def normWord (w : BitVec 32) : BitVec 32 := Scalar.select (IntOp.cmpi .slt w 0#32) (IntOp.addi w 49152#32) w

/-- The row of the position table a (wrapped) index word addresses: read signed, clamped into the table. -/
def rowOf (w : BitVec 32) : Fin 49152 := ⟨min w.toInt.toNat (49152 - 1), by omega⟩

/-- Edge e's displacement: bond vector plus destination position minus source position. -/
def dispAt (x0 : FVec Ideal ⟨2, ![49152, 3]⟩ .f32) (x1 : FVec Ideal ⟨2, ![786432, 3]⟩ .f32)
    (x2 x3 : IVec ⟨1, ![786432]⟩ 32) (e : Fin 786432) (a : Fin 3) : EReal :=
  (x1 (ix2 e a) + x0 (ix2 (rowOf (normWord (x3 (ix1 e)))) a)) - x0 (ix2 (rowOf (normWord (x2 (ix1 e)))) a)

/-- What the launch leaves at row r of edge e: the gradient's coordinate r in rows 0 to 2, the energy in row 3. -/
def outAt (P : Params) (D : Fin 786432 → Fin 3 → EReal) (r : Fin 4) (e : Fin 786432) : EReal :=
  if h : r.val < 3 then kerG P (D e) ⟨r.val, h⟩ else kerE P (D e)

end Cert.EdgeMlp

end
-- ==== Proof.KArgs.lean ====
/-
  The kernel program's argument arrays on a core, and what the two sides' shared data is in terms of them: the
  network's parameters, every edge's displacement, and the edge that lane l of grid point t works on (t blocks of
  4096 edges come before it).
-/
import proofs.«419757_j17763984736960_3_alg».proof.KernelIdeal
import proofs.«419757_j17763984736960_3_alg».proof.Proof.ArrSpec

noncomputable section

namespace Cert.KernelIdeal.KArgs

open Idealize.ShloMosaic Idealize.ShloMosaic.ValueIdx Idealize.SL.Sem Cert.KernelIdeal Cert.EdgeMlp

variable [Facts]
open Facts₀ Facts

variable (m : (ℓ : Loc nD τ sig) → Buf (Elt Ideal) ℓ)

abbrev A0 (c : Dev nD) : FVec Ideal S49152x3 .f32 := m ((c.tc : Thread nD τ).loc main_arg0)
abbrev A1 (c : Dev nD) : FVec Ideal S786432x3 .f32 := m ((c.tc : Thread nD τ).loc main_arg1)
abbrev A2 (c : Dev nD) : IVec S786432 32 := m ((c.tc : Thread nD τ).loc main_arg2)
abbrev A3 (c : Dev nD) : IVec S786432 32 := m ((c.tc : Thread nD τ).loc main_arg3)
abbrev A4 (c : Dev nD) : IVec S786432 32 := m ((c.tc : Thread nD τ).loc main_arg4)
abbrev A5 (c : Dev nD) : FVec Ideal S49152 .f32 := m ((c.tc : Thread nD τ).loc main_arg5)
abbrev A6 (c : Dev nD) : FVec Ideal S32 .f32 := m ((c.tc : Thread nD τ).loc main_arg6)
abbrev A7 (c : Dev nD) : FVec Ideal S32x64 .f32 := m ((c.tc : Thread nD τ).loc main_arg7)
abbrev A8 (c : Dev nD) : FVec Ideal S64 .f32 := m ((c.tc : Thread nD τ).loc main_arg8)
abbrev A9 (c : Dev nD) : FVec Ideal S64x64 .f32 := m ((c.tc : Thread nD τ).loc main_arg9)
abbrev A10 (c : Dev nD) : FVec Ideal S64 .f32 := m ((c.tc : Thread nD τ).loc main_arg10)
abbrev A11 (c : Dev nD) : FVec Ideal S64x1 .f32 := m ((c.tc : Thread nD τ).loc main_arg11)
abbrev A12 (c : Dev nD) : FVec Ideal S1 .f32 := m ((c.tc : Thread nD τ).loc main_arg12)

/-- The network's parameters, from core c's parameter arrays. -/
def P (c : Dev nD) : Params := paramsOf (A6 m c) (A7 m c) (A8 m c) (A9 m c) (A10 m c) (A11 m c) (A12 m c)

/-- Every edge's displacement, from core c's positions, bond vectors and node index arrays. -/
def D (c : Dev nD) : Fin 786432 → Fin 3 → EReal := dispAt (A0 m c) (A1 m c) (A2 m c) (A3 m c)

/-- The edge lane l of grid point t works on. -/
def edgeOf (t : Fin 192) (l : Fin 4096) : Fin 786432 := ⟨t.val * 4096 + l.val, by have := t.isLt; have := l.isLt; omega⟩

end Cert.KernelIdeal.KArgs

end
-- ==== Proof.KRes.lean ====
/-
  The kernel program's four results as functions of the argument arrays and of what its launch leaves.
  The launch's output has the gradient of each edge's energy in rows 0 to 2 and the energy in row 3; the host
  lines after it transpose the gradient back to one row per edge (gmat), flatten the energies (evec), sum the energies
  per graph, sum the gradients per node at the destinations and at the sources (the forces are the negated difference),
  and form the per-graph stress from the outer products of bond vectors and per-edge forces (one chain of operations,
  stressOf, which the reference applies to its own per-edge forces as well).
-/
import proofs.«419757_j17763984736960_3_alg».proof.KernelIdeal
import proofs.«419757_j17763984736960_3_alg».proof.Proof.ArrSpec

noncomputable section

namespace Cert.KernelIdeal.KRes

open Idealize.ShloMosaic Idealize.ShloMosaic.ValueIdx Cert.KernelIdeal Cert.EdgeMlp

variable [Facts]
open Facts₀ Facts

/-- The stress chain: from bond vectors, graph ids, volumes and the per-edge forces to the [24,3] stresses. -/
def stressOf {F : FTy → Type} [FloatOps F] (x1 : FVec F S786432x3 .f32) (x4 : IVec S786432 32) (x5 : FVec F S49152 .f32)
    (f : FVec F S786432x3 .f32) : FVec F S24x3 .f32 :=
  let v44 : FVec F S786432x3x1 .f32 := broadcastInDim S786432x3x1 ![0, 1] bcast_S786432x3_S786432x3x1_0_1 x1
  let v45 : FVec F S786432x1x3 .f32 := broadcastInDim S786432x1x3 ![0, 2] bcast_S786432x3_S786432x1x3_0_2 f
  let v46 : FVec F S786432x3x3 .f32 := broadcastInDim S786432x3x3 ![0, 1, 2] bcast_S786432x3x1_S786432x3x3_0_1_2 v44
  let v47 : FVec F S786432x3x3 .f32 := broadcastInDim S786432x3x3 ![0, 1, 2] bcast_S786432x1x3_S786432x3x3_0_1_2 v45
  let v48 : FVec F S786432x3x3 .f32 := mulf v46 v47
  let v49 : FVec F S8x3x3 .f32 := broadcastInDim S8x3x3 ![] bcast_S_S8x3x3 (constant S_ .f32 0x00000000#32)
  let v50 : IVec S786432x1 32 := broadcastInDim S786432x1 ![0] bcast_S786432_S786432x1_0 x4
  let v51 : FVec F S8x3x3 .f32 := Host.scatterAdd scatter_S8x3x3_S786432x1_S786432x3x3_12_0_0_1 v49 v50 v48
  let v52 : IVec S8 32 := iotaInDim S8 32 0
  let v53 : IVec S8 32 := broadcastInDim S8 ![] bcast_S_S8 (constantI S_ 32 6144#32)
  let v54 : IVec S8 32 := muli v52 v53
  let v55 : IVec S8 32 := broadcastInDim S8 ![] bcast_S_S8 (constantI S_ 32 0#32)
  let v56 : IVec S8 1 := cmpi .slt v54 v55
  let v57 : IVec S8 32 := broadcastInDim S8 ![] bcast_S_S8 (constantI S_ 32 49152#32)
  let v58 : IVec S8 32 := addi v54 v57
  let v59 : IVec S8 32 := select v56 v58 v54
  let v60 : IVec S8x1 32 := broadcastInDim S8x1 ![0] bcast_S8_S8x1_0 v59
  let v61 : FVec F S8 .f32 := Host.gather gather_S49152_S8x1_S8_n_0_n_n_0_1_1 x5 v60
  let v62 : FVec F S8x3x3 .f32 := broadcastInDim S8x3x3 ![] bcast_S_S8x3x3 (constant S_ .f32 0xC32037B9#32)
  let v63 : FVec F S8x3x3 .f32 := mulf v62 v51
  let v64 : FVec F S8x1x1 .f32 := broadcastInDim S8x1x1 ![0] bcast_S8_S8x1x1_0 v61
  let v65 : FVec F S8x3x3 .f32 := broadcastInDim S8x3x3 ![0, 1, 2] bcast_S8x1x1_S8x3x3_0_1_2 v64
  let v66 : FVec F S8x3x3 .f32 := Host.divf v63 v65
  shapeCast S24x3 v66 shapeCasts_S8x3x3_S24x3

/-- The energies of the edges, one per edge. -/
def evec (P : Params) (D : Fin 786432 → Fin 3 → EReal) : FVec Ideal S786432 .f32 := fun i => kerE P (D (i 0))

/-- The gradients of the edges' energies, one row per edge. -/
def gmat (P : Params) (D : Fin 786432 → Fin 3 → EReal) : FVec Ideal S786432x3 .f32 := fun i => kerG P (D (i 0)) (i 1)

/-- The energies summed per graph. -/
def resE (x4 : IVec S786432 32) (ev : FVec Ideal S786432 .f32) : FVec Ideal S8 .f32 :=
  Host.scatterAdd scatter_S8_S786432x1_S786432_n_0_0_1 (broadcastInDim S8 ![] bcast_S_S8 (constant S_ .f32 0x00000000#32))
    (broadcastInDim S786432x1 ![0] bcast_S786432_S786432x1_0 x4) ev

/-- The forces: minus (the gradients summed at the destinations minus the gradients summed at the sources). -/
def resF (x2 x3 : IVec S786432 32) (g : FVec Ideal S786432x3 .f32) : FVec Ideal S49152x3 .f32 :=
  Host.negf (subf
    (Host.scatterAdd scatter_S49152x3_S786432x1_S786432x3_1_0_0_1 (broadcastInDim S49152x3 ![] bcast_S_S49152x3 (constant S_ .f32 0x00000000#32))
      (broadcastInDim S786432x1 ![0] bcast_S786432_S786432x1_0 x3) g)
    (Host.scatterAdd scatter_S49152x3_S786432x1_S786432x3_1_0_0_1 (broadcastInDim S49152x3 ![] bcast_S_S49152x3 (constant S_ .f32 0x00000000#32))
      (broadcastInDim S786432x1 ![0] bcast_S786432_S786432x1_0 x2) g))

/-- The stresses, from the per-edge forces (the negated gradients). -/
def resS (x1 : FVec Ideal S786432x3 .f32) (x4 : IVec S786432 32) (x5 : FVec Ideal S49152 .f32) (g : FVec Ideal S786432x3 .f32) :
    FVec Ideal S24x3 .f32 := stressOf x1 x4 x5 (Host.negf g)

/-- The fourth result: one zero. -/
def resH : FVec Ideal S1 .f32 := broadcastInDim S1 ![] bcast_S_S1 (constant S_ .f32 0x00000000#32)

end Cert.KernelIdeal.KRes

end
-- ==== Proof.LibMatmulPlain.lean ====
/-
  A plain matrix product on the extended reals, read at an entry.

  The dimension record of an M×K by K×N product (contract the left operand's axis 1 with the right operand's
  axis 0, no batch axis) is, whatever its well-formedness proof, the library's `DotDims.plain M K N`. At the ideal
  instance such a product into a zero accumulator is, at entry (i, j), the finite sum over q of l[i, q] · r[q, j]; with
  the right operand given as the transpose of an N×K matrix w, the sum over q of l[i, q] · w[j, q].
  The contraction index of the record is re-indexed to `Fin K` through the library's one-axis equivalence, and each
  operand index is identified coordinate by coordinate.
-/
import Idealize.ShloMosaic.PureOps.Ideal.Laws
import Idealize.ShloMosaic.Lib.ValueIdx
import Idealize.ShloMosaic.Lib.ValueLayout

namespace Cert.LibMatmulPlain

open Idealize.ShloMosaic Idealize.ShloMosaic.ValueIdx
open scoped BigOperators

variable {M K N : ℕ}

/-- The left operand's row coordinate is the result's row coordinate. -/
theorem lhs_plain_0 (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton_self _)]
  rfl

/-- The left operand's column coordinate is the contraction index. -/
theorem lhs_plain_1 (i : (⟨2, ![M, N]⟩ : Shape).Idx) (q : (DotDims.plain M K N).contr.Idx) :
    ((DotDims.plain M K N).lhsIdx i q 1).val = (q ⟨0, Nat.one_pos⟩).val :=
  (DotDims.plain M K N).lhsIdx_val_of_single rfl i q

/-- The right operand's row coordinate is the contraction index. -/
theorem rhs_plain_0 (i : (⟨2, ![M, N]⟩ : Shape).Idx) (q : (DotDims.plain M K N).contr.Idx) :
    ((DotDims.plain M K N).rhsIdx i q 0).val = (q ⟨0, Nat.one_pos⟩).val :=
  (DotDims.plain M K N).rhsIdx_val_of_single rfl i q

/-- The right operand's column coordinate is the result's column coordinate. -/
theorem rhs_plain_1 (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton_self _)]
  rfl

/-- Entry (i, j) of l·r, accumulated into zero: the sum over q of l[i, q] · r[q, j]. -/
theorem matmul_plain_apply {φ₁ φ₂ : FTy} (l : FVec Ideal ⟨2, ![M, K]⟩ φ₁) (r : FVec Ideal ⟨2, ![K, N]⟩ φ₂) (i : Fin M) (j : Fin N) :
    matmul (DotDims.plain M K N) none l r (constant ⟨2, ![M, N]⟩ .f32 0x00000000#32) (ix2 i j)
      = ∑ q : Fin K, l (ix2 i q) * r (ix2 q j) := by
  simp only [matmul]
  rw [Ideal.matmul_constant_zero_apply, ← Equiv.sum_comp (contrEquiv1 (DotDims.plain M K N) K rfl rfl).symm]
  refine Finset.sum_congr rfl fun q _ => ?_
  have hq := contrEquiv1_symm_val (DotDims.plain M K N) K rfl rfl q
  have el : (DotDims.plain M K N).lhsIdx (ix2 i j) ((contrEquiv1 (DotDims.plain M K N) K rfl rfl).symm q) = ix2 i q :=
    funext fun a => Fin.ext (by
      match a with
      | ⟨0, _⟩ => exact lhs_plain_0 _ _
      | ⟨1, _⟩ => exact (lhs_plain_1 _ _).trans hq)
  have er : (DotDims.plain M K N).rhsIdx (ix2 i j) ((contrEquiv1 (DotDims.plain M K N) K rfl rfl).symm q) = ix2 q j :=
    funext fun a => Fin.ext (by
      match a with
      | ⟨0, _⟩ => exact (rhs_plain_0 _ _).trans hq
      | ⟨1, _⟩ => exact rhs_plain_1 _ _)
  rw [el, er]

/-- Entry (i, j) of l·wᵀ for an N×K matrix w: the sum over q of l[i, q] · w[j, q]. -/
theorem matmul_plain_transpose_apply {φ₁ φ₂ : FTy} (l : FVec Ideal ⟨2, ![M, K]⟩ φ₁) (w : FVec Ideal ⟨2, ![N, K]⟩ φ₂)
    (h : (⟨2, ![N, K]⟩ : Shape).Transposes [1, 0] ⟨2, ![K, N]⟩) (i : Fin M) (j : Fin N) :
    matmul (DotDims.plain M K N) none l (transpose ⟨2, ![K, N]⟩ [1, 0] w h) (constant ⟨2, ![M, N]⟩ .f32 0x00000000#32) (ix2 i j)
      = ∑ q : Fin K, l (ix2 i q) * w (ix2 j q) := by
  rw [matmul_plain_apply]
  exact Finset.sum_congr rfl fun q _ => by rw [transpose_ix2_apply]

end Cert.LibMatmulPlain
-- ==== Proof.LibKeepdims.lean ====
/-
  A reduced axis kept as a unit axis, read by coordinates: the two layout steps that carry a per-row quantity
  (a row's maximum, a row's sum) back over the row.

  * an [a] vector cast to a column [a, 1] reads, at (i, u), the vector at i (the unit coordinate u is 0);
  * a column [a, 1] broadcast along its unit axis to [a, b] reads, at (i, j), the column at (i, 0).

  Both are the library's general reading lemmas (a cast keeps the row-major position; a broadcast reads 0 on a unit
  axis) instantiated at these small shapes, with every index written by its coordinates.
-/
import Idealize.ShloMosaic.Lib.Pipeline.Value
import Idealize.ShloMosaic.Lib.ValueIdx

namespace Cert.LibKeepdims

open Idealize.ShloMosaic Idealize.ShloMosaic.ValueIdx

variable {α : Type}

/-- An `[a]` array cast to the column `[a, 1]` reads, at `(i, u)`, the operand at `i`, whatever the unit coordinate. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(i, j)`, the column's entry of row `i`. -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

end Cert.LibKeepdims
-- ==== Proof.PayFwd.lean ====
/-
  The forward half of the kernel body read at one lane of a block: the lane's edge has displacement D, and each
  named value of the body, at that lane, is the corresponding quantity of the edge (length, radial features,
  the two layers, the energy).
-/
import proofs.«419757_j17763984736960_3_alg».proof.Proof.Gen.KernelIdeal.Skeleton
import proofs.«419757_j17763984736960_3_alg».proof.Proof.Spec
import proofs.«419757_j17763984736960_3_alg».proof.Proof.LibMatmulPlain
import proofs.«419757_j17763984736960_3_alg».proof.Proof.LibKeepdims
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.PayFwd

open Idealize.ShloMosaic Idealize.ShloMosaic.ValueIdx Cert.KernelIdeal Cert.KernelIdeal.Gen Cert.EdgeMlp

/-- The square root, the exponential and the logistic function of an array act entry by entry. -/
theorem sqrt_at {s : Shape} {φ : FTy} (a : FVec Ideal s φ) (i : s.Idx) : sqrt a i = Ideal.sqrt (a i) := rfl
theorem exp_at {s : Shape} {φ : FTy} (a : FVec Ideal s φ) (i : s.Idx) : exp a i = Ideal.exp (a i) := rfl
theorem logistic_at {s : Shape} {φ : FTy} (a : FVec Ideal s φ) (i : s.Idx) : logistic a i = Ideal.logistic (a i) := rfl

/-- A sum over the rows of an [n, 4096] array, kept as a [1, 4096] row, read at lane l: the sum over the rows of the
    entries at that lane. -/
theorem colsum_apply {n : ℕ} (v : FVec Ideal ⟨2, ![n, 4096]⟩ .f32) (h : (⟨2, ![n, 4096]⟩ : Shape).Reduces [0] S4096)
    (hφ : FKind.Formats FTy.f32) (hacc : (0x00000000#32 : BitVec 32) = FKind.add.neutral .f32 hφ)
    (hc : S4096.ShapeCasts S1x4096) (u : Fin 1) (l : Fin 4096) :
    shapeCast S1x4096 (multiReduction .add [0] S4096 v 0x00000000#32 h hφ hacc) hc (ix2 u l) = ∑ k : Fin n, v (ix2 k l) := by
  rw [shapeCast_a_1a_apply, Ideal.multiReduction_add_single]
  refine Finset.sum_congr rfl fun k _ => congrArg v (funext fun a => Fin.ext ?_)
  match a with
  | ⟨0, _⟩ => rfl
  | ⟨1, _⟩ => rfl

/-- The two dimension records of the body's products are the plain M×K by K×N records. -/
theorem dot1_eq : dot_S64x32_S32x4096_S64x4096_1_0_0_1_n_n = DotDims.plain 64 32 4096 := rfl
theorem dot2_eq : dot_S64x64_S64x4096_S64x4096_1_0_0_1_n_n = DotDims.plain 64 64 4096 := rfl

variable (P : Params) (D : Fin 3 → EReal) (l : Fin 4096)
variable (x0 : Vec Ideal S3x4096 .f32) (x1 : Vec Ideal S32x1 .f32) (x3 : Vec Ideal S64x1 .f32) (x4 : Vec Ideal S64x32 .bf16)
  (x6 : Vec Ideal S64x1 .f32) (x7 : Vec Ideal S64x64 .bf16) (x8 : Vec Ideal S64x1 .f32) (x9 : Vec Ideal S1x1 .f32)

theorem pay3_at (hx0 : ∀ a : Fin 3, x0 (ix2 a l) = D a) (a : Fin 3) : k0_pay3 x0 (ix2 a l) = D a := by
  unfold k0_pay3
  rw [shapeCast_self]
  exact hx0 a

theorem pay4_at (hx0 : ∀ a : Fin 3, x0 (ix2 a l) = D a) : k0_pay4 x0 (ix2 (0 : Fin 1) l) = kLen D := by
  unfold k0_pay4
  rw [sqrt_at, addf_apply, broadcast_apply]
  have e := colsum_apply (n := 3) (mulf (k0_pay3 x0) (k0_pay3 x0)) reduces_S3x4096_S4096 (.inl rfl) rfl shapeCasts_S4096_S1x4096 0 l
  rw [e]
  simp only [mulf_apply, pay3_at D l x0 hx0]
  rfl

theorem pay5_at (hx0 : ∀ a : Fin 3, x0 (ix2 a l) = D a) (hx1 : ∀ k : Fin 32, x1 (ix2 k (0 : Fin 1)) = P.c k) (k : Fin 32) :
    k0_pay5 x0 x1 (ix2 k l) = kDiff P D k := by
  unfold k0_pay5
  rw [subf_apply, broadcastTo_1b_ab_apply, Cert.LibKeepdims.broadcastTo_a1_ab_apply, shapeCast_self, pay4_at D l x0 hx0, hx1]
  rfl

theorem pay6_at (hx0 : ∀ a : Fin 3, x0 (ix2 a l) = D a) (hx1 : ∀ k : Fin 32, x1 (ix2 k (0 : Fin 1)) = P.c k) (k : Fin 32) :
    k0_pay6 x0 x1 (ix2 k l) = kRbf P D k := by
  unfold k0_pay6
  rw [exp_at, subf_apply, broadcast_apply, mulf_apply, pay5_at P D l x0 x1 hx0 hx1]
  rfl

theorem pay7_at (hx0 : ∀ a : Fin 3, x0 (ix2 a l) = D a) (hx1 : ∀ k : Fin 32, x1 (ix2 k (0 : Fin 1)) = P.c k)
    (hx4 : ∀ (h : Fin 64) (k : Fin 32), x4 (ix2 h k) = P.W1 k h) (hx3 : ∀ h : Fin 64, x3 (ix2 h (0 : Fin 1)) = P.b1 h) (h : Fin 64) :
    k0_pay7 x0 x1 x4 x3 (ix2 h l) = kZ1 P D h := by
  unfold k0_pay7
  rw [addf_apply, Cert.LibKeepdims.broadcastTo_a1_ab_apply, shapeCast_self, shapeCast_self, hx3, dot1_eq,
    Cert.LibMatmulPlain.matmul_plain_apply]
  simp only [truncf_apply, hx4, pay6_at P D l x0 x1 hx0 hx1]
  rfl

theorem pay8_at (hx0 : ∀ a : Fin 3, x0 (ix2 a l) = D a) (hx1 : ∀ k : Fin 32, x1 (ix2 k (0 : Fin 1)) = P.c k)
    (hx4 : ∀ (h : Fin 64) (k : Fin 32), x4 (ix2 h k) = P.W1 k h) (hx3 : ∀ h : Fin 64, x3 (ix2 h (0 : Fin 1)) = P.b1 h) (h : Fin 64) :
    k0_pay8 x0 x1 x4 x3 (ix2 h l) = kS1 P D h := by
  unfold k0_pay8
  rw [logistic_at, pay7_at P D l x0 x1 x3 x4 hx0 hx1 hx4 hx3]
  rfl

theorem pay9_at (hx0 : ∀ a : Fin 3, x0 (ix2 a l) = D a) (hx1 : ∀ k : Fin 32, x1 (ix2 k (0 : Fin 1)) = P.c k)
    (hx4 : ∀ (h : Fin 64) (k : Fin 32), x4 (ix2 h k) = P.W1 k h) (hx3 : ∀ h : Fin 64, x3 (ix2 h (0 : Fin 1)) = P.b1 h)
    (hx7 : ∀ (h j : Fin 64), x7 (ix2 h j) = P.W2 j h) (hx6 : ∀ h : Fin 64, x6 (ix2 h (0 : Fin 1)) = P.b2 h) (h : Fin 64) :
    k0_pay9 x0 x1 x4 x3 x7 x6 (ix2 h l) = kZ2 P D h := by
  unfold k0_pay9
  rw [addf_apply, Cert.LibKeepdims.broadcastTo_a1_ab_apply, shapeCast_self, shapeCast_self, hx6, dot2_eq,
    Cert.LibMatmulPlain.matmul_plain_apply]
  simp only [truncf_apply, mulf_apply, hx7, pay7_at P D l x0 x1 x3 x4 hx0 hx1 hx4 hx3,
    pay8_at P D l x0 x1 x3 x4 hx0 hx1 hx4 hx3]
  rfl

theorem pay10_at (hx0 : ∀ a : Fin 3, x0 (ix2 a l) = D a) (hx1 : ∀ k : Fin 32, x1 (ix2 k (0 : Fin 1)) = P.c k)
    (hx4 : ∀ (h : Fin 64) (k : Fin 32), x4 (ix2 h k) = P.W1 k h) (hx3 : ∀ h : Fin 64, x3 (ix2 h (0 : Fin 1)) = P.b1 h)
    (hx7 : ∀ (h j : Fin 64), x7 (ix2 h j) = P.W2 j h) (hx6 : ∀ h : Fin 64, x6 (ix2 h (0 : Fin 1)) = P.b2 h) (h : Fin 64) :
    k0_pay10 x0 x1 x4 x3 x7 x6 (ix2 h l) = kS2 P D h := by
  unfold k0_pay10
  rw [logistic_at, pay9_at P D l x0 x1 x3 x4 x6 x7 hx0 hx1 hx4 hx3 hx7 hx6]
  rfl

/-- Row 3 of the output block, at lane l: the edge's energy. -/
theorem pay_energy (hx0 : ∀ a : Fin 3, x0 (ix2 a l) = D a) (hx1 : ∀ k : Fin 32, x1 (ix2 k (0 : Fin 1)) = P.c k)
    (hx4 : ∀ (h : Fin 64) (k : Fin 32), x4 (ix2 h k) = P.W1 k h) (hx3 : ∀ h : Fin 64, x3 (ix2 h (0 : Fin 1)) = P.b1 h)
    (hx7 : ∀ (h j : Fin 64), x7 (ix2 h j) = P.W2 j h) (hx6 : ∀ h : Fin 64, x6 (ix2 h (0 : Fin 1)) = P.b2 h)
    (hx8 : ∀ h : Fin 64, x8 (ix2 h (0 : Fin 1)) = P.W3 h) (hx9 : x9 (ix2 (0 : Fin 1) (0 : Fin 1)) = P.b3) :
    k0_pay1 (k0_pay11 x0 x1 x4 x3 x7 x6 x8) x9 (ix2 (0 : Fin 1) l) = kerE P D := by
  unfold k0_pay1
  rw [addf_apply, Cert.LibKeepdims.broadcastTo_a1_ab_apply, shapeCast_self, hx9]
  have e := colsum_apply (n := 64) (k0_pay11 x0 x1 x4 x3 x7 x6 x8) reduces_S64x4096_S4096 (.inl rfl) rfl shapeCasts_S4096_S1x4096 0 l
  rw [e]
  unfold k0_pay11
  simp only [mulf_apply, Cert.LibKeepdims.broadcastTo_a1_ab_apply, hx8,
    pay9_at P D l x0 x1 x3 x4 x6 x7 hx0 hx1 hx4 hx3 hx7 hx6, pay10_at P D l x0 x1 x3 x4 x6 x7 hx0 hx1 hx4 hx3 hx7 hx6]
  rfl

end Cert.KernelIdeal.PayFwd

end
-- ==== Proof.PayBwd.lean ====
/-
  The backward half of the kernel body read at one lane of a block: given what the forward values are at that
  lane, the value stored in rows 0 to 2 of the output block is the gradient of the edge's energy in its displacement.

  The body's backward arithmetic is cut into its named intermediates (the cotangents of the second layer's
  pre-activation, of the first layer's output, of the first layer's pre-activation, of the radial features, and the
  summand of the lane sum); the payload is, by unfolding, the last step applied to them. Each intermediate is read at
  (row, lane): the pointwise steps by unfolding, the two matrix products as finite sums over the contracted axis, the
  lane sum as a finite sum over the 32 rows, the two layout steps by coordinates.
-/
import proofs.«419757_j17763984736960_3_alg».proof.Proof.Gen.KernelIdeal.Skeleton
import proofs.«419757_j17763984736960_3_alg».proof.Proof.Spec
import proofs.«419757_j17763984736960_3_alg».proof.Proof.LibMatmulPlain
import proofs.«419757_j17763984736960_3_alg».proof.Proof.LibKeepdims
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.PayBwd

open Idealize.ShloMosaic Idealize.ShloMosaic.ValueIdx Cert.KernelIdeal Cert.KernelIdeal.Gen Cert.EdgeMlp

/-! ## The non-pointwise steps, each over a variable vector -/

/-- The 64 by 64 times 64 by 4096 product into zero, at (j, l): the sum over the contracted axis. -/
theorem mm64_apply (m : FVec Ideal S64x64 .bf16) (w : FVec Ideal S64x4096 .bf16) (j : Fin 64) (l : Fin 4096) :
    matmul dot_S64x64_S64x4096_S64x4096_1_0_0_1_n_n none m w (constant (F := Ideal) S64x4096 .f32 0x00000000#32) (ix2 j l)
      = ∑ h : Fin 64, m (ix2 j h) * w (ix2 h l) :=
  Cert.LibMatmulPlain.matmul_plain_apply (M := 64) (K := 64) (N := 4096) m w j l

/-- The 32 by 64 times 64 by 4096 product into zero, at (k, l): the sum over the contracted axis. -/
theorem mm32_apply (m : FVec Ideal S32x64 .bf16) (w : FVec Ideal S64x4096 .bf16) (k : Fin 32) (l : Fin 4096) :
    matmul dot_S32x64_S64x4096_S32x4096_1_0_0_1_n_n none m w (constant (F := Ideal) S32x4096 .f32 0x00000000#32) (ix2 k l)
      = ∑ h : Fin 64, m (ix2 k h) * w (ix2 h l) :=
  Cert.LibMatmulPlain.matmul_plain_apply (M := 32) (K := 64) (N := 4096) m w k l

/-- The sum over the 32 rows of a [32, 4096] vector, at lane l. -/
theorem red32_apply (src : FVec Ideal S32x4096 .f32) (hφ : FKind.Formats .f32)
    (hacc : (0x00000000#32 : BitVec 32) = 0x00000000#32) (l : Fin 4096) :
    multiReduction .add [0] S4096 src 0x00000000#32 reduces_S32x4096_S4096 hφ hacc (ix1 l) = ∑ k : Fin 32, src (ix2 k l) := by
  refine (Ideal.multiReduction_add_single src 0x00000000#32 reduces_S32x4096_S4096 hφ hacc (ix1 l)).trans ?_
  refine Finset.sum_congr rfl fun k _ => congrArg src (funext fun a => Fin.ext ?_)
  match a with
  | ⟨0, _⟩ => rfl
  | ⟨1, _⟩ => rfl

/-! ## The named intermediates of the backward arithmetic -/

/-- The factor s + z (s (1 - s)): the derivative of z times the logistic function of z, from z and s. -/
def dAct (z s : FVec Ideal S64x4096 .f32) : FVec Ideal S64x4096 .f32 :=
  addf s (mulf z (mulf s (subf (broadcast S64x4096 (Scalar.ofBits .f32 0x3F800000#32)) s)))

/-- The cotangent of the second layer's pre-activation. -/
def w52 (v34 v35 : FVec Ideal S64x4096 .f32) (v37 : Vec Ideal S64x1 .f32) : FVec Ideal S64x4096 .f32 :=
  mulf (broadcastTo S64x4096 v37 broadcasts_S64x1_S64x4096) (dAct v34 v35)

/-- The cotangent of the first layer's output. -/
def w56 (v34 v35 : FVec Ideal S64x4096 .f32) (v37 : Vec Ideal S64x1 .f32) (v53 : Vec Ideal S64x64 .bf16) : FVec Ideal S64x4096 .f32 :=
  matmul dot_S64x64_S64x4096_S64x4096_1_0_0_1_n_n none (shapeCast S64x64 v53 shapeCasts_S64x64_S64x64 : FVec Ideal S64x64 .bf16)
    (truncf .bf16 (w52 v34 v35 v37) bitsLt_bf16_f32) (constant S64x4096 .f32 0x00000000#32)

/-- The cotangent of the first layer's pre-activation. -/
def w62 (v24 v25 v34 v35 : FVec Ideal S64x4096 .f32) (v37 : Vec Ideal S64x1 .f32) (v53 : Vec Ideal S64x64 .bf16) :
    FVec Ideal S64x4096 .f32 :=
  mulf (w56 v34 v35 v37 v53) (dAct v24 v25)

/-- The cotangent of the radial features. -/
def w66 (v24 v25 v34 v35 : FVec Ideal S64x4096 .f32) (v37 : Vec Ideal S64x1 .f32) (v53 : Vec Ideal S64x64 .bf16)
    (v63 : Vec Ideal S32x64 .bf16) : FVec Ideal S32x4096 .f32 :=
  matmul dot_S32x64_S64x4096_S32x4096_1_0_0_1_n_n none (shapeCast S32x64 v63 shapeCasts_S32x64_S32x64 : FVec Ideal S32x64 .bf16)
    (truncf .bf16 (w62 v24 v25 v34 v35 v37 v53) bitsLt_bf16_f32) (constant S32x4096 .f32 0x00000000#32)

/-- The summand of the lane sum. -/
def w70 (v12 v16 : FVec Ideal S32x4096 .f32) (v24 v25 v34 v35 : FVec Ideal S64x4096 .f32) (v37 : Vec Ideal S64x1 .f32)
    (v53 : Vec Ideal S64x64 .bf16) (v63 : Vec Ideal S32x64 .bf16) : FVec Ideal S32x4096 .f32 :=
  mulf (mulf (w66 v24 v25 v34 v35 v37 v53 v63) (mulf (broadcast S32x4096 (Scalar.ofBits .f32 0xC0000000#32)) v12)) v16

/-- The payload is the last four steps applied to the summand. -/
theorem pay_eq (v1 : FVec Ideal S3x4096 .f32) (v7 : FVec Ideal S1x4096 .f32) (v12 v16 : FVec Ideal S32x4096 .f32)
    (v24 v25 v34 v35 : FVec Ideal S64x4096 .f32) (v37 : Vec Ideal S64x1 .f32) (v53 : Vec Ideal S64x64 .bf16) (v63 : Vec Ideal S32x64 .bf16) :
    k0_pay2 v1 v7 v12 v16 v24 v25 v34 v35 v37 v53 v63
      = mulf (broadcastTo S3x4096 (divf (shapeCast S1x4096 (multiReduction .add [0] S4096 (w70 v12 v16 v24 v25 v34 v35 v37 v53 v63)
          0x00000000#32 reduces_S32x4096_S4096 (.inl rfl) rfl) shapeCasts_S4096_S1x4096) v7) broadcasts_S1x4096_S3x4096) v1 := rfl

/-! ## Each intermediate read at (row, lane) -/

theorem dAct_apply (z s : FVec Ideal S64x4096 .f32) (h : Fin 64) (l : Fin 4096) :
    dAct z s (ix2 h l) = s (ix2 h l) + z (ix2 h l) * (s (ix2 h l) * (one32 - s (ix2 h l))) := rfl

variable (P : Params) (D : Fin 3 → EReal) (l : Fin 4096)

theorem w52_apply (v34 v35 : FVec Ideal S64x4096 .f32) (v37 : Vec Ideal S64x1 .f32)
    (h34 : ∀ h : Fin 64, v34 (ix2 h l) = kZ2 P D h) (h35 : ∀ h : Fin 64, v35 (ix2 h l) = kS2 P D h)
    (h37 : ∀ h : Fin 64, v37 (ix2 h (0 : Fin 1)) = P.W3 h) (h : Fin 64) :
    w52 v34 v35 v37 (ix2 h l) = kDz2 P D h := by
  unfold w52 kDz2
  rw [mulf_apply, Cert.LibKeepdims.broadcastTo_a1_ab_apply, dAct_apply, h34, h35, h37]

theorem w56_apply (v34 v35 : FVec Ideal S64x4096 .f32) (v37 : Vec Ideal S64x1 .f32) (v53 : Vec Ideal S64x64 .bf16)
    (h34 : ∀ h : Fin 64, v34 (ix2 h l) = kZ2 P D h) (h35 : ∀ h : Fin 64, v35 (ix2 h l) = kS2 P D h)
    (h37 : ∀ h : Fin 64, v37 (ix2 h (0 : Fin 1)) = P.W3 h) (h53 : ∀ j h : Fin 64, v53 (ix2 j h) = P.W2 j h) (j : Fin 64) :
    w56 v34 v35 v37 v53 (ix2 j l) = kDh1 P D j := by
  unfold w56 kDh1
  rw [mm64_apply]
  refine Finset.sum_congr rfl fun h _ => ?_
  rw [shapeCast_self, truncf_apply, h53, w52_apply P D l v34 v35 v37 h34 h35 h37]

theorem w62_apply (v24 v25 v34 v35 : FVec Ideal S64x4096 .f32) (v37 : Vec Ideal S64x1 .f32) (v53 : Vec Ideal S64x64 .bf16)
    (h24 : ∀ h : Fin 64, v24 (ix2 h l) = kZ1 P D h) (h25 : ∀ h : Fin 64, v25 (ix2 h l) = kS1 P D h)
    (h34 : ∀ h : Fin 64, v34 (ix2 h l) = kZ2 P D h) (h35 : ∀ h : Fin 64, v35 (ix2 h l) = kS2 P D h)
    (h37 : ∀ h : Fin 64, v37 (ix2 h (0 : Fin 1)) = P.W3 h) (h53 : ∀ j h : Fin 64, v53 (ix2 j h) = P.W2 j h) (j : Fin 64) :
    w62 v24 v25 v34 v35 v37 v53 (ix2 j l) = kDz1 P D j := by
  unfold w62 kDz1
  rw [mulf_apply, w56_apply P D l v34 v35 v37 v53 h34 h35 h37 h53, dAct_apply, h24, h25]

theorem w66_apply (v24 v25 v34 v35 : FVec Ideal S64x4096 .f32) (v37 : Vec Ideal S64x1 .f32) (v53 : Vec Ideal S64x64 .bf16)
    (v63 : Vec Ideal S32x64 .bf16)
    (h24 : ∀ h : Fin 64, v24 (ix2 h l) = kZ1 P D h) (h25 : ∀ h : Fin 64, v25 (ix2 h l) = kS1 P D h)
    (h34 : ∀ h : Fin 64, v34 (ix2 h l) = kZ2 P D h) (h35 : ∀ h : Fin 64, v35 (ix2 h l) = kS2 P D h)
    (h37 : ∀ h : Fin 64, v37 (ix2 h (0 : Fin 1)) = P.W3 h) (h53 : ∀ j h : Fin 64, v53 (ix2 j h) = P.W2 j h)
    (h63 : ∀ (k : Fin 32) (h : Fin 64), v63 (ix2 k h) = P.W1 k h) (k : Fin 32) :
    w66 v24 v25 v34 v35 v37 v53 v63 (ix2 k l) = kDrbf P D k := by
  unfold w66 kDrbf
  rw [mm32_apply]
  refine Finset.sum_congr rfl fun h _ => ?_
  rw [shapeCast_self, truncf_apply, h63, w62_apply P D l v24 v25 v34 v35 v37 v53 h24 h25 h34 h35 h37 h53]

theorem w70_apply (v12 v16 : FVec Ideal S32x4096 .f32) (v24 v25 v34 v35 : FVec Ideal S64x4096 .f32) (v37 : Vec Ideal S64x1 .f32)
    (v53 : Vec Ideal S64x64 .bf16) (v63 : Vec Ideal S32x64 .bf16)
    (h12 : ∀ k : Fin 32, v12 (ix2 k l) = kDiff P D k) (h16 : ∀ k : Fin 32, v16 (ix2 k l) = kRbf P D k)
    (h24 : ∀ h : Fin 64, v24 (ix2 h l) = kZ1 P D h) (h25 : ∀ h : Fin 64, v25 (ix2 h l) = kS1 P D h)
    (h34 : ∀ h : Fin 64, v34 (ix2 h l) = kZ2 P D h) (h35 : ∀ h : Fin 64, v35 (ix2 h l) = kS2 P D h)
    (h37 : ∀ h : Fin 64, v37 (ix2 h (0 : Fin 1)) = P.W3 h) (h53 : ∀ j h : Fin 64, v53 (ix2 j h) = P.W2 j h)
    (h63 : ∀ (k : Fin 32) (h : Fin 64), v63 (ix2 k h) = P.W1 k h) (k : Fin 32) :
    w70 v12 v16 v24 v25 v34 v35 v37 v53 v63 (ix2 k l)
      = (kDrbf P D k * (negtwo32 * kDiff P D k)) * kRbf P D k := by
  unfold w70
  rw [mulf_apply, mulf_apply, mulf_apply, broadcast_apply,
    w66_apply P D l v24 v25 v34 v35 v37 v53 v63 h24 h25 h34 h35 h37 h53 h63, h12, h16]
  rfl

/-- Rows 0 to 2 of the output block, at lane l: the gradient, from the forward values at that lane. -/
theorem pay_grad_of (v1 : FVec Ideal S3x4096 .f32) (v7 : FVec Ideal S1x4096 .f32) (v12 v16 : FVec Ideal S32x4096 .f32)
    (v24 v25 v34 v35 : FVec Ideal S64x4096 .f32) (v37 : Vec Ideal S64x1 .f32) (v53 : Vec Ideal S64x64 .bf16) (v63 : Vec Ideal S32x64 .bf16)
    (h1 : ∀ a : Fin 3, v1 (ix2 a l) = D a) (h7 : v7 (ix2 (0 : Fin 1) l) = kLen D)
    (h12 : ∀ k : Fin 32, v12 (ix2 k l) = kDiff P D k) (h16 : ∀ k : Fin 32, v16 (ix2 k l) = kRbf P D k)
    (h24 : ∀ h : Fin 64, v24 (ix2 h l) = kZ1 P D h) (h25 : ∀ h : Fin 64, v25 (ix2 h l) = kS1 P D h)
    (h34 : ∀ h : Fin 64, v34 (ix2 h l) = kZ2 P D h) (h35 : ∀ h : Fin 64, v35 (ix2 h l) = kS2 P D h)
    (h37 : ∀ h : Fin 64, v37 (ix2 h (0 : Fin 1)) = P.W3 h) (h53 : ∀ j h : Fin 64, v53 (ix2 j h) = P.W2 j h)
    (h63 : ∀ (k : Fin 32) (h : Fin 64), v63 (ix2 k h) = P.W1 k h) (a : Fin 3) :
    k0_pay2 v1 v7 v12 v16 v24 v25 v34 v35 v37 v53 v63 (ix2 a l) = kerG P D a := by
  rw [pay_eq, mulf_apply, broadcastTo_1b_ab_apply, divf_apply, shapeCast_a_1a_apply, red32_apply, h1, h7]
  unfold kerG kSum
  congr 2
  exact Finset.sum_congr rfl fun k _ =>
    w70_apply P D l v12 v16 v24 v25 v34 v35 v37 v53 v63 h12 h16 h24 h25 h34 h35 h37 h53 h63 k

end Cert.KernelIdeal.PayBwd

end
-- ==== Proof.KPieces.lean ====
/-
  What the kernel body leaves in its output block, entry by entry, as the body's two payloads of its ten input blocks:
  rows 0 to 2 are the gradient payload, row 3 the energy payload. (The body stores the two pieces through two
  rectangles that tile the block; the block read back is, on each rectangle, the piece stored there.)
-/
import proofs.«419757_j17763984736960_3_alg».proof.Proof.Gen.KernelIdeal.Frame
import Idealize.ShloMosaic.Lib.ValueIdx
import Idealize.ShloMosaic.Lib.Pipeline.Value

noncomputable section

namespace Cert.KernelIdeal.KPieces

open Idealize.ShloMosaic Idealize.ShloMosaic.TcCoe Idealize.ShloMosaic.ValueIdx Idealize.SL.Sem
open Cert.KernelIdeal Cert.KernelIdeal.Gen

variable (c : Dev nD) (i : grid0.Coords) (arg1 : Memref sig .tc .vmem S3x4096 .f32) (harg1 : arg1.IsWhole) (arg2 : Memref sig .tc .vmem S32x1 .f32) (harg2 : arg2.IsWhole)
  (arg3 : Memref sig .tc .vmem S32x64 .bf16) (harg3 : arg3.IsWhole) (arg4 : Memref sig .tc .vmem S64x1 .f32) (harg4 : arg4.IsWhole)
  (arg5 : Memref sig .tc .vmem S64x32 .bf16) (harg5 : arg5.IsWhole) (arg6 : Memref sig .tc .vmem S64x64 .bf16) (harg6 : arg6.IsWhole)
  (arg7 : Memref sig .tc .vmem S64x1 .f32) (harg7 : arg7.IsWhole) (arg8 : Memref sig .tc .vmem S64x64 .bf16) (harg8 : arg8.IsWhole)
  (arg9 : Memref sig .tc .vmem S64x1 .f32) (harg9 : arg9.IsWhole) (arg10 : Memref sig .tc .vmem S1x1 .f32) (harg10 : arg10.IsWhole)
  (arg11 : Memref sig .tc .vmem S4x4096 .f32) (harg11 : arg11.IsWhole)
  (x0 : Vec Ideal S3x4096 .f32) (x1 : Vec Ideal S32x1 .f32) (x2 : Vec Ideal S32x64 .bf16) (x3 : Vec Ideal S64x1 .f32) (x4 : Vec Ideal S64x32 .bf16)
  (x5 : Vec Ideal S64x64 .bf16) (x6 : Vec Ideal S64x1 .f32) (x7 : Vec Ideal S64x64 .bf16) (x8 : Vec Ideal S64x1 .f32) (x9 : Vec Ideal S1x1 .f32)

theorem hz : (![0, 0] : Fin 2 → Nat) = fun _ => 0 := funext fun a => by fin_cases a <;> rfl

/-- Entry (3, l) of the block is entry (0, l) of the one-row rectangle at row 3. -/
theorem row3_eq (l : Fin 4096) :
    (ix2 (3 : Fin 4) l : S4x4096.Idx)
      = (Rect.unit (s := S4x4096) ![3, 0] ![1, 4096] inb_S4x4096_S1x4096_3_0).emb (ix2 (0 : Fin 1) l) :=
  funext fun a => Fin.ext (by
    match a with
    | ⟨0, _⟩ => rfl
    | ⟨1, _⟩ => show l.val = 0 + 1 * l.val; omega)

/-- Entry (a, l) of the block, a below 3, is entry (a, l) of the three-row rectangle at row 0. -/
theorem rows_eq (a : Fin 3) (l : Fin 4096) :
    (ix2 (⟨a.val, by omega⟩ : Fin 4) l : S4x4096.Idx)
      = (Rect.unit (s := S4x4096) ![0, 0] ![3, 4096] inb_S4x4096_S3x4096_0_0).emb (ix2 a l) :=
  funext fun b => Fin.ext (by
    match b with
    | ⟨0, _⟩ => show a.val = 0 + 1 * a.val; omega
    | ⟨1, _⟩ => show l.val = 0 + 1 * l.val; omega)

/-- No entry of a row below 3 lies in the one-row rectangle at row 3. -/
theorem rows_not_mem (a : Fin 3) (l : Fin 4096) :
    (ix2 (⟨a.val, by omega⟩ : Fin 4) l : S4x4096.Idx)
      ∉ (Rect.unit (s := S4x4096) ![3, 0] ![1, 4096] inb_S4x4096_S1x4096_3_0).set := by
  rw [Rect.mem_set_unit]
  intro h
  have h0 := (h (0 : Fin 2)).1
  have : (3 : ℕ) ≤ a.val := h0
  omega

/-- Two stored pieces read back at an entry outside the later piece's rectangle and inside the earlier one's: the earlier
    piece there. -/
theorem canon_two_second {Val : EltTy → Type} [∀ e, Nonempty (Val e)] {S : Shape} {e : EltTy} (r1 r2 : Rect S)
    (w1 : r1.shape.Idx → Val e) (w2 : r2.shape.Idx → Val e) (y : S.Idx) (x : r2.shape.Idx) (hn : y ∉ r1.set)
    (hy : y = r2.emb x) : View.canon [(⟨r1, w1⟩ : View.Piece Val S e), ⟨r2, w2⟩] y = w2 x := by
  rw [View.canon_cons_of_not_mem _ _ hn, hy, View.canon_cons_emb]

/-- Two stored pieces read back at an entry inside the later piece's rectangle: the later piece there. -/
theorem canon_two_first {Val : EltTy → Type} [∀ e, Nonempty (Val e)] {S : Shape} {e : EltTy} (r1 r2 : Rect S)
    (w1 : r1.shape.Idx → Val e) (w2 : r2.shape.Idx → Val e) (y : S.Idx) (x : r1.shape.Idx)
    (hy : y = r1.emb x) : View.canon [(⟨r1, w1⟩ : View.Piece Val S e), ⟨r2, w2⟩] y = w1 x := by
  rw [hy, View.canon_cons_emb]

/-- Rows 0 to 2 of the output block: the gradient payload of the input blocks. -/
theorem out_grad (a : Fin 3) (l : Fin 4096) :
    out0_A_10 (F := Ideal) c i arg1 harg1 arg2 harg2 arg3 harg3 arg4 harg4 arg5 harg5 arg6 harg6 arg7 harg7 arg8 harg8 arg9 harg9 arg10 harg10 arg11 harg11
        x0 x1 x2 x3 x4 x5 x6 x7 x8 x9 (ix2 (⟨a.val, by omega⟩ : Fin 4) l)
      = k0_pay2 (k0_pay3 x0) (k0_pay4 x0) (k0_pay5 x0 x1) (k0_pay6 x0 x1) (k0_pay7 x0 x1 x4 x3) (k0_pay8 x0 x1 x4 x3)
          (k0_pay9 x0 x1 x4 x3 x7 x6) (k0_pay10 x0 x1 x4 x3 x7 x6) x8 x5 x2 (ix2 a l) := by
  unfold out0_A_10
  rw [View.read_writes_eq_canon _ _ _ (cover0_A_10 c i arg1 harg1 arg2 harg2 arg3 harg3 arg4 harg4 arg5 harg5 arg6 harg6 arg7 harg7 arg8 harg8 arg9 harg9 arg10 harg10 arg11 harg11 x0 x1 x2 x3 x4 x5 x6 x7 x8 x9)]
  unfold kernelRun0_A
  dsimp only
  refine (canon_two_second _ _ _ _ _ (ix2 a l) (rows_not_mem a l) (rows_eq a l)).trans ?_
  sl_unfold_words
  simp only [View.readAt_eq_ld, harg1.read_unread, harg2.read_unread, harg3.read_unread, harg4.read_unread, harg5.read_unread,
    harg6.read_unread, harg7.read_unread, harg8.read_unread, harg9.read_unread, harg10.read_unread,
    View.ld_unit_zero (S := S3x4096) hz, View.ld_unit_zero (S := S32x1) hz, View.ld_unit_zero (S := S32x64) hz,
    View.ld_unit_zero (S := S64x1) hz, View.ld_unit_zero (S := S64x32) hz, View.ld_unit_zero (S := S64x64) hz,
    View.ld_unit_zero (S := S1x1) hz]

/-- Row 3 of the output block: the energy payload of the input blocks. -/
theorem out_energy (l : Fin 4096) :
    out0_A_10 (F := Ideal) c i arg1 harg1 arg2 harg2 arg3 harg3 arg4 harg4 arg5 harg5 arg6 harg6 arg7 harg7 arg8 harg8 arg9 harg9 arg10 harg10 arg11 harg11
        x0 x1 x2 x3 x4 x5 x6 x7 x8 x9 (ix2 (3 : Fin 4) l)
      = k0_pay1 (k0_pay11 x0 x1 x4 x3 x7 x6 x8) x9 (ix2 (0 : Fin 1) l) := by
  unfold out0_A_10
  rw [View.read_writes_eq_canon _ _ _ (cover0_A_10 c i arg1 harg1 arg2 harg2 arg3 harg3 arg4 harg4 arg5 harg5 arg6 harg6 arg7 harg7 arg8 harg8 arg9 harg9 arg10 harg10 arg11 harg11 x0 x1 x2 x3 x4 x5 x6 x7 x8 x9)]
  unfold kernelRun0_A
  dsimp only
  refine (canon_two_first _ _ _ _ _ (ix2 (0 : Fin 1) l) (row3_eq l)).trans ?_
  sl_unfold_words
  simp only [View.readAt_eq_ld, harg1.read_unread, harg2.read_unread, harg3.read_unread, harg4.read_unread, harg5.read_unread,
    harg6.read_unread, harg7.read_unread, harg8.read_unread, harg9.read_unread, harg10.read_unread,
    View.ld_unit_zero (S := S3x4096) hz, View.ld_unit_zero (S := S32x1) hz, View.ld_unit_zero (S := S32x64) hz,
    View.ld_unit_zero (S := S64x1) hz, View.ld_unit_zero (S := S64x32) hz, View.ld_unit_zero (S := S64x64) hz,
    View.ld_unit_zero (S := S1x1) hz]

end Cert.KernelIdeal.KPieces

end
-- ==== Proof.LibGatherRows.lean ====
import Idealize.ShloMosaic.PureOps
import Idealize.ShloMosaic.Lib.ValueIdx
noncomputable section

namespace Cert.LibGatherRows
open Idealize.ShloMosaic Idealize.ShloMosaic.ValueIdx

/-! ## Gathering whole rows of a table

A table `x : [N, C]` is gathered by a column of index words `idx : [M, 1]`: the dimension numbers collapse the
table's axis 0 and let the one component of each start index address it, keep the table's axis 1 whole as the
result's offset axis 1, and have no batching axes. Result element `(r, k)` is then the table at `(row, k)`, where
`row` is the `r`-th index word read as a signed integer and clamped into `[0, N − 1]`.

The operand index of a gather is, on each operand axis, a clamped start plus a batching coordinate plus an offset
coordinate. For these dimension numbers the three summands are computed one by one below: on axis 0 the start is the
clamped index word and the other two vanish (the axis is collapsed); on axis 1 the start and the batching coordinate
vanish (the axis is not addressed by the start index) and the offset coordinate is the result's column. -/

section Rows
variable {α : Type}

/-- The dimension numbers of a row gather, for a table `[N, C]`, start indices `[M, 1]` and a result `[M, C]`. -/
abbrev rowsDims (N M C : Nat)
    (wf : GatherDims.WF ⟨2, ![N, C]⟩ ⟨2, ![M, 1]⟩ ⟨2, ![M, C]⟩ [1] [0] [] [0] [] 1 ![1, C]) :
    GatherDims ⟨2, ![N, C]⟩ ⟨2, ![M, 1]⟩ ⟨2, ![M, C]⟩ where
  offsetDims := [1]
  collapsedSliceDims := [0]
  operandBatchingDims := []
  startIndicesBatchingDims := []
  startIndexMap := [0]
  indexVectorDim := 1
  sliceSizes := ![1, C]
  wf := wf

variable {N M C w : Nat}
  (wf : GatherDims.WF ⟨2, ![N, C]⟩ ⟨2, ![M, 1]⟩ ⟨2, ![M, C]⟩ [1] [0] [] [0] [] 1 ![1, C])

/-- There are no batching axes, so the batching coordinate is zero on both table axes. -/
theorem rows_batch (j : (⟨2, ![M, C]⟩ : Shape).Idx) (a : Fin 2) : (rowsDims N M C wf).batchCoord j a = 0 :=
  GatherDims.batchCoord_eq_zero _ _ _ List.not_mem_nil

/-- Axis 0 of the table is collapsed: it is not among the kept axes, so its offset coordinate is zero. -/
theorem rows_off0 (j : (⟨2, ![M, C]⟩ : Shape).Idx) : (rowsDims N M C wf).offCoord j 0 = 0 :=
  GatherDims.offCoord_eq_zero _ _ _ fun h => ((GatherDims.mem_sKept _ _).1 h).1 (List.mem_singleton.2 rfl)

/-- Axis 1 of the table is not addressed by the start index, so the slice starts at column zero. -/
theorem rows_start1 (j : (⟨2, ![M, C]⟩ : Shape).Idx) (idx : IVec ⟨2, ![M, 1]⟩ w) :
    (rowsDims N M C wf).start j idx 1 = 0 := by
  unfold GatherDims.start
  exact dif_neg (show (1 : Fin 2) ∉ [0] by decide)

/-- Axis 1 is the only kept axis of the table, in position 0, and the result's offset axis in that position is its
    axis 1: the offset coordinate is the result's column. -/
theorem rows_off1 (j : (⟨2, ![M, C]⟩ : Shape).Idx) : (rowsDims N M C wf).offCoord j 1 = (j 1).val := by
  unfold GatherDims.offCoord
  rw [dif_pos ((GatherDims.mem_sKept _ _).2 ⟨show (1 : Fin 2) ∉ [0] by decide, List.not_mem_nil⟩)]
  rfl

/-- Axis 0 is component 0 of the start index. That component is read at the start-indices position
    `(j 0, 0)` — the result's batch coordinate, and 0 on the index vector's axis —, signed, and clamped to
    `N − 1` (the table's extent less the slice size 1). -/
theorem rows_start0 (j : (⟨2, ![M, C]⟩ : Shape).Idx) (idx : IVec ⟨2, ![M, 1]⟩ w) :
    (rowsDims N M C wf).start j idx 0 = min (idx (ix2 (j 0) (0 : Fin 1))).toInt.toNat (N - 1) := by
  unfold GatherDims.start
  rw [dif_pos (List.mem_singleton.2 rfl)]
  have hsi : (rowsDims N M C wf).siIdx j ⟨List.idxOf (0 : Fin 2) (rowsDims N M C wf).startIndexMap,
      List.idxOf_lt_length_iff.2 (List.mem_singleton.2 rfl)⟩ = ix2 (j 0) (0 : Fin 1) := by
    funext b
    refine Fin.ext ?_
    match b with
    | ⟨0, _⟩ => rfl
    | ⟨1, _⟩ => rfl
  rw [hsi]
  rfl

/-- The row gather with its dimension numbers written out, read at `(r, k)`. -/
theorem rows_apply (hN : 0 < N) (x : (⟨2, ![N, C]⟩ : Shape).Idx → α) (idx : IVec ⟨2, ![M, 1]⟩ w)
    (r : Fin M) (k : Fin C) :
    Host.gather (rowsDims N M C wf) x idx (ix2 r k)
      = x (ix2 (⟨min (idx (ix2 r (0 : Fin 1))).toInt.toNat (N - 1), by omega⟩ : Fin N) k) := by
  unfold Host.gather
  refine congrArg x (funext fun a => Fin.ext ?_)
  match a with
  | ⟨0, _⟩ =>
    show (rowsDims N M C wf).start (ix2 r k) idx 0 + (rowsDims N M C wf).batchCoord (ix2 r k) 0
      + (rowsDims N M C wf).offCoord (ix2 r k) 0 = _
    rw [rows_start0, rows_batch, rows_off0]
    rfl
  | ⟨1, _⟩ =>
    show (rowsDims N M C wf).start (ix2 r k) idx 1 + (rowsDims N M C wf).batchCoord (ix2 r k) 1
      + (rowsDims N M C wf).offCoord (ix2 r k) 1 = _
    rw [rows_start1, rows_batch, rows_off1]
    show 0 + 0 + k.val = k.val
    omega

end Rows

/-- A gather that takes whole rows of an `N × C` table, one row per index word (dimension numbers: offset axis 1,
    collapsed axis 0, start index map `[0]`, index vector axis 1, slice sizes `[1, C]`, no batching axes), reads at
    `(r, k)` the table at `(row, k)`, where `row` is the `r`-th index word read as a signed integer and clamped into
    `[0, N − 1]`. The dimension numbers are given by equations on the record's fields; once the fields are replaced by
    these literals the record is the one of `rows_apply`. -/
theorem gather_rows_apply {N M C w : Nat} {α : Type} (d : GatherDims ⟨2, ![N, C]⟩ ⟨2, ![M, 1]⟩ ⟨2, ![M, C]⟩)
    (h1 : d.offsetDims = [1]) (h2 : d.collapsedSliceDims = [0]) (h3 : d.operandBatchingDims = []) (h4 : d.startIndicesBatchingDims = [])
    (h5 : d.startIndexMap = [0]) (h6 : d.indexVectorDim = 1) (h7 : d.sliceSizes = ![1, C]) (hN : 0 < N)
    (x : (⟨2, ![N, C]⟩ : Shape).Idx → α) (idx : IVec ⟨2, ![M, 1]⟩ w) (r : Fin M) (k : Fin C) :
    Host.gather d x idx (ix2 r k)
      = x (ix2 (⟨min (idx (ix2 r (0 : Fin 1))).toInt.toNat (N - 1), by omega⟩ : Fin N) k) := by
  obtain ⟨od, cd, ob, sb, sm, iv, ss, wf⟩ := d
  simp only at h1 h2 h3 h4 h5 h6 h7
  subst h1 h2 h3 h4 h5 h6 h7
  exact rows_apply wf hN x idx r k

/-- When the `r`-th index word, read signed, already lies in `[0, N)`, the clamp does nothing: the row is the word
    itself. -/
theorem gather_rows_apply_of_inRange {N M C w : Nat} {α : Type} (d : GatherDims ⟨2, ![N, C]⟩ ⟨2, ![M, 1]⟩ ⟨2, ![M, C]⟩)
    (h1 : d.offsetDims = [1]) (h2 : d.collapsedSliceDims = [0]) (h3 : d.operandBatchingDims = []) (h4 : d.startIndicesBatchingDims = [])
    (h5 : d.startIndexMap = [0]) (h6 : d.indexVectorDim = 1) (h7 : d.sliceSizes = ![1, C])
    (x : (⟨2, ![N, C]⟩ : Shape).Idx → α) (idx : IVec ⟨2, ![M, 1]⟩ w) (r : Fin M) (k : Fin C)
    (h0 : 0 ≤ (idx (ix2 r (0 : Fin 1))).toInt) (hlt : (idx (ix2 r (0 : Fin 1))).toInt < N) :
    Host.gather d x idx (ix2 r k)
      = x (ix2 (⟨(idx (ix2 r (0 : Fin 1))).toInt.toNat, by omega⟩ : Fin N) k) := by
  have hN : 0 < N := by omega
  rw [gather_rows_apply d h1 h2 h3 h4 h5 h6 h7 hN x idx r k]
  have hm : min (idx (ix2 r (0 : Fin 1))).toInt.toNat (N - 1) = (idx (ix2 r (0 : Fin 1))).toInt.toNat :=
    Nat.min_eq_left (by omega)
  exact congrArg x (congrArg (fun a => ix2 a k) (Fin.ext hm))
end Cert.LibGatherRows
end
-- ==== Proof.KInputs.lean ====
/-
  The input blocks of grid point t, entry by entry. Block 0 is columns 4096 t to 4096 t + 4095 of the transposed
  displacement array, so its entry (a, l) is coordinate a of the displacement of edge 4096 t + l; the other nine
  blocks are whole arrays the host lines before the launch wrote from the parameter arrays: the centres, biases and
  output weights as columns, the two weight matrices as they are and transposed (a change of float format is the
  identity on values).
-/
import proofs.«419757_j17763984736960_3_alg».proof.Proof.Gen.KernelIdeal.Frame
import proofs.«419757_j17763984736960_3_alg».proof.Proof.KArgs
import proofs.«419757_j17763984736960_3_alg».proof.Proof.LibGatherRows
import proofs.«419757_j17763984736960_3_alg».proof.Proof.LibKeepdims
import Idealize.ShloMosaic.Lib.ValueLayout

noncomputable section

namespace Cert.KernelIdeal.KInputs

open Idealize.ShloMosaic Idealize.ShloMosaic.TcCoe Idealize.ShloMosaic.ValueIdx Idealize.SL.Sem
open Cert.KernelIdeal Cert.KernelIdeal.Gen Cert.KernelIdeal.KArgs Cert.EdgeMlp

variable (m : (ℓ : Loc nD τ sig) → Buf (Elt Ideal) ℓ)

/-- The ten input blocks of point t, each at its literal type. -/
abbrev xb0 (c : Dev nD) (t : Fin cfg0.N) : Vec Ideal S3x4096 .f32 := iblk m c 0 t
abbrev xb1 (c : Dev nD) (t : Fin cfg0.N) : Vec Ideal S32x1 .f32 := iblk m c 1 t
abbrev xb2 (c : Dev nD) (t : Fin cfg0.N) : Vec Ideal S32x64 .bf16 := iblk m c 2 t
abbrev xb3 (c : Dev nD) (t : Fin cfg0.N) : Vec Ideal S64x1 .f32 := iblk m c 3 t
abbrev xb4 (c : Dev nD) (t : Fin cfg0.N) : Vec Ideal S64x32 .bf16 := iblk m c 4 t
abbrev xb5 (c : Dev nD) (t : Fin cfg0.N) : Vec Ideal S64x64 .bf16 := iblk m c 5 t
abbrev xb6 (c : Dev nD) (t : Fin cfg0.N) : Vec Ideal S64x1 .f32 := iblk m c 6 t
abbrev xb7 (c : Dev nD) (t : Fin cfg0.N) : Vec Ideal S64x64 .bf16 := iblk m c 7 t
abbrev xb8 (c : Dev nD) (t : Fin cfg0.N) : Vec Ideal S64x1 .f32 := iblk m c 8 t
abbrev xb9 (c : Dev nD) (t : Fin cfg0.N) : Vec Ideal S1x1 .f32 := iblk m c 9 t

/-- The printed index maps, decided once over the grid: window 0 takes block (0, t); the other nine input windows
    take block (0, 0), the whole array. -/
theorem idx_facts : ∀ t : Fin cfg0.N, win0_0.index t (0 : Fin 2) = 0 ∧ win0_0.index t (1 : Fin 2) = t.val
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = 0 ∧ win0_9.index t (1 : Fin 2) = 0 :=
  (by decide +kernel : ∀ t : Fin grid0.N, _)

variable (c : Dev nD) (t : Fin cfg0.N)

/-- The column of wrapped node index words: a negative word wraps once by the number of nodes. -/
def wrapIdx (x : IVec S786432 32) : IVec S786432x1 32 :=
  broadcastInDim S786432x1 ![0] bcast_S786432_S786432x1_0
    (select (cmpi .slt x (broadcastInDim S786432 ![] bcast_S_S786432 (constantI S_ 32 0#32)))
      (addi x (broadcastInDim S786432 ![] bcast_S_S786432 (constantI S_ 32 49152#32))) x)

/-- The wrapped index column at row e is the wrapped word of entry e. -/
theorem wrapIdx_apply (x : IVec S786432 32) (e : Fin 786432) : wrapIdx x (ix2 e (0 : Fin 1)) = normWord (x (ix1 e)) := by
  unfold wrapIdx
  rw [broadcastInDim_apply ![0] bcast_S786432_S786432x1_0 _ (ix2 e (0 : Fin 1)) (ix1 e) (fun a => by
    match a with
    | ⟨0, _⟩ =>
      show e.val = if (786432 : ℕ) = 1 then 0 else e.val
      exact (if_neg (by decide)).symm)]
  rfl

/-- The row gather of the position table at (e, a): the table at the row the index word addresses. -/
theorem gather_at (x : FVec Ideal S49152x3 .f32) (idx : IVec S786432x1 32) (e : Fin 786432) (a : Fin 3) :
    Host.gather gather_S49152x3_S786432x1_S786432x3_1_0_n_n_0_1_13 x idx (ix2 e a) = x (ix2 (rowOf (idx (ix2 e (0 : Fin 1)))) a) :=
  Cert.LibGatherRows.gather_rows_apply _ rfl rfl rfl rfl rfl rfl rfl (by decide) x idx e a

theorem x0_at (a : Fin 3) (l : Fin 4096) : xb0 m c t (ix2 a l) = D m c (edgeOf ⟨t.val, t.isLt⟩ l) a := by
  have eV : (V m c main_v16 : S3x786432.Idx → EReal) =
      transpose S3x786432 [1, 0]
        (subf (addf (A1 m c) (Host.gather gather_S49152x3_S786432x1_S786432x3_1_0_n_n_0_1_13 (A0 m c) (wrapIdx (A3 m c))))
          (Host.gather gather_S49152x3_S786432x1_S786432x3_1_0_n_n_0_1_13 (A0 m c) (wrapIdx (A2 m c))))
        transposes_S786432x3_S3x786432_1_0 := by
    show StableHlo.after hostOps0 (fun b => m (c, b)) (Proc.devRef .tc main_v16) = _
    after_results_simp
    rfl
  obtain ⟨e0, e1, -⟩ := idx_facts t
  have hi : ((cfg0.win 0).blk t).view.emb (ix2 a l) = (ix2 a (edgeOf ⟨t.val, t.isLt⟩ l) : S3x786432.Idx) := by
    funext b; apply Fin.ext
    match b with
    | ⟨0, _⟩ => show win0_0.index t (0 : Fin 2) * 3 + 1 * a.val = a.val; omega
    | ⟨1, _⟩ => show win0_0.index t (1 : Fin 2) * 4096 + 1 * l.val = t.val * 4096 + l.val; omega
  show V m c main_v16 (((cfg0.win 0).blk t).view.emb (ix2 a l)) = _
  rw [hi, eV, transpose_ix2_apply, subf_apply, addf_apply, gather_at, gather_at, wrapIdx_apply, wrapIdx_apply]
  rfl

theorem x1_at (k : Fin 32) : xb1 m c t (ix2 k (0 : Fin 1)) = (P m c).c k := by
  have e : (V m c main_v17 : S32x1.Idx → EReal) = shapeCast S32x1 (A6 m c) shapeCasts_S32_S32x1 := by
    show StableHlo.after hostOps0 (fun b => m (c, b)) (Proc.devRef .tc main_v17) = _
    after_results
    rfl
  obtain ⟨-, -, e0, e1, -⟩ := idx_facts t
  have hi : ((cfg0.win 1).blk t).view.emb (ix2 k (0 : Fin 1)) = (ix2 k (0 : Fin 1) : S32x1.Idx) := by
    funext a; apply Fin.ext
    match a with
    | ⟨0, _⟩ => show win0_1.index t (0 : Fin 2) * 32 + 1 * k.val = k.val; omega
    | ⟨1, _⟩ => show win0_1.index t (1 : Fin 2) * 1 + 1 * (0 : Fin 1).val = (0 : Fin 1).val; omega
  show V m c main_v17 (((cfg0.win 1).blk t).view.emb (ix2 k (0 : Fin 1))) = _
  rw [hi, e, Cert.LibKeepdims.shapeCast_a_a1_apply]
  rfl

theorem x2_at (k : Fin 32) (h : Fin 64) : xb2 m c t (ix2 k h) = (P m c).W1 k h := by
  have e : (V m c main_v21 : S32x64.Idx → EReal) = truncf .bf16 (A7 m c) bitsLt_bf16_f32 := by
    show StableHlo.after hostOps0 (fun b => m (c, b)) (Proc.devRef .tc main_v21) = _
    after_results
  obtain ⟨-, -, -, -, e0, e1, -⟩ := idx_facts t
  have hi : ((cfg0.win 2).blk t).view.emb (ix2 k h) = (ix2 k h : S32x64.Idx) := by
    funext a; apply Fin.ext
    match a with
    | ⟨0, _⟩ => show win0_2.index t (0 : Fin 2) * 32 + 1 * k.val = k.val; omega
    | ⟨1, _⟩ => show win0_2.index t (1 : Fin 2) * 64 + 1 * h.val = h.val; omega
  show V m c main_v21 (((cfg0.win 2).blk t).view.emb (ix2 k h)) = _
  rw [hi, e]
  rfl

theorem x3_at (h : Fin 64) : xb3 m c t (ix2 h (0 : Fin 1)) = (P m c).b1 h := by
  have e : (V m c main_v18 : S64x1.Idx → EReal) = shapeCast S64x1 (A8 m c) shapeCasts_S64_S64x1 := by
    show StableHlo.after hostOps0 (fun b => m (c, b)) (Proc.devRef .tc main_v18) = _
    after_results
    rfl
  obtain ⟨-, -, -, -, -, -, e0, e1, -⟩ := idx_facts t
  have hi : ((cfg0.win 3).blk t).view.emb (ix2 h (0 : Fin 1)) = (ix2 h (0 : Fin 1) : S64x1.Idx) := by
    funext a; apply Fin.ext
    match a with
    | ⟨0, _⟩ => show win0_3.index t (0 : Fin 2) * 64 + 1 * h.val = h.val; omega
    | ⟨1, _⟩ => show win0_3.index t (1 : Fin 2) * 1 + 1 * (0 : Fin 1).val = (0 : Fin 1).val; omega
  show V m c main_v18 (((cfg0.win 3).blk t).view.emb (ix2 h (0 : Fin 1))) = _
  rw [hi, e, Cert.LibKeepdims.shapeCast_a_a1_apply]
  rfl

theorem x4_at (h : Fin 64) (k : Fin 32) : xb4 m c t (ix2 h k) = (P m c).W1 k h := by
  have e : (V m c main_v23 : S64x32.Idx → EReal) = truncf .bf16 (transpose S64x32 [1, 0] (A7 m c) transposes_S32x64_S64x32_1_0) bitsLt_bf16_f32 := by
    show StableHlo.after hostOps0 (fun b => m (c, b)) (Proc.devRef .tc main_v23) = _
    after_results
  obtain ⟨-, -, -, -, -, -, -, -, e0, e1, -⟩ := idx_facts t
  have hi : ((cfg0.win 4).blk t).view.emb (ix2 h k) = (ix2 h k : S64x32.Idx) := by
    funext a; apply Fin.ext
    match a with
    | ⟨0, _⟩ => show win0_4.index t (0 : Fin 2) * 64 + 1 * h.val = h.val; omega
    | ⟨1, _⟩ => show win0_4.index t (1 : Fin 2) * 32 + 1 * k.val = k.val; omega
  show V m c main_v23 (((cfg0.win 4).blk t).view.emb (ix2 h k)) = _
  rw [hi, e, truncf_apply, transpose_ix2_apply]
  rfl

theorem x5_at (j h : Fin 64) : xb5 m c t (ix2 j h) = (P m c).W2 j h := by
  have e : (V m c main_v24 : S64x64.Idx → EReal) = truncf .bf16 (A9 m c) bitsLt_bf16_f32 := by
    show StableHlo.after hostOps0 (fun b => m (c, b)) (Proc.devRef .tc main_v24) = _
    after_results
  obtain ⟨-, -, -, -, -, -, -, -, -, -, e0, e1, -⟩ := idx_facts t
  have hi : ((cfg0.win 5).blk t).view.emb (ix2 j h) = (ix2 j h : S64x64.Idx) := by
    funext a; apply Fin.ext
    match a with
    | ⟨0, _⟩ => show win0_5.index t (0 : Fin 2) * 64 + 1 * j.val = j.val; omega
    | ⟨1, _⟩ => show win0_5.index t (1 : Fin 2) * 64 + 1 * h.val = h.val; omega
  show V m c main_v24 (((cfg0.win 5).blk t).view.emb (ix2 j h)) = _
  rw [hi, e]
  rfl

theorem x6_at (h : Fin 64) : xb6 m c t (ix2 h (0 : Fin 1)) = (P m c).b2 h := by
  have e : (V m c main_v19 : S64x1.Idx → EReal) = shapeCast S64x1 (A10 m c) shapeCasts_S64_S64x1 := by
    show StableHlo.after hostOps0 (fun b => m (c, b)) (Proc.devRef .tc main_v19) = _
    after_results
    rfl
  obtain ⟨-, -, -, -, -, -, -, -, -, -, -, -, e0, e1, -⟩ := idx_facts t
  have hi : ((cfg0.win 6).blk t).view.emb (ix2 h (0 : Fin 1)) = (ix2 h (0 : Fin 1) : S64x1.Idx) := by
    funext a; apply Fin.ext
    match a with
    | ⟨0, _⟩ => show win0_6.index t (0 : Fin 2) * 64 + 1 * h.val = h.val; omega
    | ⟨1, _⟩ => show win0_6.index t (1 : Fin 2) * 1 + 1 * (0 : Fin 1).val = (0 : Fin 1).val; omega
  show V m c main_v19 (((cfg0.win 6).blk t).view.emb (ix2 h (0 : Fin 1))) = _
  rw [hi, e, Cert.LibKeepdims.shapeCast_a_a1_apply]
  rfl

theorem x7_at (h j : Fin 64) : xb7 m c t (ix2 h j) = (P m c).W2 j h := by
  have e : (V m c main_v26 : S64x64.Idx → EReal) = truncf .bf16 (transpose S64x64 [1, 0] (A9 m c) transposes_S64x64_S64x64_1_0) bitsLt_bf16_f32 := by
    show StableHlo.after hostOps0 (fun b => m (c, b)) (Proc.devRef .tc main_v26) = _
    after_results
  obtain ⟨-, -, -, -, -, -, -, -, -, -, -, -, -, -, e0, e1, -⟩ := idx_facts t
  have hi : ((cfg0.win 7).blk t).view.emb (ix2 h j) = (ix2 h j : S64x64.Idx) := by
    funext a; apply Fin.ext
    match a with
    | ⟨0, _⟩ => show win0_7.index t (0 : Fin 2) * 64 + 1 * h.val = h.val; omega
    | ⟨1, _⟩ => show win0_7.index t (1 : Fin 2) * 64 + 1 * j.val = j.val; omega
  show V m c main_v26 (((cfg0.win 7).blk t).view.emb (ix2 h j)) = _
  rw [hi, e, truncf_apply, transpose_ix2_apply]
  rfl

theorem x8_at (h : Fin 64) : xb8 m c t (ix2 h (0 : Fin 1)) = (P m c).W3 h := by
  have e : (V m c main_arg11 : S64x1.Idx → EReal) = A11 m c := by
    exact V_main_arg11 m c
  obtain ⟨-, -, -, -, -, -, -, -, -, -, -, -, -, -, -, -, e0, e1, -⟩ := idx_facts t
  have hi : ((cfg0.win 8).blk t).view.emb (ix2 h (0 : Fin 1)) = (ix2 h (0 : Fin 1) : S64x1.Idx) := by
    funext a; apply Fin.ext
    match a with
    | ⟨0, _⟩ => show win0_8.index t (0 : Fin 2) * 64 + 1 * h.val = h.val; omega
    | ⟨1, _⟩ => show win0_8.index t (1 : Fin 2) * 1 + 1 * (0 : Fin 1).val = (0 : Fin 1).val; omega
  show V m c main_arg11 (((cfg0.win 8).blk t).view.emb (ix2 h (0 : Fin 1))) = _
  rw [hi, e]
  rfl

theorem x9_at : xb9 m c t (ix2 (0 : Fin 1) (0 : Fin 1)) = (P m c).b3 := by
  have e : (V m c main_v20 : S1x1.Idx → EReal) = shapeCast S1x1 (A12 m c) shapeCasts_S1_S1x1 := by
    show StableHlo.after hostOps0 (fun b => m (c, b)) (Proc.devRef .tc main_v20) = _
    after_results
    rfl
  obtain ⟨-, -, -, -, -, -, -, -, -, -, -, -, -, -, -, -, -, -, e0, e1⟩ := idx_facts t
  have hi : ((cfg0.win 9).blk t).view.emb (ix2 (0 : Fin 1) (0 : Fin 1)) = (ix2 (0 : Fin 1) (0 : Fin 1) : S1x1.Idx) := by
    funext a; apply Fin.ext
    match a with
    | ⟨0, _⟩ => show win0_9.index t (0 : Fin 2) * 1 + 1 * (0 : Fin 1).val = (0 : Fin 1).val; omega
    | ⟨1, _⟩ => show win0_9.index t (1 : Fin 2) * 1 + 1 * (0 : Fin 1).val = (0 : Fin 1).val; omega
  show V m c main_v20 (((cfg0.win 9).blk t).view.emb (ix2 (0 : Fin 1) (0 : Fin 1))) = _
  rw [hi, e, Cert.LibKeepdims.shapeCast_a_a1_apply]
  rfl

end Cert.KernelIdeal.KInputs

end
-- ==== Proof.KBlocks.lean ====
/-
  What the kernel body leaves in the output block of grid point t, entry by entry: at row r and lane l, the value of
  the output array at row r of the edge that lane works on. The block's two stored pieces (rows 0 to 2, row 3) are
  the body's two payloads; their inputs are the point's input blocks, which are blocks of the arrays the host lines
  before the launch wrote (the transposed displacements, the parameter arrays as columns, the weights and their
  transposes).
-/
import proofs.«419757_j17763984736960_3_alg».proof.Proof.Gen.KernelIdeal.Frame
import proofs.«419757_j17763984736960_3_alg».proof.Proof.KArgs
import proofs.«419757_j17763984736960_3_alg».proof.Proof.PayFwd
import proofs.«419757_j17763984736960_3_alg».proof.Proof.PayBwd
import proofs.«419757_j17763984736960_3_alg».proof.Proof.KPieces
import proofs.«419757_j17763984736960_3_alg».proof.Proof.KInputs

noncomputable section

namespace Cert.KernelIdeal.KBlocks

open Idealize.ShloMosaic Idealize.ShloMosaic.TcCoe Idealize.ShloMosaic.ValueIdx Idealize.SL.Sem
open Cert.KernelIdeal Cert.KernelIdeal.Gen Cert.KernelIdeal.KArgs Cert.EdgeMlp

/-- The output block of a run of the body at row r, lane l, when the ten input blocks hold at that lane the
    displacement D and everywhere the parameters P: the gradient's coordinate r in rows 0 to 2, the energy in row 3. -/
theorem block_of_inputs (P : Params) (D : Fin 3 → EReal) (l : Fin 4096) (c : Dev nD) (i : grid0.Coords)
    (arg1 : Memref sig .tc .vmem S3x4096 .f32) (harg1 : arg1.IsWhole) (arg2 : Memref sig .tc .vmem S32x1 .f32) (harg2 : arg2.IsWhole)
    (arg3 : Memref sig .tc .vmem S32x64 .bf16) (harg3 : arg3.IsWhole) (arg4 : Memref sig .tc .vmem S64x1 .f32) (harg4 : arg4.IsWhole)
    (arg5 : Memref sig .tc .vmem S64x32 .bf16) (harg5 : arg5.IsWhole) (arg6 : Memref sig .tc .vmem S64x64 .bf16) (harg6 : arg6.IsWhole)
    (arg7 : Memref sig .tc .vmem S64x1 .f32) (harg7 : arg7.IsWhole) (arg8 : Memref sig .tc .vmem S64x64 .bf16) (harg8 : arg8.IsWhole)
    (arg9 : Memref sig .tc .vmem S64x1 .f32) (harg9 : arg9.IsWhole) (arg10 : Memref sig .tc .vmem S1x1 .f32) (harg10 : arg10.IsWhole)
    (arg11 : Memref sig .tc .vmem S4x4096 .f32) (harg11 : arg11.IsWhole)
    (x0 : Vec Ideal S3x4096 .f32) (x1 : Vec Ideal S32x1 .f32) (x2 : Vec Ideal S32x64 .bf16) (x3 : Vec Ideal S64x1 .f32)
    (x4 : Vec Ideal S64x32 .bf16) (x5 : Vec Ideal S64x64 .bf16) (x6 : Vec Ideal S64x1 .f32) (x7 : Vec Ideal S64x64 .bf16)
    (x8 : Vec Ideal S64x1 .f32) (x9 : Vec Ideal S1x1 .f32)
    (hx0 : ∀ a : Fin 3, x0 (ix2 a l) = D a) (hx1 : ∀ k : Fin 32, x1 (ix2 k (0 : Fin 1)) = P.c k)
    (hx2 : ∀ (k : Fin 32) (h : Fin 64), x2 (ix2 k h) = P.W1 k h) (hx3 : ∀ h : Fin 64, x3 (ix2 h (0 : Fin 1)) = P.b1 h)
    (hx4 : ∀ (h : Fin 64) (k : Fin 32), x4 (ix2 h k) = P.W1 k h) (hx5 : ∀ j h : Fin 64, x5 (ix2 j h) = P.W2 j h)
    (hx6 : ∀ h : Fin 64, x6 (ix2 h (0 : Fin 1)) = P.b2 h) (hx7 : ∀ (h j : Fin 64), x7 (ix2 h j) = P.W2 j h)
    (hx8 : ∀ h : Fin 64, x8 (ix2 h (0 : Fin 1)) = P.W3 h) (hx9 : x9 (ix2 (0 : Fin 1) (0 : Fin 1)) = P.b3) (r : Fin 4) :
    out0_A_10 (F := Ideal) c i arg1 harg1 arg2 harg2 arg3 harg3 arg4 harg4 arg5 harg5 arg6 harg6 arg7 harg7 arg8 harg8 arg9 harg9 arg10 harg10 arg11 harg11 x0 x1 x2 x3 x4 x5 x6 x7 x8 x9 (ix2 r l)
      = if h : r.val < 3 then kerG P D ⟨r.val, h⟩ else kerE P D := by
  by_cases h : r.val < 3
  · rw [dif_pos h]
    refine (KPieces.out_grad c i arg1 harg1 arg2 harg2 arg3 harg3 arg4 harg4 arg5 harg5 arg6 harg6 arg7 harg7 arg8 harg8 arg9 harg9 arg10 harg10 arg11 harg11 x0 x1 x2 x3 x4 x5 x6 x7 x8 x9 (⟨r.val, h⟩ : Fin 3) l).trans ?_
    exact PayBwd.pay_grad_of P D l (k0_pay3 x0) (k0_pay4 x0) (k0_pay5 x0 x1) (k0_pay6 x0 x1) (k0_pay7 x0 x1 x4 x3)
      (k0_pay8 x0 x1 x4 x3) (k0_pay9 x0 x1 x4 x3 x7 x6) (k0_pay10 x0 x1 x4 x3 x7 x6) x8 x5 x2
      (fun a => PayFwd.pay3_at D l x0 hx0 a) (PayFwd.pay4_at D l x0 hx0)
      (fun k => PayFwd.pay5_at P D l x0 x1 hx0 hx1 k) (fun k => PayFwd.pay6_at P D l x0 x1 hx0 hx1 k)
      (fun h => PayFwd.pay7_at P D l x0 x1 x3 x4 hx0 hx1 hx4 hx3 h) (fun h => PayFwd.pay8_at P D l x0 x1 x3 x4 hx0 hx1 hx4 hx3 h)
      (fun h => PayFwd.pay9_at P D l x0 x1 x3 x4 x6 x7 hx0 hx1 hx4 hx3 hx7 hx6 h)
      (fun h => PayFwd.pay10_at P D l x0 x1 x3 x4 x6 x7 hx0 hx1 hx4 hx3 hx7 hx6 h)
      hx8 hx5 hx2 (⟨r.val, h⟩ : Fin 3)
  · rw [dif_neg h]
    have hr : r = (3 : Fin 4) := Fin.ext (by have := r.isLt; show r.val = 3; omega)
    subst hr
    refine (KPieces.out_energy c i arg1 harg1 arg2 harg2 arg3 harg3 arg4 harg4 arg5 harg5 arg6 harg6 arg7 harg7 arg8 harg8 arg9 harg9 arg10 harg10 arg11 harg11 x0 x1 x2 x3 x4 x5 x6 x7 x8 x9 l).trans ?_
    exact PayFwd.pay_energy P D l x0 x1 x3 x4 x6 x7 x8 x9 hx0 hx1 hx4 hx3 hx7 hx6 hx8 hx9

variable (m : (ℓ : Loc nD τ sig) → Buf (Elt Ideal) ℓ)

/-- The output block of point t at row r, lane l. -/
theorem block_at (c : Dev nD) (t : Fin cfg0.N) (r : Fin 4) (l : Fin 4096) :
    outsAt0 m c t (ix2 r l) = outAt (P m c) (D m c) r (edgeOf ⟨t.val, t.isLt⟩ l) := by
  unfold outsAt0 outAt
  exact block_of_inputs (P m c) (D m c (edgeOf ⟨t.val, t.isLt⟩ l)) l c (grid0.coords t)
    (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t)
    (KInputs.xb0 m c t) (KInputs.xb1 m c t) (KInputs.xb2 m c t) (KInputs.xb3 m c t) (KInputs.xb4 m c t) (KInputs.xb5 m c t) (KInputs.xb6 m c t) (KInputs.xb7 m c t) (KInputs.xb8 m c t) (KInputs.xb9 m c t)
    (fun a => KInputs.x0_at m c t a l) (fun k => KInputs.x1_at m c t k) (fun k h => KInputs.x2_at m c t k h)
    (fun h => KInputs.x3_at m c t h) (fun h k => KInputs.x4_at m c t h k) (fun j h => KInputs.x5_at m c t j h)
    (fun h => KInputs.x6_at m c t h) (fun h j => KInputs.x7_at m c t h j) (fun h => KInputs.x8_at m c t h)
    (KInputs.x9_at m c t) r

end Cert.KernelIdeal.KBlocks

end
-- ==== Proof.KVal.lean ====
/-
  The kernel program's run with its results named: the launch's output array is, entry by entry, the gradient and the
  energy of each edge (every grid point's block covers its 4096 edges, and the blocks cover the array), and the host
  lines after the launch turn it into the four results.
-/
import proofs.«419757_j17763984736960_3_alg».proof.Proof.Gen.KernelIdeal.Frame
import proofs.«419757_j17763984736960_3_alg».proof.Proof.KArgs
import proofs.«419757_j17763984736960_3_alg».proof.Proof.KRes
import proofs.«419757_j17763984736960_3_alg».proof.Proof.KBlocks

noncomputable section

namespace Cert.KernelIdeal.KVal

open Idealize.ShloMosaic Idealize.ShloMosaic.TcCoe Idealize.ShloMosaic.ValueIdx Idealize.SL.Sem
open Cert.KernelIdeal Cert.KernelIdeal.Gen Cert.KernelIdeal.KArgs Cert.KernelIdeal.KRes Cert.EdgeMlp

variable (m : (ℓ : Loc nD τ sig) → Buf (Elt Ideal) ℓ) (ρ : Dev nD → PrngReg)

/-- What the launch leaves: row r of edge e holds the gradient's coordinate r (rows 0 to 2) or the energy (row 3). -/
def Oarr (c : Dev nD) : FVec Ideal S4x786432 .f32 := fun i => outAt (P m c) (D m c) (i 0) (i 1)

/-- The output window's block index at grid point t: row block 0, column block t. -/
theorem idx_facts : ∀ t : Fin cfg0.N, win0_10.index t (0 : Fin 2) = 0 ∧ win0_10.index t (1 : Fin 2) = t.val :=
  (by decide +kernel : ∀ t : Fin grid0.N, _)

/-- Entry (r, l) of point t's block is the array's entry at row r of the edge t * 4096 + l. -/
theorem block_read (c : Dev nD) (t : Fin cfg0.N) (r : Fin 4) (l : Fin 4096) (i : S4x786432.Idx)
    (h0 : (i 0).val = r.val) (h1 : (i 1).val = t.val * 4096 + l.val) :
    outsAt0 m c t (ix2 r l) = Oarr m c i := by
  rw [KBlocks.block_at]
  unfold Oarr
  have a0 : (i 0 : Fin 4) = r := Fin.ext h0
  have a1 : (i 1 : Fin 786432) = edgeOf ⟨t.val, t.isLt⟩ l := Fin.ext h1
  rw [a0, a1]

/-- What point t writes back is block t of the array. -/
theorem flushed_eq (c : Dev nD) (t : Fin cfg0.N) :
    (dats m 0 c).flushed 10 t = ((cfg0.win 10).blk t).view.read (Elt Ideal) (Oarr m c) := by
  show (cfg0.win 10).cut (grid0.coords t) ((dats m 0 c).after 10 t) = _
  rw [after0_10]
  obtain ⟨e0, e1⟩ := idx_facts t
  funext j
  have hx : ((cfg0.win 10).xinj (grid0.coords t) j : S4x4096.Idx)
      = ix2 (⟨(j 0).val, (j 0).isLt⟩ : Fin 4) (⟨(j 1).val, (j 1).isLt⟩ : Fin 4096) := by
    funext a
    match a with
    | ⟨0, _⟩ => rfl
    | ⟨1, _⟩ => rfl
  show outsAt0 m c t ((cfg0.win 10).xinj (grid0.coords t) j) = Oarr m c (((cfg0.win 10).blk t).view.emb j)
  rw [hx]
  refine block_read m c t _ _ _ ?_ ?_
  · show win0_10.index t (0 : Fin 2) * 4 + 1 * (j 0).val = (j 0).val
    omega
  · show win0_10.index t (1 : Fin 2) * 4096 + 1 * (j 1).val = t.val * 4096 + (j 1).val
    omega

/-- An index of the array is in point t's block iff each coordinate is in the block's range on its axis. -/
theorem mem_blk (t : Fin cfg0.N) (i : S4x786432.Idx) :
    i ∈ ((cfg0.win 10).blk t).view.set ↔ ∀ a : Fin 2, win0_10.index t a * S4x4096.size a ≤ (i a).val
      ∧ (i a).val < win0_10.index t a * S4x4096.size a + S4x4096.size a := by
  show i ∈ ((View.whole main_v27).slice (win0_10.rect t)).set ↔ _
  rw [View.set_slice_whole, Rect.mem_set_unit]
  exact Iff.rfl

/-- The blocks cover the array: column e is in the block of point e / 4096. -/
theorem cover (i : S4x786432.Idx) :
    ∃ t : Fin cfg0.N, (cfg0.win 10).flush t = true ∧ i ∈ ((cfg0.win 10).blk t).view.set := by
  have hi0 : (i 0).val < 4 := (i 0).isLt
  have hi1 : (i 1).val < 786432 := (i 1).isLt
  have hlt : (i 1).val / 4096 < cfg0.N := by
    show (i 1).val / 4096 < grid0.N
    rw [N_0]
    omega
  obtain ⟨e0, e1⟩ := idx_facts ⟨(i 1).val / 4096, hlt⟩
  have e1' : win0_10.index ⟨(i 1).val / 4096, hlt⟩ (1 : Fin 2) = (i 1).val / 4096 := e1
  refine ⟨⟨(i 1).val / 4096, hlt⟩, flush0_10 _, ?_⟩
  rw [mem_blk]
  intro a
  match a with
  | ⟨0, _⟩ =>
    show win0_10.index ⟨(i 1).val / 4096, hlt⟩ (0 : Fin 2) * 4 ≤ (i 0).val
      ∧ (i 0).val < win0_10.index ⟨(i 1).val / 4096, hlt⟩ (0 : Fin 2) * 4 + 4
    omega
  | ⟨1, _⟩ =>
    show win0_10.index ⟨(i 1).val / 4096, hlt⟩ (1 : Fin 2) * 4096 ≤ (i 1).val
      ∧ (i 1).val < win0_10.index ⟨(i 1).val / 4096, hlt⟩ (1 : Fin 2) * 4096 + 4096
    omega

/-- The launch's output array after the run. -/
theorem final (c : Dev nD) : (dats m 0 c).arrAt 10 cfg0.N = Oarr m c :=
  (dats m 0 c).arrAt_eq_of_cover 10 (Oarr m c) (fun t _ => flushed_eq m c t) cover

/-- The output array's entry at explicit row and edge. -/
theorem Oarr_apply (c : Dev nD) (r : Fin 4) (e : Fin 786432) : Oarr m c (ix2 r e) = outAt (P m c) (D m c) r e := rfl

/-- Row 3 of the output array, flattened, at edge e: the edge's energy. -/
theorem evec_at (c : Dev nD) (e : Fin 786432) :
    (shapeCast S786432 (extractStridedSlice S1x786432 ![3, 0] (Oarr m c) slices_S4x786432_S1x786432_3_0)
      shapeCasts_S1x786432_S786432 : FVec Ideal S786432 .f32) (ix1 e) = kerE (P m c) (D m c e) := by
  refine (shapeCast_apply _ _ _ (ix2 (0 : Fin 1) e) ?_).trans ?_
  · rw [Shape.rowMajor_val_two, Shape.rowMajor_val_one]
    show (0 : Nat) * 786432 + e.val = e.val
    omega
  refine (extractStridedSlice_apply _ _ _ _ (ix2 (3 : Fin 4) e) ?_).trans ?_
  · intro a
    match a with
    | ⟨0, _⟩ => rfl
    | ⟨1, _⟩ => show e.val = 0 + e.val; omega
  · rw [Oarr_apply]
    unfold outAt
    exact dif_neg (by decide)

/-- Rows 0 to 2 of the output array, transposed, at edge e and coordinate a: that coordinate of the edge's gradient. -/
theorem gmat_at (c : Dev nD) (e : Fin 786432) (a : Fin 3) :
    (transpose S786432x3 [1, 0] (extractStridedSlice S3x786432 ![0, 0] (Oarr m c) slices_S4x786432_S3x786432_0_0)
      transposes_S3x786432_S786432x3_1_0 : FVec Ideal S786432x3 .f32) (ix2 e a) = kerG (P m c) (D m c e) a := by
  refine (transpose_apply _ _ _ _ (ix2 a e) ?_).trans ?_
  · intro b
    match b with
    | ⟨0, _⟩ => rfl
    | ⟨1, _⟩ => rfl
  refine (extractStridedSlice_apply _ _ _ _ (ix2 (⟨a.val, by omega⟩ : Fin 4) e) ?_).trans ?_
  · intro b
    match b with
    | ⟨0, _⟩ => show a.val = 0 + a.val; omega
    | ⟨1, _⟩ => show e.val = 0 + e.val; omega
  · rw [Oarr_apply]
    unfold outAt
    exact dif_pos a.isLt

/-- Row 3 of the output array, flattened, is the vector of the edges' energies. -/
theorem evec_eq (c : Dev nD) :
    (shapeCast S786432 (extractStridedSlice S1x786432 ![3, 0] (Oarr m c) slices_S4x786432_S1x786432_3_0)
      shapeCasts_S1x786432_S786432 : FVec Ideal S786432 .f32) = evec (P m c) (D m c) := by
  funext i
  rw [eq_ix1 i]
  exact evec_at m c (i 0)

/-- Rows 0 to 2 of the output array, transposed, are the matrix of the edges' gradients. -/
theorem gmat_eq (c : Dev nD) :
    (transpose S786432x3 [1, 0] (extractStridedSlice S3x786432 ![0, 0] (Oarr m c) slices_S4x786432_S3x786432_0_0)
      transposes_S3x786432_S786432x3_1_0 : FVec Ideal S786432x3 .f32) = gmat (P m c) (D m c) := by
  funext i
  rw [eq_ix2 i]
  exact gmat_at m c (i 0) (i 1)

/-- After the launch the output buffer holds the output array. -/
theorem W_v27 (c : Dev nD) :
    Pipeline.withArrays (cfgs 0).spec c (V0 m c) (fun w => (dats m 0 c).arrAt w (cfgs 0).N) (Proc.devRef .tc main_v27)
      = Oarr m c :=
  (Pipeline.withArrays_arr spec0 launch0.win.arr_inj c _ _ 10).trans (final m c)

/-- After the launch the argument buffers the later lines read hold the arguments. -/
theorem W_arg1 (c : Dev nD) :
    Pipeline.withArrays (cfgs 0).spec c (V0 m c) (fun w => (dats m 0 c).arrAt w (cfgs 0).N) (Proc.devRef .tc main_arg1)
      = A1 m c :=
  (Pipeline.withArrays_of_ne _ c (V0 m c) _ main_arg1 (by exact (by decide : ∀ w, Pipeline.arrRef spec0 w ≠ main_arg1))).trans
    (V_main_arg1 m c)
theorem W_arg2 (c : Dev nD) :
    Pipeline.withArrays (cfgs 0).spec c (V0 m c) (fun w => (dats m 0 c).arrAt w (cfgs 0).N) (Proc.devRef .tc main_arg2)
      = A2 m c :=
  (Pipeline.withArrays_of_ne _ c (V0 m c) _ main_arg2 (by exact (by decide : ∀ w, Pipeline.arrRef spec0 w ≠ main_arg2))).trans
    (V_main_arg2 m c)
theorem W_arg3 (c : Dev nD) :
    Pipeline.withArrays (cfgs 0).spec c (V0 m c) (fun w => (dats m 0 c).arrAt w (cfgs 0).N) (Proc.devRef .tc main_arg3)
      = A3 m c :=
  (Pipeline.withArrays_of_ne _ c (V0 m c) _ main_arg3 (by exact (by decide : ∀ w, Pipeline.arrRef spec0 w ≠ main_arg3))).trans
    (V_main_arg3 m c)
theorem W_arg4 (c : Dev nD) :
    Pipeline.withArrays (cfgs 0).spec c (V0 m c) (fun w => (dats m 0 c).arrAt w (cfgs 0).N) (Proc.devRef .tc main_arg4)
      = A4 m c :=
  (Pipeline.withArrays_of_ne _ c (V0 m c) _ main_arg4 (by exact (by decide : ∀ w, Pipeline.arrRef spec0 w ≠ main_arg4))).trans
    (V_main_arg4 m c)
theorem W_arg5 (c : Dev nD) :
    Pipeline.withArrays (cfgs 0).spec c (V0 m c) (fun w => (dats m 0 c).arrAt w (cfgs 0).N) (Proc.devRef .tc main_arg5)
      = A5 m c :=
  (Pipeline.withArrays_of_ne _ c (V0 m c) _ main_arg5 (by exact (by decide : ∀ w, Pipeline.arrRef spec0 w ≠ main_arg5))).trans
    (V_main_arg5 m c)

/-- The first result: the energies summed per graph. -/
theorem tail34 (c : Dev nD) :
    Pipeline.afterTail₀ cfgs (dats m) 0 (V0 m) [hostOps1] c main_v34 = resE (A4 m c) (evec (P m c) (D m c)) := by
  unfold Pipeline.afterTail₀
  show StableHlo.after hostOps1 _ (Proc.devRef .tc main_v34) = _
  after_results
  rw [W_v27, W_arg4, ← evec_eq m c]
  rfl

/-- The second result: the forces. -/
theorem tail42 (c : Dev nD) :
    Pipeline.afterTail₀ cfgs (dats m) 0 (V0 m) [hostOps1] c main_v42
      = resF (A2 m c) (A3 m c) (gmat (P m c) (D m c)) := by
  unfold Pipeline.afterTail₀
  show StableHlo.after hostOps1 _ (Proc.devRef .tc main_v42) = _
  after_results
  rw [W_v27, W_arg2, W_arg3, gmat_eq m c]
  rfl

/-- The third result: the stresses. -/
theorem tail67 (c : Dev nD) :
    Pipeline.afterTail₀ cfgs (dats m) 0 (V0 m) [hostOps1] c main_v67
      = resS (A1 m c) (A4 m c) (A5 m c) (gmat (P m c) (D m c)) := by
  unfold Pipeline.afterTail₀
  show StableHlo.after hostOps1 _ (Proc.devRef .tc main_v67) = _
  after_results_simp
  rw [W_v27, W_arg1, W_arg4, W_arg5, gmat_eq m c]
  rfl

/-- The fourth result: one zero. -/
theorem tail68 (c : Dev nD) : Pipeline.afterTail₀ cfgs (dats m) 0 (V0 m) [hostOps1] c main_v68 = resH := by
  unfold Pipeline.afterTail₀
  show StableHlo.after hostOps1 _ (Proc.devRef .tc main_v68) = _
  after_results
  rfl

/-- Every weakly fair execution of the kernel program ends with its four results at these values, the arguments unchanged. -/
theorem run : θ_run (defs (F := Ideal)) (onTc (τ := τ) (main (F := Ideal))) ⟨m, fun _ => 0, ρ⟩ (fun r => ∀ c : Dev nD,
      r.2.mem ((c.tc : Thread nD τ).loc main_v34) = resE (A4 m c) (evec (P m c) (D m c))
      ∧ r.2.mem ((c.tc : Thread nD τ).loc main_v42) = resF (A2 m c) (A3 m c) (gmat (P m c) (D m c))
      ∧ r.2.mem ((c.tc : Thread nD τ).loc main_v67) = resS (A1 m c) (A4 m c) (A5 m c) (gmat (P m c) (D m c))
      ∧ r.2.mem ((c.tc : Thread nD τ).loc main_v68) = resH
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun _ h c =>
    ⟨((h c).2 main_v34 (Pipeline.mem_restRefs_of main_v34 (by decide) (by decide))).trans (tail34 m c),
      ((h c).2 main_v42 (Pipeline.mem_restRefs_of main_v42 (by decide) (by decide))).trans (tail42 m c),
      ((h c).2 main_v67 (Pipeline.mem_restRefs_of main_v67 (by decide) (by decide))).trans (tail67 m c),
      ((h c).2 main_v68 (Pipeline.mem_restRefs_of main_v68 (by decide) (by decide))).trans (tail68 m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c),
      ((h c).2 main_arg8 (Pipeline.mem_restRefs_of main_arg8 (by decide) (by decide))).trans (W_main_arg8 m (dats m) c),
      ((h c).2 main_arg9 (Pipeline.mem_restRefs_of main_arg9 (by decide) (by decide))).trans (W_main_arg9 m (dats m) c),
      ((h c).2 main_arg10 (Pipeline.mem_restRefs_of main_arg10 (by decide) (by decide))).trans (W_main_arg10 m (dats m) c),
      ((h c).1 8).trans (((dats m 0 c).arrAt_in 8 rfl _).trans ((A_eq m c 8).trans (V_main_arg11 m c))),
      ((h c).2 main_arg12 (Pipeline.mem_restRefs_of main_arg12 (by decide) (by decide))).trans (W_main_arg12 m (dats m) c)⟩)
    (run_main m ρ)

end Cert.KernelIdeal.KVal

end
-- ==== Proof.LibGatherVec.lean ====
import Idealize.ShloMosaic.PureOps
import Idealize.ShloMosaic.Lib.ValueIdx
noncomputable section

namespace Cert.LibGatherVec
open Idealize.ShloMosaic Idealize.ShloMosaic.ValueIdx

/-! ## Gathering entries of a one-axis table

A table `x : [N]` is gathered by a column of index words `idx : [M, 1]`: the dimension numbers collapse the
table's only axis and let the one component of each start index address it; the result has no offset axis and
there are no batching axes. Result element `r` is then the table at `row`, where `row` is the `r`-th index
word read as a signed integer and clamped into `[0, N − 1]`.

The operand index of a gather is, on each operand axis, a clamped start plus a batching coordinate plus an offset
coordinate. For these dimension numbers the three summands on the table's axis are computed one by one below: the
start is the clamped index word and the other two vanish (the axis is collapsed, and no axis is a batching one). -/

section Vec
variable {α : Type}

/-- The dimension numbers of an entry gather, for a table `[N]`, start indices `[M, 1]` and a result `[M]`. -/
abbrev vecDims (N M : Nat)
    (wf : GatherDims.WF ⟨1, ![N]⟩ ⟨2, ![M, 1]⟩ ⟨1, ![M]⟩ [] [0] [] [0] [] 1 ![1]) :
    GatherDims ⟨1, ![N]⟩ ⟨2, ![M, 1]⟩ ⟨1, ![M]⟩ where
  offsetDims := []
  collapsedSliceDims := [0]
  operandBatchingDims := []
  startIndicesBatchingDims := []
  startIndexMap := [0]
  indexVectorDim := 1
  sliceSizes := ![1]
  wf := wf

variable {N M w : Nat}
  (wf : GatherDims.WF ⟨1, ![N]⟩ ⟨2, ![M, 1]⟩ ⟨1, ![M]⟩ [] [0] [] [0] [] 1 ![1])

/-- There are no batching axes, so the batching coordinate is zero on the table's axis. -/
theorem vec_batch (j : (⟨1, ![M]⟩ : Shape).Idx) (a : Fin 1) : (vecDims N M wf).batchCoord j a = 0 :=
  GatherDims.batchCoord_eq_zero _ _ _ List.not_mem_nil

/-- The table's axis is collapsed: it is not among the kept axes, so its offset coordinate is zero. -/
theorem vec_off0 (j : (⟨1, ![M]⟩ : Shape).Idx) : (vecDims N M wf).offCoord j 0 = 0 :=
  GatherDims.offCoord_eq_zero _ _ _ fun h => ((GatherDims.mem_sKept _ _).1 h).1 (List.mem_singleton.2 rfl)

/-- The table's axis is component 0 of the start index. That component is read at the start-indices position
    `(j 0, 0)` — the result's only coordinate, and 0 on the index vector's axis —, signed, and clamped to
    `N − 1` (the table's extent less the slice size 1). -/
theorem vec_start0 (j : (⟨1, ![M]⟩ : Shape).Idx) (idx : IVec ⟨2, ![M, 1]⟩ w) :
    (vecDims N M wf).start j idx 0 = min (idx (ix2 (j 0) (0 : Fin 1))).toInt.toNat (N - 1) := by
  unfold GatherDims.start
  rw [dif_pos (List.mem_singleton.2 rfl)]
  have hsi : (vecDims N M wf).siIdx j ⟨List.idxOf (0 : Fin 1) (vecDims N M wf).startIndexMap,
      List.idxOf_lt_length_iff.2 (List.mem_singleton.2 rfl)⟩ = ix2 (j 0) (0 : Fin 1) := by
    funext b
    refine Fin.ext ?_
    match b with
    | ⟨0, _⟩ => rfl
    | ⟨1, _⟩ => rfl
  rw [hsi]
  rfl

/-- The entry gather with its dimension numbers written out, read at `r`. -/
theorem vec_apply (hN : 0 < N) (x : (⟨1, ![N]⟩ : Shape).Idx → α) (idx : IVec ⟨2, ![M, 1]⟩ w) (r : Fin M) :
    Host.gather (vecDims N M wf) x idx (ix1 r)
      = x (ix1 (⟨min (idx (ix2 r (0 : Fin 1))).toInt.toNat (N - 1), by omega⟩ : Fin N)) := by
  unfold Host.gather
  refine congrArg x (funext fun a => Fin.ext ?_)
  match a with
  | ⟨0, _⟩ =>
    show (vecDims N M wf).start (ix1 r) idx 0 + (vecDims N M wf).batchCoord (ix1 r) 0
      + (vecDims N M wf).offCoord (ix1 r) 0 = _
    rw [vec_start0, vec_batch, vec_off0]
    rfl

end Vec

/-- A gather that takes single entries of a one-axis table of `N` entries, one entry per index word (dimension
    numbers: no offset axis, collapsed axis 0, start index map `[0]`, index vector axis 1, slice sizes `[1]`, no
    batching axes), reads at `r` the table at `row`, where `row` is the `r`-th index word read as a signed integer
    and clamped into `[0, N − 1]`. The dimension numbers are given by equations on the record's fields; once the
    fields are replaced by these literals the record is the one of `vec_apply`. -/
theorem gather_vec_apply {N M w : Nat} {α : Type} (d : GatherDims ⟨1, ![N]⟩ ⟨2, ![M, 1]⟩ ⟨1, ![M]⟩)
    (h1 : d.offsetDims = []) (h2 : d.collapsedSliceDims = [0]) (h3 : d.operandBatchingDims = []) (h4 : d.startIndicesBatchingDims = [])
    (h5 : d.startIndexMap = [0]) (h6 : d.indexVectorDim = 1) (h7 : d.sliceSizes = ![1]) (hN : 0 < N)
    (x : (⟨1, ![N]⟩ : Shape).Idx → α) (idx : IVec ⟨2, ![M, 1]⟩ w) (r : Fin M) :
    Host.gather d x idx (ix1 r)
      = x (ix1 (⟨min (idx (ix2 r (0 : Fin 1))).toInt.toNat (N - 1), by omega⟩ : Fin N)) := by
  obtain ⟨od, cd, ob, sb, sm, iv, ss, wf⟩ := d
  simp only at h1 h2 h3 h4 h5 h6 h7
  subst h1 h2 h3 h4 h5 h6 h7
  exact vec_apply wf hN x idx r

/-- When the `r`-th index word, read signed, already lies in `[0, N)`, the clamp does nothing: the entry is the
    word itself. -/
theorem gather_vec_apply_of_inRange {N M w : Nat} {α : Type} (d : GatherDims ⟨1, ![N]⟩ ⟨2, ![M, 1]⟩ ⟨1, ![M]⟩)
    (h1 : d.offsetDims = []) (h2 : d.collapsedSliceDims = [0]) (h3 : d.operandBatchingDims = []) (h4 : d.startIndicesBatchingDims = [])
    (h5 : d.startIndexMap = [0]) (h6 : d.indexVectorDim = 1) (h7 : d.sliceSizes = ![1])
    (x : (⟨1, ![N]⟩ : Shape).Idx → α) (idx : IVec ⟨2, ![M, 1]⟩ w) (r : Fin M)
    (h0 : 0 ≤ (idx (ix2 r (0 : Fin 1))).toInt) (hlt : (idx (ix2 r (0 : Fin 1))).toInt < N) :
    Host.gather d x idx (ix1 r)
      = x (ix1 (⟨(idx (ix2 r (0 : Fin 1))).toInt.toNat, by omega⟩ : Fin N)) := by
  have hN : 0 < N := by omega
  rw [gather_vec_apply d h1 h2 h3 h4 h5 h6 h7 hN x idx r]
  have hm : min (idx (ix2 r (0 : Fin 1))).toInt.toNat (N - 1) = (idx (ix2 r (0 : Fin 1))).toInt.toNat :=
    Nat.min_eq_left (by omega)
  exact congrArg x (congrArg (fun a => ix1 a) (Fin.ext hm))
end Cert.LibGatherVec
end
-- ==== Proof.RefMisc.lean ====
/-
  The reference's stages that depend on integer words: the displacement of an edge through the two row gathers of the
  position table; the cotangent of an edge's energy, which is 1 when the edge's graph id is one of the eight graphs
  (the gather of an all-ones array is 1 everywhere; the range mask is what can make it 0); and the wrapped node
  indices, which are the indices themselves when none is negative.
-/
import proofs.«419757_j17763984736960_3_alg».proof.Proof.RefReadP
import proofs.«419757_j17763984736960_3_alg».proof.Proof.ArrSpec
import proofs.«419757_j17763984736960_3_alg».proof.Proof.LibGatherRows
import proofs.«419757_j17763984736960_3_alg».proof.Proof.LibGatherVec
import Idealize.ShloMosaic.Lib.StableHlo.Predicate
import Idealize.ShloMosaic.Lib.ReduceAll

noncomputable section

namespace Cert.ReferenceIdeal.RefMisc

open Idealize.ShloMosaic Idealize.ShloMosaic.ValueIdx Idealize.SL.Sem Idealize.ShloMosaic.StableHlo
open Cert.ReferenceIdeal Cert.ReferenceIdeal.Gen Cert.ReferenceIdeal.ReadP Cert.EdgeMlp

/-! ## Words -/

/-- A word that reads non-negative is not below zero. -/
theorem slt_zero_of_nonneg {w : BitVec 32} (h : 0 ≤ w.toInt) : IntOp.cmpi .slt w 0#32 = 0#1 := by
  have hz : (0#32 : BitVec 32).toInt = 0 := by decide
  have hb : w.slt 0#32 = false := by
    unfold BitVec.slt
    rw [hz]
    exact decide_eq_false (by omega)
  show BitVec.ofBool (w.slt 0#32) = 0#1
  rw [hb]
  rfl

/-- A word that reads non-negative is at least zero. -/
theorem sge_zero_of_nonneg {w : BitVec 32} (h : 0 ≤ w.toInt) : IntOp.cmpi .sge w 0#32 = 1#1 := by
  have hz : (0#32 : BitVec 32).toInt = 0 := by decide
  have hb : (0#32 : BitVec 32).sle w = true := by
    unfold BitVec.sle
    rw [hz]
    exact decide_eq_true h
  show BitVec.ofBool ((0#32 : BitVec 32).sle w) = 1#1
  rw [hb]
  rfl

/-- A word that reads below eight is at most seven. -/
theorem sle_seven_of_lt {w : BitVec 32} (h : w.toInt < 8) : IntOp.cmpi .sle w 7#32 = 1#1 := by
  have hz : (7#32 : BitVec 32).toInt = 7 := by decide
  have hb : w.sle 7#32 = true := by
    unfold BitVec.sle
    rw [hz]
    exact decide_eq_true (by omega)
  show BitVec.ofBool (w.sle 7#32) = 1#1
  rw [hb]
  rfl

/-- A left fold by and over one-bit words, started at 1 and meeting only 1s, is 1. -/
theorem foldl_andi_one {ι : Type} (f : ι → BitVec 1) :
    ∀ (l : List ι), (∀ n ∈ l, f n = 1#1) → l.foldl (fun r n => IntOp.andi r (f n)) 1#1 = 1#1
  | [], _ => rfl
  | a :: l, h => by
    rw [List.foldl_cons, h a (List.mem_cons_self ..)]
    exact foldl_andi_one f l (fun n hn => h n (List.mem_cons_of_mem _ hn))

/-- The reduction by and of a column array over its axis of size one, from the constant 1, is 1 at a row whose one
    element is 1. -/
theorem reduce_and_col (x : IVec ⟨2, ![786432, 1]⟩ 1) (init : (⟨0, ![]⟩ : Shape).Idx → BitVec 1)
    (h : (⟨2, ![786432, 1]⟩ : Shape).ReducesTo [1] ⟨1, ![786432]⟩) (hu : 0 < (⟨0, ![]⟩ : Shape).numel)
    (e : Fin 786432) (hinit : init (Shape.Idx.first hu) = 1#1) (hx : x (ix2 e (0 : Fin 1)) = 1#1) :
    Host.reduce IntOp.andi x init h hu (ix1 e) = 1#1 := by
  rw [Host.reduce_eq_foldl, hinit]
  refine foldl_andi_one x _ (fun i hi => ?_)
  have hd : h.drop i = ix1 e := of_decide_eq_true (List.mem_filter.1 hi).2
  have hv : (i 0).val = e.val := by
    have h1 := Shape.ReducesTo.drop_apply_val_of_eq h i (0 : Fin 1) (0 : Fin 2)
    rw [hd] at h1
    exact h1.symm
  have hi2 : i = ix2 e (0 : Fin 1) := by
    funext a
    refine Fin.ext ?_
    match a with
    | ⟨0, _⟩ => exact hv
    | ⟨1, _⟩ =>
      have := idx2_lt1 i
      show (i 1).val = 0
      omega
  rw [hi2]
  exact hx

/-! ## The index of a column array's row -/

/-- Row e of a column array is read from entry e of the array it was broadcast from. -/
theorem idx5_col (e : Fin 786432) : idx_main_v5 (ix2 e (0 : Fin 1)) = ix1 e :=
  funext fun a => Fin.ext (by match a with | ⟨0, _⟩ => rfl)
theorem idx13_col (e : Fin 786432) : idx_main_v13 (ix2 e (0 : Fin 1)) = ix1 e :=
  funext fun a => Fin.ext (by match a with | ⟨0, _⟩ => rfl)
theorem idx49_col (e : Fin 786432) : idx_main_v49 (ix2 e (0 : Fin 1)) = ix1 e :=
  funext fun a => Fin.ext (by match a with | ⟨0, _⟩ => rfl)

variable (x0 : (⟨S49152x3, .f32⟩ : BufTy).Contents (Elt Ideal)) (x1 : (⟨S786432x3, .f32⟩ : BufTy).Contents (Elt Ideal))
  (x2 x3 x4 : (⟨S786432, .i32⟩ : BufTy).Contents (Elt Ideal))
  (x6 : (⟨S32, .f32⟩ : BufTy).Contents (Elt Ideal)) (x7 : (⟨S32x64, .f32⟩ : BufTy).Contents (Elt Ideal))
  (x8 : (⟨S64, .f32⟩ : BufTy).Contents (Elt Ideal)) (x9 : (⟨S64x64, .f32⟩ : BufTy).Contents (Elt Ideal))
  (x10 : (⟨S64, .f32⟩ : BufTy).Contents (Elt Ideal)) (x11 : (⟨S64x1, .f32⟩ : BufTy).Contents (Elt Ideal))
  (x12 : (⟨S1, .f32⟩ : BufTy).Contents (Elt Ideal))

/-- The parameters and an edge's displacement, from the reference's argument arrays. -/
local notation "PP" => paramsOf x6 x7 x8 x9 x10 x11 x12
local notation "DD" => fun e => dispAt x0 x1 x2 x3 e

/-- The wrapped destination index of edge e is its index word, wrapped once when negative. -/
theorem wrap_dst (e : Fin 786432) :
    val_main_v5 (F := Ideal) x3 (ix2 e (0 : Fin 1)) = normWord (x3 (ix1 e)) := by
  rw [val_main_v5_apply, idx5_col, val_main_v4_apply, val_main_v1_apply, val_main_v3_apply, val_main_v0_apply,
    val_main_v2_apply, val_main_c_apply, val_main_c_0_apply]
  rfl

/-- The wrapped source index of edge e is its index word, wrapped once when negative. -/
theorem wrap_src (e : Fin 786432) :
    val_main_v13 (F := Ideal) x2 (ix2 e (0 : Fin 1)) = normWord (x2 (ix1 e)) := by
  rw [val_main_v13_apply, idx13_col, val_main_v12_apply, val_main_v9_apply, val_main_v11_apply, val_main_v8_apply,
    val_main_v10_apply, val_main_c_1_apply, val_main_c_2_apply]
  rfl

/-- The reference's displacement array at (e, a). -/
theorem disp_at (e : Fin 786432) (a : Fin 3) :
    val_main_v15 (F := Ideal) x0 x1 x2 x3 (ix2 e a) = dispAt x0 x1 x2 x3 e a := by
  rw [val_main_v15_apply, val_main_v7_apply]
  unfold val_main_v6 val_main_v14
  rw [Cert.LibGatherRows.gather_rows_apply _ rfl rfl rfl rfl rfl rfl rfl (by omega) x0 (val_main_v5 (F := Ideal) x3) e a,
    Cert.LibGatherRows.gather_rows_apply _ rfl rfl rfl rfl rfl rfl rfl (by omega) x0 (val_main_v13 (F := Ideal) x2) e a]
  simp only [wrap_dst, wrap_src]
  rfl

/-- The range mask of an edge whose graph id is in range is 1. -/
theorem mask_at (e : Fin 786432) (h0 : 0 ≤ (x4 (ix1 e)).toInt) (h8 : (x4 (ix1 e)).toInt < 8) :
    val_main_v59 (F := Ideal) x4 (ix1 e) = 1#1 := by
  unfold val_main_v59
  refine reduce_and_col _ _ _ _ e rfl ?_
  rw [val_main_v58_apply, val_main_v54_apply, val_main_v57_apply, val_main_v49_apply, idx49_col, val_main_v53_apply,
    val_main_c_10_apply, val_main_v56_apply, val_main_v55_apply, val_main_c_9_apply, sge_zero_of_nonneg h0,
    sle_seven_of_lt h8]
  rfl

/-- An edge whose graph id is in range has cotangent 1. -/
theorem ct_at (e : Fin 786432) (h0 : 0 ≤ (x4 (ix1 e)).toInt) (h8 : (x4 (ix1 e)).toInt < 8) :
    val_main_v62 (F := Ideal) x4 (ix1 e) = one32 := by
  rw [val_main_v62_apply, mask_at x4 e h0 h8, select_one]
  unfold val_main_v60
  rw [Cert.LibGatherVec.gather_vec_apply _ rfl rfl rfl rfl rfl rfl rfl (by omega) (val_main_v52 (F := Ideal))
    (val_main_v49 (F := Ideal) x4) e, val_main_v52_apply, val_main_cst_8_apply]
  rfl

/-- With no negative destination index, the wrapped destination indices are the indices. -/
theorem idx_dst (h : ∀ e : Fin 786432, 0 ≤ (x3 (ix1 e)).toInt) :
    val_main_v5 (F := Ideal) x3 = broadcastInDim S786432x1 ![0] bcast_S786432_S786432x1_0 x3 := by
  have h4 : val_main_v4 (F := Ideal) x3 = x3 := by
    funext i
    obtain ⟨e, rfl⟩ : ∃ e : Fin 786432, i = ix1 e := ⟨i 0, eq_ix1 i⟩
    rw [val_main_v4_apply, val_main_v1_apply, val_main_v0_apply, val_main_c_apply, slt_zero_of_nonneg (h e),
      select_zero]
  unfold val_main_v5
  rw [h4]

/-- With no negative source index, the wrapped source indices are the indices. -/
theorem idx_src (h : ∀ e : Fin 786432, 0 ≤ (x2 (ix1 e)).toInt) :
    val_main_v13 (F := Ideal) x2 = broadcastInDim S786432x1 ![0] bcast_S786432_S786432x1_0 x2 := by
  have h12 : val_main_v12 (F := Ideal) x2 = x2 := by
    funext i
    obtain ⟨e, rfl⟩ : ∃ e : Fin 786432, i = ix1 e := ⟨i 0, eq_ix1 i⟩
    rw [val_main_v12_apply, val_main_v9_apply, val_main_v8_apply, val_main_c_1_apply, slt_zero_of_nonneg (h e),
      select_zero]
  unfold val_main_v13
  rw [h12]

end Cert.ReferenceIdeal.RefMisc

end
-- ==== Proof.RefFwd.lean ====
/-
  The reference's forward stages read at one edge e: its length, the radial features, the two layers with their
  logistic values and the derivatives the reverse pass keeps, and the energy, each the corresponding quantity of
  the edge's displacement.
-/
import proofs.«419757_j17763984736960_3_alg».proof.Proof.RefReadP
import proofs.«419757_j17763984736960_3_alg».proof.Proof.ArrSpec
import proofs.«419757_j17763984736960_3_alg».proof.Proof.RefMisc

noncomputable section

namespace Cert.ReferenceIdeal.RefFwd

open Idealize.ShloMosaic Idealize.ShloMosaic.ValueIdx Idealize.SL.Sem Idealize.ShloMosaic.StableHlo
open Cert.ReferenceIdeal Cert.ReferenceIdeal.Gen Cert.ReferenceIdeal.ReadP Cert.EdgeMlp

variable (x0 : (⟨S49152x3, .f32⟩ : BufTy).Contents (Elt Ideal)) (x1 : (⟨S786432x3, .f32⟩ : BufTy).Contents (Elt Ideal))
  (x2 x3 x4 : (⟨S786432, .i32⟩ : BufTy).Contents (Elt Ideal))
  (x6 : (⟨S32, .f32⟩ : BufTy).Contents (Elt Ideal)) (x7 : (⟨S32x64, .f32⟩ : BufTy).Contents (Elt Ideal))
  (x8 : (⟨S64, .f32⟩ : BufTy).Contents (Elt Ideal)) (x9 : (⟨S64x64, .f32⟩ : BufTy).Contents (Elt Ideal))
  (x10 : (⟨S64, .f32⟩ : BufTy).Contents (Elt Ideal)) (x11 : (⟨S64x1, .f32⟩ : BufTy).Contents (Elt Ideal))
  (x12 : (⟨S1, .f32⟩ : BufTy).Contents (Elt Ideal))

/-- The parameters and an edge's displacement, from the reference's argument arrays. -/
local notation "PP" => paramsOf x6 x7 x8 x9 x10 x11 x12
local notation "DD" => fun e => dispAt x0 x1 x2 x3 e

variable (e : Fin 786432)

/-! ## The reference's composed index functions at an edge -/

theorem i17 (a : Fin 3) : idx_main_v17 (ix1 e) a = ix2 e a :=
  funext fun d => Fin.ext (by match d with | ⟨0, _⟩ => rfl | ⟨1, _⟩ => rfl)
theorem i23 (k : Fin 32) : idx_main_v23 (idx_main_v25 (ix2 e k)) = ix1 e :=
  funext fun d => Fin.ext (by match d with | ⟨0, _⟩ => rfl)
theorem i24 (k : Fin 32) : idx_main_v24 (idx_main_v26 (ix2 e k)) = ix1 k :=
  funext fun d => Fin.ext (by match d with | ⟨0, _⟩ => rfl)
theorem l33 (h : Fin 64) (k : Fin 32) : lidx_main_v33 (ix2 e h) k = ix2 e k :=
  funext fun d => Fin.ext (by match d with | ⟨0, _⟩ => rfl | ⟨1, _⟩ => rfl)
theorem r33 (h : Fin 64) (k : Fin 32) : ridx_main_v33 (ix2 e h) k = ix2 k h :=
  funext fun d => Fin.ext (by match d with | ⟨0, _⟩ => rfl | ⟨1, _⟩ => rfl)
theorem i34 (h : Fin 64) : idx_main_v34 (idx_main_v35 (ix2 e h)) = ix1 h :=
  funext fun d => Fin.ext (by match d with | ⟨0, _⟩ => rfl)
theorem l38 (h k : Fin 64) : lidx_main_v38 (ix2 e h) k = ix2 e k :=
  funext fun d => Fin.ext (by match d with | ⟨0, _⟩ => rfl | ⟨1, _⟩ => rfl)
theorem r38 (h k : Fin 64) : ridx_main_v38 (ix2 e h) k = ix2 k h :=
  funext fun d => Fin.ext (by match d with | ⟨0, _⟩ => rfl | ⟨1, _⟩ => rfl)
theorem i39 (h : Fin 64) : idx_main_v39 (idx_main_v40 (ix2 e h)) = ix1 h :=
  funext fun d => Fin.ext (by match d with | ⟨0, _⟩ => rfl)
theorem i47 : idx_main_v47 (ix1 e) = ix2 e (0 : Fin 1) :=
  funext fun d => Fin.ext (by match d with | ⟨0, _⟩ => exact Nat.div_one _ | ⟨1, _⟩ => rfl)
theorem l43 (k : Fin 64) : lidx_main_v43 (ix2 e (0 : Fin 1)) k = ix2 e k :=
  funext fun d => Fin.ext (by match d with | ⟨0, _⟩ => rfl | ⟨1, _⟩ => rfl)
theorem r43 (k : Fin 64) : ridx_main_v43 (ix2 e (0 : Fin 1)) k = ix2 k (0 : Fin 1) :=
  funext fun d => Fin.ext (by match d with | ⟨0, _⟩ => rfl | ⟨1, _⟩ => rfl)
theorem i44 : idx_main_v44 (idx_main_v45 (ix2 e (0 : Fin 1))) = ix1 (0 : Fin 1) :=
  funext fun d => Fin.ext (by match d with | ⟨0, _⟩ => rfl)

/-! ## The length and the radial features -/

theorem len_at : val_main_v20 (F := Ideal) x0 x1 x2 x3 (ix1 e) = rLen (dispAt x0 x1 x2 x3 e) := by
  rw [val_main_v20_apply, val_main_v19_apply, val_main_v17_apply, val_main_v18_apply, val_main_cst_3_apply,
    val_main_cst_apply]
  simp only [i17, val_main_v16_apply, RefMisc.disp_at]
  rfl
theorem half_at : val_main_v22 (F := Ideal) x0 x1 x2 x3 (ix1 e) = rHalf (dispAt x0 x1 x2 x3 e) := by
  rw [val_main_v22_apply, val_main_v21_apply, val_main_cst_4_apply, len_at]
  rfl
theorem diff_at (k : Fin 32) : val_main_v27 (F := Ideal) x0 x1 x2 x3 x6 (ix2 e k) = rDiff PP (dispAt x0 x1 x2 x3 e) k := by
  rw [val_main_v27_apply, val_main_v25_apply, val_main_v23_apply, i23, val_main_v26_apply, val_main_v24_apply, i24,
    len_at]
  rfl
theorem two_at (k : Fin 32) : val_main_v30 (F := Ideal) x0 x1 x2 x3 x6 (ix2 e k) = rTwo PP (dispAt x0 x1 x2 x3 e) k := by
  rw [val_main_v30_apply, val_main_v29_apply, val_main_cst_5_apply, diff_at x0 x1 x2 x3 x6 x7 x8 x9 x10 x11 x12 e]
  rfl
theorem rbf_at (k : Fin 32) : val_main_v32 (F := Ideal) x0 x1 x2 x3 x6 (ix2 e k) = rRbf PP (dispAt x0 x1 x2 x3 e) k := by
  rw [val_main_v32_apply, val_main_v31_apply, val_main_v28_apply, diff_at x0 x1 x2 x3 x6 x7 x8 x9 x10 x11 x12 e]
  rfl

/-! ## The first layer -/

theorem z1_at (h : Fin 64) : val_main_v36 (F := Ideal) x0 x1 x2 x3 x6 x7 x8 (ix2 e h) = rZ1 PP (dispAt x0 x1 x2 x3 e) h := by
  rw [val_main_v36_apply, val_main_v33_apply, val_main_v35_apply, val_main_v34_apply, i34]
  simp only [l33, r33, rbf_at x0 x1 x2 x3 x6 x7 x8 x9 x10 x11 x12 e]
  rfl
theorem s1_at (h : Fin 64) : val_main_v37_2 (F := Ideal) x0 x1 x2 x3 x6 x7 x8 (ix2 e h) = rS1 PP (dispAt x0 x1 x2 x3 e) h := by
  rw [val_main_v37_2_apply, val_main_call0_v4_apply, val_main_call0_cst_0_apply, val_main_call0_v3_apply,
    val_main_call0_v2_apply, val_main_call0_cst_apply, val_main_call0_v1_apply, val_main_call0_v0_apply, z1_at x0 x1 x2 x3 x6 x7 x8 x9 x10 x11 x12 e]
  rfl
theorem ds1_at (h : Fin 64) : val_main_v37_1 (F := Ideal) x0 x1 x2 x3 x6 x7 x8 (ix2 e h) = rDs1 PP (dispAt x0 x1 x2 x3 e) h := by
  rw [val_main_v37_1_apply, val_main_call0_v7_apply, val_main_call0_v6_apply, val_main_call0_cst_1_apply, s1_at x0 x1 x2 x3 x6 x7 x8 x9 x10 x11 x12 e]
  rfl
theorem h1_at (h : Fin 64) : val_main_v37_0 (F := Ideal) x0 x1 x2 x3 x6 x7 x8 (ix2 e h) = rH1 PP (dispAt x0 x1 x2 x3 e) h := by
  rw [val_main_v37_0_apply, z1_at x0 x1 x2 x3 x6 x7 x8 x9 x10 x11 x12 e, s1_at x0 x1 x2 x3 x6 x7 x8 x9 x10 x11 x12 e]
  rfl

/-! ## The second layer -/

theorem z2_at (h : Fin 64) : val_main_v41 (F := Ideal) x0 x1 x2 x3 x6 x7 x8 x9 x10 (ix2 e h) = rZ2 PP (dispAt x0 x1 x2 x3 e) h := by
  rw [val_main_v41_apply, val_main_v38_apply, val_main_v40_apply, val_main_v39_apply, i39]
  simp only [l38, r38, h1_at x0 x1 x2 x3 x6 x7 x8 x9 x10 x11 x12 e]
  rfl
theorem s2_at (h : Fin 64) : val_main_v42_2 (F := Ideal) x0 x1 x2 x3 x6 x7 x8 x9 x10 (ix2 e h) = rS2 PP (dispAt x0 x1 x2 x3 e) h := by
  rw [val_main_v42_2_apply, val_main_call1_v4_apply, val_main_call1_cst_0_apply, val_main_call1_v3_apply,
    val_main_call1_v2_apply, val_main_call1_cst_apply, val_main_call1_v1_apply, val_main_call1_v0_apply, z2_at x0 x1 x2 x3 x6 x7 x8 x9 x10 x11 x12 e]
  rfl
theorem ds2_at (h : Fin 64) : val_main_v42_1 (F := Ideal) x0 x1 x2 x3 x6 x7 x8 x9 x10 (ix2 e h) = rDs2 PP (dispAt x0 x1 x2 x3 e) h := by
  rw [val_main_v42_1_apply, val_main_call1_v7_apply, val_main_call1_v6_apply, val_main_call1_cst_1_apply, s2_at x0 x1 x2 x3 x6 x7 x8 x9 x10 x11 x12 e]
  rfl
theorem h2_at (h : Fin 64) : val_main_v42_0 (F := Ideal) x0 x1 x2 x3 x6 x7 x8 x9 x10 (ix2 e h) = rH2 PP (dispAt x0 x1 x2 x3 e) h := by
  rw [val_main_v42_0_apply, z2_at x0 x1 x2 x3 x6 x7 x8 x9 x10 x11 x12 e, s2_at x0 x1 x2 x3 x6 x7 x8 x9 x10 x11 x12 e]
  rfl

/-! ## The energy -/

/-- The reference's per-edge energy. -/
theorem energy_at : val_main_v47 (F := Ideal) x0 x1 x2 x3 x6 x7 x8 x9 x10 x11 x12 (ix1 e) = refE PP (dispAt x0 x1 x2 x3 e) := by
  rw [val_main_v47_apply, i47, val_main_v46_apply, val_main_v43_apply, val_main_v45_apply, val_main_v44_apply, i44]
  simp only [l43, r43, h2_at x0 x1 x2 x3 x6 x7 x8 x9 x10 x11 x12 e]
  rfl

end Cert.ReferenceIdeal.RefFwd

end
-- ==== Proof.RefBwd.lean ====
/-
  The reference's reverse pass read at one edge e: from the edge's cotangent back through the output layer, the two
  hidden layers, the radial features and the length to the cotangent of the displacement, which is the gradient of
  the edge's energy (times the cotangent).
-/
import proofs.«419757_j17763984736960_3_alg».proof.Proof.RefReadP
import proofs.«419757_j17763984736960_3_alg».proof.Proof.ArrSpec
import proofs.«419757_j17763984736960_3_alg».proof.Proof.RefMisc
import proofs.«419757_j17763984736960_3_alg».proof.Proof.RefFwd

noncomputable section

namespace Cert.ReferenceIdeal.RefBwd

open Idealize.ShloMosaic Idealize.ShloMosaic.ValueIdx Idealize.SL.Sem Idealize.ShloMosaic.StableHlo
open Cert.ReferenceIdeal Cert.ReferenceIdeal.Gen Cert.ReferenceIdeal.ReadP Cert.EdgeMlp
open Cert.ReferenceIdeal.RefFwd Cert.ReferenceIdeal.RefMisc

variable (x0 : (⟨S49152x3, .f32⟩ : BufTy).Contents (Elt Ideal)) (x1 : (⟨S786432x3, .f32⟩ : BufTy).Contents (Elt Ideal))
  (x2 x3 x4 : (⟨S786432, .i32⟩ : BufTy).Contents (Elt Ideal))
  (x6 : (⟨S32, .f32⟩ : BufTy).Contents (Elt Ideal)) (x7 : (⟨S32x64, .f32⟩ : BufTy).Contents (Elt Ideal))
  (x8 : (⟨S64, .f32⟩ : BufTy).Contents (Elt Ideal)) (x9 : (⟨S64x64, .f32⟩ : BufTy).Contents (Elt Ideal))
  (x10 : (⟨S64, .f32⟩ : BufTy).Contents (Elt Ideal)) (x11 : (⟨S64x1, .f32⟩ : BufTy).Contents (Elt Ideal))
  (x12 : (⟨S1, .f32⟩ : BufTy).Contents (Elt Ideal))

/-- The parameters and an edge's displacement, from the reference's argument arrays. -/
local notation "PP" => paramsOf x6 x7 x8 x9 x10 x11 x12
local notation "DD" => fun e => dispAt x0 x1 x2 x3 e

variable (e : Fin 786432)

/-! ## Where the contractions and the sums read their operands -/

/-- The output layer's contraction reads the cotangent of edge e. -/
theorem ct_idx (h : Fin 64) (k : Fin 1) : idx_main_v63 (lidx_main_v64 (ix2 e h) k) = ix1 e :=
  funext fun a => Fin.ext (by match a with | ⟨0, _⟩ => rfl)

/-- The output layer's contraction reads the weight of unit h; its contracted axis has one position. -/
theorem w3_idx (h : Fin 64) (k : Fin 1) : ridx_main_v64 (ix2 e h) k = ix2 h (0 : Fin 1) :=
  funext fun a => Fin.ext (by
    match a with
    | ⟨0, _⟩ => rfl
    | ⟨1, _⟩ => show k.val = 0; omega)

theorem z2_idx (j k : Fin 64) : lidx_main_v66 (ix2 e j) k = ix2 e k :=
  funext fun a => Fin.ext (by match a with | ⟨0, _⟩ => rfl | ⟨1, _⟩ => rfl)

theorem w2_idx (j k : Fin 64) : ridx_main_v66 (ix2 e j) k = ix2 j k :=
  funext fun a => Fin.ext (by match a with | ⟨0, _⟩ => rfl | ⟨1, _⟩ => rfl)

theorem z1_idx (k : Fin 32) (h : Fin 64) : lidx_main_v68 (ix2 e k) h = ix2 e h :=
  funext fun a => Fin.ext (by match a with | ⟨0, _⟩ => rfl | ⟨1, _⟩ => rfl)

theorem w1_idx (k : Fin 32) (h : Fin 64) : ridx_main_v68 (ix2 e k) h = ix2 k h :=
  funext fun a => Fin.ext (by match a with | ⟨0, _⟩ => rfl | ⟨1, _⟩ => rfl)

theorem term_idx (k : Fin 32) : idx_main_v72 (ix1 e) k = ix2 e k :=
  funext fun a => Fin.ext (by match a with | ⟨0, _⟩ => rfl | ⟨1, _⟩ => rfl)

/-- The sum over the axis of size one reads the sum over the radial features of edge e. -/
theorem sum_idx (j : Fin 1) : idx_main_v73 (idx_main_v74 (ix1 e) j) = ix1 e :=
  funext fun a => Fin.ext (by
    match a with
    | ⟨0, _⟩ => show e.val * 1 + j.val = e.val; omega)

theorem x_idx (a : Fin 3) : idx_main_v76 (ix2 e a) = ix1 e :=
  funext fun b => Fin.ext (by match b with | ⟨0, _⟩ => rfl)

/-! ## The reverse pass, stage by stage -/

/-- The cotangent of the second hidden layer's output. -/
theorem ctH2_at (h : Fin 64) :
    val_main_v64 (F := Ideal) x4 x11 (ix2 e h) = rCtH2 PP (val_main_v62 (F := Ideal) x4 (ix1 e)) h := by
  rw [val_main_v64_apply]
  unfold rCtH2
  refine Finset.sum_congr rfl fun k _ => ?_
  rw [val_main_v63_apply, ct_idx e h k, w3_idx e h k]
  rfl

/-- The cotangent of the second hidden layer's input. -/
theorem ctZ2_at (h : Fin 64) :
    val_main_v65 (F := Ideal) x0 x1 x2 x3 x4 x6 x7 x8 x9 x10 x11 (ix2 e h) = rCtZ2 PP (dispAt x0 x1 x2 x3 e) (val_main_v62 (F := Ideal) x4 (ix1 e)) h := by
  rw [val_main_v65_apply, val_main_call2_v1_apply, val_main_call2_v2_apply, val_main_call2_v0_apply,
    ctH2_at x4 x6 x7 x8 x9 x10 x11 x12 e h, z2_at x0 x1 x2 x3 x6 x7 x8 x9 x10 x11 x12 e h, s2_at x0 x1 x2 x3 x6 x7 x8 x9 x10 x11 x12 e h, ds2_at x0 x1 x2 x3 x6 x7 x8 x9 x10 x11 x12 e h]
  rfl

/-- The cotangent of the first hidden layer's output. -/
theorem ctH1_at (j : Fin 64) :
    val_main_v66 (F := Ideal) x0 x1 x2 x3 x4 x6 x7 x8 x9 x10 x11 (ix2 e j) = rCtH1 PP (dispAt x0 x1 x2 x3 e) (val_main_v62 (F := Ideal) x4 (ix1 e)) j := by
  rw [val_main_v66_apply]
  unfold rCtH1
  refine Finset.sum_congr rfl fun h _ => ?_
  rw [z2_idx e j h, w2_idx e j h, ctZ2_at x0 x1 x2 x3 x4 x6 x7 x8 x9 x10 x11 x12 e h]
  rfl

/-- The cotangent of the first hidden layer's input. -/
theorem ctZ1_at (j : Fin 64) :
    val_main_v67 (F := Ideal) x0 x1 x2 x3 x4 x6 x7 x8 x9 x10 x11 (ix2 e j) = rCtZ1 PP (dispAt x0 x1 x2 x3 e) (val_main_v62 (F := Ideal) x4 (ix1 e)) j := by
  rw [val_main_v67_apply, val_main_call3_v1_apply, val_main_call3_v2_apply, val_main_call3_v0_apply,
    ctH1_at x0 x1 x2 x3 x4 x6 x7 x8 x9 x10 x11 x12 e j, z1_at x0 x1 x2 x3 x6 x7 x8 x9 x10 x11 x12 e j, s1_at x0 x1 x2 x3 x6 x7 x8 x9 x10 x11 x12 e j, ds1_at x0 x1 x2 x3 x6 x7 x8 x9 x10 x11 x12 e j]
  rfl

/-- The cotangent of the radial features. -/
theorem ctRbf_at (k : Fin 32) :
    val_main_v68 (F := Ideal) x0 x1 x2 x3 x4 x6 x7 x8 x9 x10 x11 (ix2 e k) = rCtRbf PP (dispAt x0 x1 x2 x3 e) (val_main_v62 (F := Ideal) x4 (ix1 e)) k := by
  rw [val_main_v68_apply]
  unfold rCtRbf
  refine Finset.sum_congr rfl fun h _ => ?_
  rw [z1_idx e k h, w1_idx e k h, ctZ1_at x0 x1 x2 x3 x4 x6 x7 x8 x9 x10 x11 x12 e h]
  rfl

/-- One radial feature's share of the cotangent of the length. -/
theorem term_at (k : Fin 32) :
    val_main_v71 (F := Ideal) x0 x1 x2 x3 x4 x6 x7 x8 x9 x10 x11 (ix2 e k) = rTerm PP (dispAt x0 x1 x2 x3 e) (val_main_v62 (F := Ideal) x4 (ix1 e)) k := by
  rw [val_main_v71_apply, val_main_v70_apply, val_main_v69_apply, ctRbf_at x0 x1 x2 x3 x4 x6 x7 x8 x9 x10 x11 x12 e k, rbf_at x0 x1 x2 x3 x6 x7 x8 x9 x10 x11 x12 e k,
    two_at x0 x1 x2 x3 x6 x7 x8 x9 x10 x11 x12 e k]
  rfl

/-- The cotangent of the length: the shares summed, then summed once more over an axis of size one. -/
theorem sum_at :
    val_main_v74 (F := Ideal) x0 x1 x2 x3 x4 x6 x7 x8 x9 x10 x11 (ix1 e) = rSum PP (dispAt x0 x1 x2 x3 e) (val_main_v62 (F := Ideal) x4 (ix1 e)) := by
  have hz14 : ∀ i, val_main_cst_14 (F := Ideal) i = zero32 := fun _ => rfl
  have hz13 : ∀ i, val_main_cst_13 (F := Ideal) i = zero32 := fun _ => rfl
  rw [val_main_v74_apply, hz14]
  unfold rSum
  refine congrArg (zero32 + ·) (Finset.sum_congr rfl fun j _ => ?_)
  rw [val_main_v73_apply, sum_idx e j, val_main_v72_apply, hz13]
  refine congrArg (zero32 + ·) (Finset.sum_congr rfl fun k _ => ?_)
  rw [term_idx e k]
  exact term_at x0 x1 x2 x3 x4 x6 x7 x8 x9 x10 x11 x12 e k

/-- The factor every coordinate of the displacement is multiplied by. -/
theorem x_at :
    val_main_v75 (F := Ideal) x0 x1 x2 x3 x4 x6 x7 x8 x9 x10 x11 (ix1 e) = rX PP (dispAt x0 x1 x2 x3 e) (val_main_v62 (F := Ideal) x4 (ix1 e)) := by
  rw [val_main_v75_apply, sum_at x0 x1 x2 x3 x4 x6 x7 x8 x9 x10 x11 x12 e, half_at x0 x1 x2 x3 e]
  rfl

/-- The reference's cotangent of the displacement at (e, a), at whatever cotangent the edge's energy has. -/
theorem grad_at (a : Fin 3) :
    val_main_v79 (F := Ideal) x0 x1 x2 x3 x4 x6 x7 x8 x9 x10 x11 (ix2 e a)
      = refG PP (dispAt x0 x1 x2 x3 e) (val_main_v62 (F := Ideal) x4 (ix1 e)) a := by
  rw [val_main_v79_apply, val_main_v77_apply, val_main_v78_apply, val_main_v76_apply, x_idx e a,
    x_at x0 x1 x2 x3 x4 x6 x7 x8 x9 x10 x11 x12 e, disp_at x0 x1 x2 x3 e a]
  rfl

end Cert.ReferenceIdeal.RefBwd

end
-- ==== Proof.Algebra.lean ====
/-
  On real data the kernel's hand-written chain rule and the reference's reverse-mode derivative are one function.
  Every intermediate is then a real number (the length is positive because the shift is, and 1 + exp(-z) is
  positive), so the extended-real operations are the real ones and the two gradients differ only by
  distributing products over sums, reordering factors, and 2 * (1/2) = 1.
-/
import proofs.«419757_j17763984736960_3_alg».proof.Proof.Spec
import proofs.«419757_j17763984736960_3_alg».proof.Proof.Consts

noncomputable section

namespace Cert.EdgeMlp

open Idealize.ShloMosaic

namespace Alg

/-! ## Tools -/

/-- The coercion from the reals commutes with finite sums. -/
theorem coe_sum {ι : Type} (s : Finset ι) (f : ι → ℝ) :
    ((∑ i ∈ s, f i : ℝ) : EReal) = ∑ i ∈ s, (f i : EReal) := by
  classical
  refine Finset.induction_on s (by simp) ?_
  intro a s ha ih
  rw [Finset.sum_insert ha, Finset.sum_insert ha, EReal.coe_add, ih]

theorem zero32_eq : zero32 = ((0 : ℝ) : EReal) := by rw [EReal.coe_zero]; exact Consts.ofBits_zero
theorem one32_eq : one32 = ((1 : ℝ) : EReal) := Consts.ofBits_one
theorem two32_eq : two32 = ((2 : ℝ) : EReal) := Consts.ofBits_two
theorem negtwo32_eq : negtwo32 = ((-2 : ℝ) : EReal) := Consts.ofBits_neg_two
theorem half32_eq : half32 = ((1 / 2 : ℝ) : EReal) := Consts.ofBits_half
theorem eps32_eq : eps32 = ((Consts.epsR : ℝ) : EReal) := Consts.ofBits_eps

/-- Equal reals are equal extended reals. -/
theorem coe_congr {x y : ℝ} (h : x = y) : (x : EReal) = (y : EReal) := by rw [h]

/-! ## Real parameters and a real displacement -/

/-- The parameters as real numbers. -/
structure RParams where
  c : Fin 32 → ℝ
  W1 : Fin 32 → Fin 64 → ℝ
  b1 : Fin 64 → ℝ
  W2 : Fin 64 → Fin 64 → ℝ
  b2 : Fin 64 → ℝ
  W3 : Fin 64 → ℝ
  b3 : ℝ

/-- Real parameters seen in the extended reals. -/
def RParams.toE (Q : RParams) : Params where
  c := fun k => (Q.c k : EReal)
  W1 := fun k h => (Q.W1 k h : EReal)
  b1 := fun h => (Q.b1 h : EReal)
  W2 := fun j h => (Q.W2 j h : EReal)
  b2 := fun h => (Q.b2 h : EReal)
  W3 := fun h => (Q.W3 h : EReal)
  b3 := (Q.b3 : EReal)

/-- A real displacement seen in the extended reals. -/
def dE (d : Fin 3 → ℝ) : Fin 3 → EReal := fun a => (d a : EReal)

theorem toE_c (Q : RParams) (k : Fin 32) : Q.toE.c k = (Q.c k : EReal) := rfl
theorem toE_W1 (Q : RParams) (k : Fin 32) (h : Fin 64) : Q.toE.W1 k h = (Q.W1 k h : EReal) := rfl
theorem toE_b1 (Q : RParams) (h : Fin 64) : Q.toE.b1 h = (Q.b1 h : EReal) := rfl
theorem toE_W2 (Q : RParams) (j h : Fin 64) : Q.toE.W2 j h = (Q.W2 j h : EReal) := rfl
theorem toE_b2 (Q : RParams) (h : Fin 64) : Q.toE.b2 h = (Q.b2 h : EReal) := rfl
theorem toE_W3 (Q : RParams) (h : Fin 64) : Q.toE.W3 h = (Q.W3 h : EReal) := rfl
theorem toE_b3 (Q : RParams) : Q.toE.b3 = (Q.b3 : EReal) := rfl
theorem dE_apply (d : Fin 3 → ℝ) (a : Fin 3) : dE d a = (d a : EReal) := rfl

/-- Real parameters come from a real structure. -/
theorem exists_rparams (P : Params) (hP : P.IsReal) : ∃ Q : RParams, P = Q.toE := by
  obtain ⟨hc, hW1, hb1, hW2, hb2, hW3, hb3⟩ := hP
  choose c hc using hc
  choose W1 hW1 using hW1
  choose b1 hb1 using hb1
  choose W2 hW2 using hW2
  choose b2 hb2 using hb2
  choose W3 hW3 using hW3
  obtain ⟨b3, hb3⟩ := hb3
  refine ⟨⟨c, W1, b1, W2, b2, W3, b3⟩, ?_⟩
  cases P with
  | mk pc pW1 pb1 pW2 pb2 pW3 pb3 =>
    obtain rfl : pc = fun k => (c k : EReal) := funext hc
    obtain rfl : pW1 = fun k h => (W1 k h : EReal) := funext fun k => funext fun h => hW1 k h
    obtain rfl : pb1 = fun h => (b1 h : EReal) := funext hb1
    obtain rfl : pW2 = fun j h => (W2 j h : EReal) := funext fun j => funext fun h => hW2 j h
    obtain rfl : pb2 = fun h => (b2 h : EReal) := funext hb2
    obtain rfl : pW3 = fun h => (W3 h : EReal) := funext hW3
    obtain rfl : pb3 = (b3 : EReal) := hb3
    rfl

/-- A real displacement comes from a real vector. -/
theorem exists_rdisp (D : Fin 3 → EReal) (hD : ∀ a, ∃ r : ℝ, D a = (r : EReal)) : ∃ d : Fin 3 → ℝ, D = dE d := by
  choose d hd using hD
  exact ⟨d, funext hd⟩

/-! ## The real functions -/

section Mirror

variable (Q : RParams) (d : Fin 3 → ℝ)

def qLen : ℝ := Real.sqrt ((∑ a : Fin 3, d a * d a) + Consts.epsR)
def qDiff (k : Fin 32) : ℝ := qLen d - Q.c k
def qRbf (k : Fin 32) : ℝ := Real.exp (-(qDiff Q d k * qDiff Q d k))
def qZ1 (h : Fin 64) : ℝ := (∑ k : Fin 32, Q.W1 k h * qRbf Q d k) + Q.b1 h
/-- The logistic function on the reals. -/
def sig (z : ℝ) : ℝ := (1 + Real.exp (-z))⁻¹
def qS1 (h : Fin 64) : ℝ := sig (qZ1 Q d h)
def qH1 (h : Fin 64) : ℝ := qZ1 Q d h * qS1 Q d h
def qZ2 (h : Fin 64) : ℝ := (∑ j : Fin 64, Q.W2 j h * qH1 Q d j) + Q.b2 h
def qS2 (h : Fin 64) : ℝ := sig (qZ2 Q d h)
def qH2 (h : Fin 64) : ℝ := qZ2 Q d h * qS2 Q d h
def qE : ℝ := (∑ h : Fin 64, qH2 Q d h * Q.W3 h) + Q.b3
def qDz2 (h : Fin 64) : ℝ := Q.W3 h * (qS2 Q d h + qZ2 Q d h * (qS2 Q d h * (1 - qS2 Q d h)))
def qDh1 (j : Fin 64) : ℝ := ∑ h : Fin 64, Q.W2 j h * qDz2 Q d h
def qDz1 (j : Fin 64) : ℝ := qDh1 Q d j * (qS1 Q d j + qZ1 Q d j * (qS1 Q d j * (1 - qS1 Q d j)))
def qDrbf (k : Fin 32) : ℝ := ∑ h : Fin 64, Q.W1 k h * qDz1 Q d h
def qSum : ℝ := ∑ k : Fin 32, (qDrbf Q d k * (-2 * qDiff Q d k)) * qRbf Q d k
def qG (a : Fin 3) : ℝ := qSum Q d * (1 / qLen d) * d a

/-- The quantity under the square root is positive. -/
theorem sumsq_pos : 0 < (∑ a : Fin 3, d a * d a) + Consts.epsR := by
  have h : 0 ≤ ∑ a : Fin 3, d a * d a := Finset.sum_nonneg (fun a _ => mul_self_nonneg (d a))
  have h2 := Consts.epsR_pos
  linarith

/-- The length is positive. -/
theorem qLen_pos : 0 < qLen d := Real.sqrt_pos.2 (sumsq_pos d)

/-! ## The kernel's functions are the real ones -/

theorem kLen_coe : kLen (dE d) = (qLen d : EReal) := by
  have h : (∑ a : Fin 3, dE d a * dE d a) + eps32
      = (((∑ a : Fin 3, d a * d a) + Consts.epsR : ℝ) : EReal) := by
    simp only [dE_apply, eps32_eq, ← EReal.coe_mul, ← coe_sum, ← EReal.coe_add]
  rw [kLen, qLen, h, Ideal.sqrt_coe, if_neg (not_lt.2 (sumsq_pos d).le)]

theorem kDiff_coe (k : Fin 32) : kDiff Q.toE (dE d) k = (qDiff Q d k : EReal) := by
  simp only [kDiff, kLen_coe, toE_c, ← EReal.coe_sub, qDiff]

theorem kRbf_coe (k : Fin 32) : kRbf Q.toE (dE d) k = (qRbf Q d k : EReal) := by
  simp only [kRbf, kDiff_coe, zero32_eq, ← EReal.coe_mul, ← EReal.coe_sub, Ideal.exp_coe, qRbf, zero_sub]

theorem kZ1_coe (h : Fin 64) : kZ1 Q.toE (dE d) h = (qZ1 Q d h : EReal) := by
  simp only [kZ1, kRbf_coe, toE_W1, toE_b1, ← EReal.coe_mul, ← coe_sum, ← EReal.coe_add, qZ1]

theorem kS1_coe (h : Fin 64) : kS1 Q.toE (dE d) h = (qS1 Q d h : EReal) := by
  simp only [kS1, kZ1_coe, Ideal.logistic_coe, qS1, sig]

theorem kH1_coe (h : Fin 64) : kH1 Q.toE (dE d) h = (qH1 Q d h : EReal) := by
  simp only [kH1, kZ1_coe, kS1_coe, ← EReal.coe_mul, qH1]

theorem kZ2_coe (h : Fin 64) : kZ2 Q.toE (dE d) h = (qZ2 Q d h : EReal) := by
  simp only [kZ2, kH1_coe, toE_W2, toE_b2, ← EReal.coe_mul, ← coe_sum, ← EReal.coe_add, qZ2]

theorem kS2_coe (h : Fin 64) : kS2 Q.toE (dE d) h = (qS2 Q d h : EReal) := by
  simp only [kS2, kZ2_coe, Ideal.logistic_coe, qS2, sig]

theorem kH2_coe (h : Fin 64) : kH2 Q.toE (dE d) h = (qH2 Q d h : EReal) := by
  simp only [kH2, kZ2_coe, kS2_coe, ← EReal.coe_mul, qH2]

theorem kerE_coe : kerE Q.toE (dE d) = (qE Q d : EReal) := by
  simp only [kerE, kH2_coe, toE_W3, toE_b3, ← EReal.coe_mul, ← coe_sum, ← EReal.coe_add, qE]

theorem kDz2_coe (h : Fin 64) : kDz2 Q.toE (dE d) h = (qDz2 Q d h : EReal) := by
  simp only [kDz2, kS2_coe, kZ2_coe, toE_W3, one32_eq, ← EReal.coe_sub, ← EReal.coe_mul, ← EReal.coe_add, qDz2]

theorem kDh1_coe (j : Fin 64) : kDh1 Q.toE (dE d) j = (qDh1 Q d j : EReal) := by
  simp only [kDh1, kDz2_coe, toE_W2, ← EReal.coe_mul, ← coe_sum, qDh1]

theorem kDz1_coe (j : Fin 64) : kDz1 Q.toE (dE d) j = (qDz1 Q d j : EReal) := by
  simp only [kDz1, kDh1_coe, kS1_coe, kZ1_coe, one32_eq, ← EReal.coe_sub, ← EReal.coe_mul, ← EReal.coe_add, qDz1]

theorem kDrbf_coe (k : Fin 32) : kDrbf Q.toE (dE d) k = (qDrbf Q d k : EReal) := by
  simp only [kDrbf, kDz1_coe, toE_W1, ← EReal.coe_mul, ← coe_sum, qDrbf]

theorem kSum_coe : kSum Q.toE (dE d) = (qSum Q d : EReal) := by
  simp only [kSum, kDrbf_coe, kDiff_coe, kRbf_coe, negtwo32_eq, ← EReal.coe_mul, ← coe_sum, qSum]

theorem kerG_coe (a : Fin 3) : kerG Q.toE (dE d) a = (qG Q d a : EReal) := by
  rw [kerG, kSum_coe, kLen_coe, Ideal.div_coe (qLen_pos d).ne', dE_apply, ← EReal.coe_mul, ← EReal.coe_mul, qG]

/-! ## The reference's functions are the same real ones -/

theorem rLen_coe : rLen (dE d) = (qLen d : EReal) := by
  have h : (zero32 + ∑ a : Fin 3, dE d a * dE d a) + eps32
      = (((∑ a : Fin 3, d a * d a) + Consts.epsR : ℝ) : EReal) := by
    simp only [dE_apply, zero32_eq, eps32_eq, ← EReal.coe_mul, ← coe_sum, ← EReal.coe_add, zero_add]
  rw [rLen, qLen, h, Ideal.sqrt_coe, if_neg (not_lt.2 (sumsq_pos d).le)]

theorem rHalf_coe : rHalf (dE d) = (((1 / 2) * (1 / qLen d) : ℝ) : EReal) := by
  rw [rHalf, rLen_coe, Ideal.div_coe (qLen_pos d).ne', half32_eq, ← EReal.coe_mul]

theorem rDiff_coe (k : Fin 32) : rDiff Q.toE (dE d) k = (qDiff Q d k : EReal) := by
  simp only [rDiff, rLen_coe, toE_c, ← EReal.coe_sub, qDiff]

theorem rTwo_coe (k : Fin 32) : rTwo Q.toE (dE d) k = ((2 * qDiff Q d k : ℝ) : EReal) := by
  simp only [rTwo, rDiff_coe, two32_eq, ← EReal.coe_mul]

theorem rRbf_coe (k : Fin 32) : rRbf Q.toE (dE d) k = (qRbf Q d k : EReal) := by
  simp only [rRbf, rDiff_coe, ← EReal.coe_mul, ← EReal.coe_neg, Ideal.exp_coe, qRbf]

theorem rZ1_coe (h : Fin 64) : rZ1 Q.toE (dE d) h = (qZ1 Q d h : EReal) := by
  simp only [rZ1, rRbf_coe, toE_W1, toE_b1, ← EReal.coe_mul, ← coe_sum, ← EReal.coe_add, qZ1]
  refine coe_congr (congrArg (· + Q.b1 h) (Finset.sum_congr rfl (fun k _ => mul_comm _ _)))

theorem rSig_coe (r : ℝ) : rSig (r : EReal) = (sig r : EReal) := by
  have hpos : (0 : ℝ) < 1 + Real.exp (-r) := add_pos one_pos (Real.exp_pos _)
  rw [rSig, one32_eq, ← EReal.coe_neg, Ideal.exp_coe, ← EReal.coe_add, Ideal.div_coe hpos.ne', ← EReal.coe_mul, sig,
    one_mul, one_div]

theorem rS1_coe (h : Fin 64) : rS1 Q.toE (dE d) h = (qS1 Q d h : EReal) := by
  rw [rS1, rZ1_coe, rSig_coe, qS1]

theorem rDs1_coe (h : Fin 64) : rDs1 Q.toE (dE d) h = ((qS1 Q d h * (1 - qS1 Q d h) : ℝ) : EReal) := by
  simp only [rDs1, rS1_coe, one32_eq, ← EReal.coe_sub, ← EReal.coe_mul]

theorem rH1_coe (h : Fin 64) : rH1 Q.toE (dE d) h = (qH1 Q d h : EReal) := by
  simp only [rH1, rZ1_coe, rS1_coe, ← EReal.coe_mul, qH1]

theorem rZ2_coe (h : Fin 64) : rZ2 Q.toE (dE d) h = (qZ2 Q d h : EReal) := by
  simp only [rZ2, rH1_coe, toE_W2, toE_b2, ← EReal.coe_mul, ← coe_sum, ← EReal.coe_add, qZ2]
  refine coe_congr (congrArg (· + Q.b2 h) (Finset.sum_congr rfl (fun k _ => mul_comm _ _)))

theorem rS2_coe (h : Fin 64) : rS2 Q.toE (dE d) h = (qS2 Q d h : EReal) := by
  rw [rS2, rZ2_coe, rSig_coe, qS2]

theorem rDs2_coe (h : Fin 64) : rDs2 Q.toE (dE d) h = ((qS2 Q d h * (1 - qS2 Q d h) : ℝ) : EReal) := by
  simp only [rDs2, rS2_coe, one32_eq, ← EReal.coe_sub, ← EReal.coe_mul]

theorem rH2_coe (h : Fin 64) : rH2 Q.toE (dE d) h = (qH2 Q d h : EReal) := by
  simp only [rH2, rZ2_coe, rS2_coe, ← EReal.coe_mul, qH2]

theorem refE_coe : refE Q.toE (dE d) = (qE Q d : EReal) := by
  simp only [refE, rH2_coe, toE_W3, toE_b3, ← EReal.coe_mul, ← coe_sum, ← EReal.coe_add, qE]

/-! ## The reverse sweep at cotangent 1 -/

theorem rCtH2_coe (h : Fin 64) : rCtH2 Q.toE one32 h = (Q.W3 h : EReal) := by
  simp only [rCtH2, Fin.sum_univ_one, toE_W3, one32_eq, ← EReal.coe_mul, one_mul]

theorem rCtZ2_coe (h : Fin 64) : rCtZ2 Q.toE (dE d) one32 h = (qDz2 Q d h : EReal) := by
  simp only [rCtZ2, rCtH2_coe, rS2_coe, rZ2_coe, rDs2_coe, ← EReal.coe_mul, ← EReal.coe_add, qDz2]
  refine coe_congr ?_
  ring

theorem rCtH1_coe (j : Fin 64) : rCtH1 Q.toE (dE d) one32 j = (qDh1 Q d j : EReal) := by
  simp only [rCtH1, rCtZ2_coe, toE_W2, ← EReal.coe_mul, ← coe_sum, qDh1]
  refine coe_congr (Finset.sum_congr rfl (fun k _ => mul_comm _ _))

theorem rCtZ1_coe (j : Fin 64) : rCtZ1 Q.toE (dE d) one32 j = (qDz1 Q d j : EReal) := by
  simp only [rCtZ1, rCtH1_coe, rS1_coe, rZ1_coe, rDs1_coe, ← EReal.coe_mul, ← EReal.coe_add, qDz1]
  refine coe_congr ?_
  ring

theorem rCtRbf_coe (k : Fin 32) : rCtRbf Q.toE (dE d) one32 k = (qDrbf Q d k : EReal) := by
  simp only [rCtRbf, rCtZ1_coe, toE_W1, ← EReal.coe_mul, ← coe_sum, qDrbf]
  refine coe_congr (Finset.sum_congr rfl (fun k _ => mul_comm _ _))

theorem rTerm_coe (k : Fin 32) :
    rTerm Q.toE (dE d) one32 k = (((qDrbf Q d k * (-2 * qDiff Q d k)) * qRbf Q d k : ℝ) : EReal) := by
  simp only [rTerm, rCtRbf_coe, rRbf_coe, rTwo_coe, ← EReal.coe_mul, ← EReal.coe_neg]
  refine coe_congr ?_
  ring

theorem rSum_coe : rSum Q.toE (dE d) one32 = (qSum Q d : EReal) := by
  simp only [rSum, rTerm_coe, zero32_eq, Fin.sum_univ_one, ← coe_sum, ← EReal.coe_add, zero_add, qSum]

theorem rX_coe : rX Q.toE (dE d) one32 = ((qSum Q d * ((1 / 2) * (1 / qLen d)) : ℝ) : EReal) := by
  rw [rX, rSum_coe, rHalf_coe, ← EReal.coe_mul]

theorem refG_coe (a : Fin 3) : refG Q.toE (dE d) one32 a = (qG Q d a : EReal) := by
  simp only [refG, rX_coe, dE_apply, ← EReal.coe_mul, ← EReal.coe_add, qG]
  refine coe_congr ?_
  ring

end Mirror

end Alg

open Alg

variable (P : Params) (D : Fin 3 → EReal)

/-- The two energies agree on real data. -/
theorem kerE_eq_refE (hP : P.IsReal) (hD : ∀ a, ∃ r : ℝ, D a = (r : EReal)) : kerE P D = refE P D := by
  obtain ⟨Q, rfl⟩ := exists_rparams P hP
  obtain ⟨d, rfl⟩ := exists_rdisp D hD
  rw [kerE_coe, refE_coe]

/-- The two gradients agree on real data, at the cotangent 1. -/
theorem kerG_eq_refG (hP : P.IsReal) (hD : ∀ a, ∃ r : ℝ, D a = (r : EReal)) (a : Fin 3) :
    kerG P D a = refG P D one32 a := by
  obtain ⟨Q, rfl⟩ := exists_rparams P hP
  obtain ⟨d, rfl⟩ := exists_rdisp D hD
  rw [kerG_coe, refG_coe]

/-- On real data the gradient is a real number. -/
theorem kerG_real (hP : P.IsReal) (hD : ∀ a, ∃ r : ℝ, D a = (r : EReal)) (a : Fin 3) :
    ∃ r : ℝ, kerG P D a = (r : EReal) := by
  obtain ⟨Q, rfl⟩ := exists_rparams P hP
  obtain ⟨d, rfl⟩ := exists_rdisp D hD
  exact ⟨qG Q d a, kerG_coe Q d a⟩

/-- On real data the energy is a real number. -/
theorem kerE_real (hP : P.IsReal) (hD : ∀ a, ∃ r : ℝ, D a = (r : EReal)) : ∃ r : ℝ, kerE P D = (r : EReal) := by
  obtain ⟨Q, rfl⟩ := exists_rparams P hP
  obtain ⟨d, rfl⟩ := exists_rdisp D hD
  exact ⟨qE Q d, kerE_coe Q d⟩

end Cert.EdgeMlp

end
-- ==== Proof.LibScatterRows.lean ====
/-
  An accumulating float scatter of whole rows, read at an entry on the extended reals.

  Updates `[M, C]` are added into a table `[N, C]` at the rows a column of index words `[M, 1]` names (dimension numbers:
  update window axis 1, inserted window axis 0, the one index component addressing table axis 0, index vector axis 1).
  Entry `(n, k)` of the result is the table's entry plus the sum of the updates' entries `(e, k)` over the rows `e` whose
  index word, read signed, is `n`; a word outside `[0, N)` contributes to no entry.
-/
import Idealize.ShloMosaic.PureOps.Ideal
import Idealize.ShloMosaic.Lib.ValueIdx

noncomputable section

namespace Cert.LibScatterRows

open Idealize.ShloMosaic Idealize.ShloMosaic.ValueIdx
open scoped BigOperators

/-! ## Scattering whole rows into a table

The operand index an update index lands at is, on each operand axis, a start (a component of the start index, read
signed and not clamped) plus a window coordinate. For the dimension numbers of a row scatter the two summands are
computed one by one below: on axis 0 the start is the index word of the update's row and the window coordinate vanishes
(the axis is an inserted window axis); on axis 1 the start vanishes (the axis is not addressed by the start index) and
the window coordinate is the update's column. -/

section Rows

/-- The dimension numbers of a row scatter, for a table `[N, C]`, scatter indices `[M, 1]` and updates `[M, C]`. -/
abbrev rowsDims (N M C : Nat) (wf : ScatterDims.WF ⟨2, ![N, C]⟩ ⟨2, ![M, 1]⟩ ⟨2, ![M, C]⟩ [1] [0] [0] 1) :
    ScatterDims ⟨2, ![N, C]⟩ ⟨2, ![M, 1]⟩ ⟨2, ![M, C]⟩ where
  updateWindowDims := [1]
  insertedWindowDims := [0]
  scatterDimsToOperandDims := [0]
  indexVectorDim := 1
  wf := wf

variable {N M C w : Nat} (wf : ScatterDims.WF ⟨2, ![N, C]⟩ ⟨2, ![M, 1]⟩ ⟨2, ![M, C]⟩ [1] [0] [0] 1)

/-- Axis 1 of the table is not addressed by the start index: the window starts at column zero. -/
theorem rows_start1 (j : (⟨2, ![M, C]⟩ : Shape).Idx) (idx : IVec ⟨2, ![M, 1]⟩ w) :
    (rowsDims N M C wf).start j idx 1 = 0 := by
  unfold ScatterDims.start
  exact dif_neg (show (1 : Fin 2) ∉ [0] by decide)

/-- Axis 0 of the table is component 0 of the start index. That component is read at the scatter-indices position
    `(j 0, 0)` — the update's row, and 0 on the index vector's axis —, signed, and not clamped. -/
theorem rows_start0 (j : (⟨2, ![M, C]⟩ : Shape).Idx) (idx : IVec ⟨2, ![M, 1]⟩ w) :
    (rowsDims N M C wf).start j idx 0 = (idx (ix2 (j 0) (0 : Fin 1))).toInt := by
  unfold ScatterDims.start
  rw [dif_pos (List.mem_singleton.2 rfl)]
  have hsi : (rowsDims N M C wf).siIdx j ⟨List.idxOf (0 : Fin 2) (rowsDims N M C wf).scatterDimsToOperandDims,
      List.idxOf_lt_length_iff.2 (List.mem_singleton.2 rfl)⟩ = ix2 (j 0) (0 : Fin 1) := by
    funext b
    refine Fin.ext ?_
    match b with
    | ⟨0, _⟩ => rfl
    | ⟨1, _⟩ => rfl
  rw [hsi]
  rfl

/-- The kept axes of the table are the ones that are not the inserted window axis 0. -/
theorem rows_mem_sKept (a : Fin 2) : a ∈ (rowsDims N M C wf).sKept ↔ a ∉ [(0 : Fin 2)] := by
  simp [ScatterDims.sKept, Shape.kept, List.mem_filter, List.mem_finRange]

/-- Axis 0 of the table is an inserted window axis: it is not among the kept axes, so its window coordinate is zero. -/
theorem rows_window0 (j : (⟨2, ![M, C]⟩ : Shape).Idx) : (rowsDims N M C wf).window j 0 = 0 := by
  unfold ScatterDims.window
  exact dif_neg fun h => (rows_mem_sKept wf 0).1 h (List.mem_singleton.2 rfl)

/-- Axis 1 is the only kept axis of the table, in position 0, and the update window axis in that position is the
    updates' axis 1: the window coordinate is the update's column. -/
theorem rows_window1 (j : (⟨2, ![M, C]⟩ : Shape).Idx) : (rowsDims N M C wf).window j 1 = (j 1).val := by
  unfold ScatterDims.window
  rw [dif_pos ((rows_mem_sKept wf 1).2 (by decide))]
  rfl

/-- The update at `(e, k')` lands at the table's entry `(n, k)` exactly when the `e`-th index word, read signed, is
    `n` and the columns agree. (The landing index is start plus window coordinate on each axis, and is dropped when
    that leaves the table: on axis 0 it is the index word, on axis 1 the update's column, which is always inside.) -/
theorem rows_resultIdx_iff (idx : IVec ⟨2, ![M, 1]⟩ w) (e : Fin M) (k' : Fin C) (n : Fin N) (k : Fin C) :
    (rowsDims N M C wf).resultIdx? (ix2 e k') idx = some (ix2 n k)
      ↔ (idx (ix2 e (0 : Fin 1))).toInt = (n.val : ℤ) ∧ k' = k := by
  have hs0 : (rowsDims N M C wf).start (ix2 e k') idx 0 + (((rowsDims N M C wf).window (ix2 e k') 0 : ℕ) : ℤ)
      = (idx (ix2 e (0 : Fin 1))).toInt := by
    rw [rows_start0, rows_window0]
    show (idx (ix2 e (0 : Fin 1))).toInt + ((0 : ℕ) : ℤ) = _
    omega
  have hs1 : (rowsDims N M C wf).start (ix2 e k') idx 1 + (((rowsDims N M C wf).window (ix2 e k') 1 : ℕ) : ℤ)
      = (k'.val : ℤ) := by
    rw [rows_start1, rows_window1]
    show (0 : ℤ) + ((k'.val : ℕ) : ℤ) = _
    omega
  unfold ScatterDims.resultIdx?
  constructor
  · intro h
    by_cases hin : ∀ a, 0 ≤ (rowsDims N M C wf).start (ix2 e k') idx a + (((rowsDims N M C wf).window (ix2 e k') a : ℕ) : ℤ)
        ∧ (rowsDims N M C wf).start (ix2 e k') idx a + (((rowsDims N M C wf).window (ix2 e k') a : ℕ) : ℤ)
          < (((⟨2, ![N, C]⟩ : Shape).size a : ℕ) : ℤ)
    · rw [dif_pos hin] at h
      have hf := Option.some.inj h
      have h0 : ((rowsDims N M C wf).start (ix2 e k') idx 0
          + (((rowsDims N M C wf).window (ix2 e k') 0 : ℕ) : ℤ)).toNat = n.val := congrArg (fun f => (f 0).val) hf
      have h1 : ((rowsDims N M C wf).start (ix2 e k') idx 1
          + (((rowsDims N M C wf).window (ix2 e k') 1 : ℕ) : ℤ)).toNat = k.val := congrArg (fun f => (f 1).val) hf
      have p0 := (hin 0).1
      rw [hs0] at h0 p0
      rw [hs1] at h1
      exact ⟨by omega, Fin.ext (by omega)⟩
    · rw [dif_neg hin] at h
      exact absurd h (by simp)
  · rintro ⟨hE, hk⟩
    subst hk
    have hin : ∀ a, 0 ≤ (rowsDims N M C wf).start (ix2 e k') idx a + (((rowsDims N M C wf).window (ix2 e k') a : ℕ) : ℤ)
        ∧ (rowsDims N M C wf).start (ix2 e k') idx a + (((rowsDims N M C wf).window (ix2 e k') a : ℕ) : ℤ)
          < (((⟨2, ![N, C]⟩ : Shape).size a : ℕ) : ℤ) := by
      intro a
      match a with
      | ⟨0, _⟩ =>
        show 0 ≤ (rowsDims N M C wf).start (ix2 e k') idx 0 + (((rowsDims N M C wf).window (ix2 e k') 0 : ℕ) : ℤ)
          ∧ (rowsDims N M C wf).start (ix2 e k') idx 0 + (((rowsDims N M C wf).window (ix2 e k') 0 : ℕ) : ℤ) < ((N : ℕ) : ℤ)
        rw [hs0, hE]
        have := n.isLt
        omega
      | ⟨1, _⟩ =>
        show 0 ≤ (rowsDims N M C wf).start (ix2 e k') idx 1 + (((rowsDims N M C wf).window (ix2 e k') 1 : ℕ) : ℤ)
          ∧ (rowsDims N M C wf).start (ix2 e k') idx 1 + (((rowsDims N M C wf).window (ix2 e k') 1 : ℕ) : ℤ) < ((C : ℕ) : ℤ)
        rw [hs1]
        have := k'.isLt
        omega
    rw [dif_pos hin]
    refine congrArg some (funext fun a => Fin.ext ?_)
    match a with
    | ⟨0, _⟩ =>
      show ((rowsDims N M C wf).start (ix2 e k') idx 0 + (((rowsDims N M C wf).window (ix2 e k') 0 : ℕ) : ℤ)).toNat = n.val
      rw [hs0, hE]
      omega
    | ⟨1, _⟩ =>
      show ((rowsDims N M C wf).start (ix2 e k') idx 1 + (((rowsDims N M C wf).window (ix2 e k') 1 : ℕ) : ℤ)).toNat = k'.val
      rw [hs1]
      omega

/-- The row scatter-add with its dimension numbers written out, read at `(n, k)`: the filtered sum over the update
    indices is split into rows and columns, and in each row only the column `k` can land at `(n, k)`. -/
theorem rows_apply (x : (⟨2, ![N, C]⟩ : Shape).Idx → EReal) (idx : IVec ⟨2, ![M, 1]⟩ w)
    (upd : (⟨2, ![M, C]⟩ : Shape).Idx → EReal) (n : Fin N) (k : Fin C) :
    Ideal.hostScatterAdd (rowsDims N M C wf) x idx upd (ix2 n k)
      = x (ix2 n k) + ∑ e : Fin M, if (idx (ix2 e (0 : Fin 1))).toInt = (n.val : ℤ) then upd (ix2 e k) else 0 := by
  unfold Ideal.hostScatterAdd
  refine congrArg (x (ix2 n k) + ·) ?_
  rw [Finset.sum_filter, sum_idx2]
  refine Finset.sum_congr rfl fun e _ => ?_
  simp only [rows_resultIdx_iff]
  by_cases hE : (idx (ix2 e (0 : Fin 1))).toInt = (n.val : ℤ)
  · simp only [hE, true_and, if_true]
    rw [Finset.sum_ite_eq' Finset.univ k (fun k' => upd (ix2 e k'))]
    simp
  · simp only [hE, false_and, if_false]
    exact Finset.sum_const_zero

end Rows

/-- A scatter that adds whole rows of updates `[M, C]` into an `N × C` table, one row per index word (dimension
    numbers: update window axis 1, inserted window axis 0, the start index's one component addressing table axis 0,
    index vector axis 1), reads at `(n, k)` the table's entry plus the sum of the updates' entries `(e, k)` over the
    rows `e` whose index word, read as a signed integer, equals `n`; rows whose word lies outside `[0, N)` are dropped.
    The dimension numbers are given by equations on the record's fields; once the fields are replaced by these literals
    the record is the one of `rows_apply`. -/
theorem scatterAdd_rows_apply {N M C w : ℕ} (d : ScatterDims ⟨2, ![N, C]⟩ ⟨2, ![M, 1]⟩ ⟨2, ![M, C]⟩)
    (h1 : d.updateWindowDims = [1]) (h2 : d.insertedWindowDims = [0]) (h3 : d.scatterDimsToOperandDims = [0])
    (h4 : d.indexVectorDim = 1)
    (x : (⟨2, ![N, C]⟩ : Shape).Idx → EReal) (idx : IVec ⟨2, ![M, 1]⟩ w) (upd : (⟨2, ![M, C]⟩ : Shape).Idx → EReal)
    (n : Fin N) (k : Fin C) :
    Ideal.hostScatterAdd d x idx upd (ix2 n k)
      = x (ix2 n k) + ∑ e : Fin M, if (idx (ix2 e (0 : Fin 1))).toInt = (n.val : ℤ) then upd (ix2 e k) else 0 := by
  obtain ⟨uw, iw, sd, iv, wf⟩ := d
  simp only at h1 h2 h3 h4
  subst h1 h2 h3 h4
  exact rows_apply wf x idx upd n k

end Cert.LibScatterRows

end
-- ==== Proof.Tails.lean ====
/-
  The forces, two ways. Summing the per-edge gradients g at the destination nodes and subtracting their sums at the
  source nodes, then negating, is the same as summing the negated gradients at the sources, adding the sums of the
  gradients at the destinations, then negating: both are, at node n and coordinate k, minus (the sum of g over the
  edges that end at n minus the sum over the edges that start at n). The identity moves a sign through a sum, which
  on the extended reals needs the summands to be real numbers; the gradients are.
-/
import Idealize.ShloMosaic.PureOps
import Idealize.ShloMosaic.Lib.ValueIdx
import proofs.«419757_j17763984736960_3_alg».proof.Proof.LibScatterRows

noncomputable section

namespace Cert.EdgeMlp.Tails

open Idealize.ShloMosaic Idealize.ShloMosaic.ValueIdx
open scoped BigOperators

/-- The coercion of the reals into the extended reals commutes with finite sums. -/
theorem coe_sum {ι : Type} (s : Finset ι) (f : ι → ℝ) : (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

/-- A sum of real numbers picked by a condition, as an extended real. -/
theorem coe_sum_ite {M : Nat} (p : Fin M → Prop) [DecidablePred p] (γ : Fin M → ℝ) :
    (∑ e : Fin M, if p e then ((γ e : ℝ) : EReal) else 0) = ((∑ e : Fin M, if p e then γ e else 0 : ℝ) : EReal) := by
  rw [← coe_sum]
  refine Finset.sum_congr rfl fun e _ => ?_
  split_ifs <;> simp

/-- The forces, the kernel's way and the reference's way. -/
theorem forces_eq {N M : Nat} (dK dR : ScatterDims ⟨2, ![N, 3]⟩ ⟨2, ![M, 1]⟩ ⟨2, ![M, 3]⟩)
    (hK1 : dK.updateWindowDims = [1]) (hK2 : dK.insertedWindowDims = [0]) (hK3 : dK.scatterDimsToOperandDims = [0]) (hK4 : dK.indexVectorDim = 1)
    (hR1 : dR.updateWindowDims = [1]) (hR2 : dR.insertedWindowDims = [0]) (hR3 : dR.scatterDimsToOperandDims = [0]) (hR4 : dR.indexVectorDim = 1)
    (zK zR : FVec Ideal ⟨2, ![N, 3]⟩ .f32) (hzK : ∀ i, zK i = 0) (hzR : ∀ i, zR i = 0)
    (isrc idst : IVec ⟨2, ![M, 1]⟩ 32) (g : FVec Ideal ⟨2, ![M, 3]⟩ .f32) (hg : ∀ i, ∃ r : ℝ, g i = (r : EReal)) :
    Host.negf (subf (Host.scatterAdd dK zK idst g) (Host.scatterAdd dK zK isrc g))
      = Host.negf (addf (Host.scatterAdd dR zR isrc (Host.negf g)) (Host.scatterAdd dR zR idst g)) := by
  classical
  choose γ hγ using hg
  funext i
  obtain ⟨n, k, rfl⟩ : ∃ (n : Fin N) (k : Fin 3), i = ix2 n k := ⟨i 0, i 1, eq_ix2 i⟩
  show -(Ideal.hostScatterAdd dK zK idst g (ix2 n k) - Ideal.hostScatterAdd dK zK isrc g (ix2 n k))
    = -(Ideal.hostScatterAdd dR zR isrc (Host.negf g) (ix2 n k) + Ideal.hostScatterAdd dR zR idst g (ix2 n k))
  rw [Cert.LibScatterRows.scatterAdd_rows_apply dK hK1 hK2 hK3 hK4, Cert.LibScatterRows.scatterAdd_rows_apply dK hK1 hK2 hK3 hK4,
    Cert.LibScatterRows.scatterAdd_rows_apply dR hR1 hR2 hR3 hR4, Cert.LibScatterRows.scatterAdd_rows_apply dR hR1 hR2 hR3 hR4]
  simp only [hzK, hzR, zero_add]
  have hneg : ∀ e : Fin M, Host.negf g (ix2 e k) = ((-(γ (ix2 e k)) : ℝ) : EReal) := by
    intro e
    show -(g (ix2 e k)) = _
    rw [hγ, EReal.coe_neg]
  simp only [hneg, hγ]
  rw [coe_sum_ite, coe_sum_ite, coe_sum_ite]
  have hreal : ∀ A B : ℝ, -((A : EReal) - (B : EReal)) = -(((-B : ℝ) : EReal) + (A : EReal)) := by
    intro A B
    rw [← EReal.coe_sub, ← EReal.coe_add, ← EReal.coe_neg, ← EReal.coe_neg]
    congr 1
    ring
  have hs : (∑ e : Fin M, if (isrc (ix2 e (0 : Fin 1))).toInt = (n.val : ℤ) then -(γ (ix2 e k)) else 0)
      = -(∑ e : Fin M, if (isrc (ix2 e (0 : Fin 1))).toInt = (n.val : ℤ) then γ (ix2 e k) else 0) := by
    rw [← Finset.sum_neg_distrib]
    refine Finset.sum_congr rfl fun e _ => ?_
    split_ifs <;> simp
  rw [hs]
  exact hreal _ _

end Cert.EdgeMlp.Tails

end
-- ==== Proof.PreFacts.lean ====
/-
  What the precondition says, decoded: every entry of every float argument is a real number (neither infinity),
  no source or destination index is negative, and every graph id is one of 0 to 7.
-/
import proofs.«419757_j17763984736960_3_alg».proof.Pre_finite_inputs
import proofs.«419757_j17763984736960_3_alg».proof.Proof.Gen.Pre_finite_inputs
import Idealize.ShloMosaic.Lib.ValueIdx
import Idealize.ShloMosaic.Lib.ReduceAll
import Idealize.ShloMosaic.Lib.StableHlo.Predicate
import Idealize.ShloMosaic.PureOps.Ideal.Laws

noncomputable section

namespace Cert.PreFacts

open Idealize.ShloMosaic Idealize.ShloMosaic.ValueIdx Cert.Pre_finite_inputs

variable [Cert.Pre_finite_inputs.Facts]

/-! ## One conjunct of each kind, at any shape -/

/-- The scalar shape has one index. -/
theorem subsingleton_scalar : Subsingleton S_.Idx := ⟨fun a b => funext fun d => d.elim0⟩

/-- The pattern of +inf denotes the top element. -/
theorem ofBits_inf : Ideal.ofBits .f32 0x7F800000#32 = (⊤ : EReal) := by
  simp [Ideal.ofBits, Ideal.ieee]

/-- An extended real whose absolute value is below +inf is a real number. -/
theorem real_of_abs_lt_inf (x : EReal)
    (h : Ideal.cmp .olt (max x (-x)) (Ideal.ofBits .f32 0x7F800000#32) = 1#1) : ∃ r : ℝ, x = (r : EReal) := by
  rw [ofBits_inf] at h
  have h2 : max x (-x) < ⊤ := by
    unfold Ideal.cmp at h
    simpa [StableHlo.Predicate.ofBool_eq_one_iff] using h
  induction x using EReal.rec with
  | bot => simp at h2
  | coe r => exact ⟨r, rfl⟩
  | top => simp at h2

/-- A float array all of whose entries are below +inf in absolute value has real entries. -/
theorem real_of_all_finite {s : Shape} (hb : S_.BroadcastsInDim s (![] : Fin 0 → Fin s.rank)) {axes : List (Fin s.rank)}
    (hr : s.ReducesTo axes S_) (hu : 0 < S_.numel) (x : FVec Ideal s .f32)
    (e : Host.reduce IntOp.andi
        (cmpf .olt (Host.absf x) (broadcastInDim s ![] hb (constant (F := Ideal) S_ .f32 0x7F800000#32)))
        (constantI S_ 1 1#1) hr hu ix0 = 1#1) (i : s.Idx) : ∃ r : ℝ, x i = (r : EReal) := by
  haveI := subsingleton_scalar
  have h := Host.reduce_andi_all _ _ hr hu ix0 e i
  exact real_of_abs_lt_inf (x i) h

/-- An integer array all of whose entries are at least 0, read signed. -/
theorem nonneg_of_all_sge {s : Shape} (hb : S_.BroadcastsInDim s (![] : Fin 0 → Fin s.rank)) {axes : List (Fin s.rank)}
    (hr : s.ReducesTo axes S_) (hu : 0 < S_.numel) (x : IVec s 32)
    (e : Host.reduce IntOp.andi (cmpi .sge x (broadcastInDim s ![] hb (constantI S_ 32 0#32)))
        (constantI S_ 1 1#1) hr hu ix0 = 1#1) (i : s.Idx) : 0 ≤ (x i).toInt := by
  haveI := subsingleton_scalar
  have h := Host.reduce_andi_all _ _ hr hu ix0 e i
  have h2 : IntOp.cmpi .sge (x i) (0#32) = 1#1 := h
  have h3 := IntOp.cmpi_sge.1 h2
  have h0 : (0#32 : BitVec 32).toInt = 0 := by decide
  rw [h0] at h3
  exact h3

/-- An integer array all of whose entries are below 8, read signed. -/
theorem lt_of_all_slt {s : Shape} (hb : S_.BroadcastsInDim s (![] : Fin 0 → Fin s.rank)) {axes : List (Fin s.rank)}
    (hr : s.ReducesTo axes S_) (hu : 0 < S_.numel) (x : IVec s 32)
    (e : Host.reduce IntOp.andi (cmpi .slt x (broadcastInDim s ![] hb (constantI S_ 32 8#32)))
        (constantI S_ 1 1#1) hr hu ix0 = 1#1) (i : s.Idx) : (x i).toInt < 8 := by
  haveI := subsingleton_scalar
  have h := Host.reduce_andi_all _ _ hr hu ix0 e i
  have h2 : IntOp.cmpi .slt (x i) (8#32) = 1#1 := h
  have h3 := IntOp.cmpi_slt.1 h2
  have h8 : (8#32 : BitVec 32).toInt = 8 := by decide
  rw [h8] at h3
  exact h3

/-! ## The printed precondition, decoded -/

/-- The decoded precondition of thirteen argument arrays. -/
structure Good (a0 : FVec Ideal S49152x3 .f32) (a1 : FVec Ideal S786432x3 .f32) (a2 a3 a4 : IVec S786432 32)
    (a5 : FVec Ideal S49152 .f32) (a6 : FVec Ideal S32 .f32) (a7 : FVec Ideal S32x64 .f32) (a8 : FVec Ideal S64 .f32)
    (a9 : FVec Ideal S64x64 .f32) (a10 : FVec Ideal S64 .f32) (a11 : FVec Ideal S64x1 .f32) (a12 : FVec Ideal S1 .f32) : Prop where
  r0 : ∀ i, ∃ r : ℝ, a0 i = (r : EReal)
  r1 : ∀ i, ∃ r : ℝ, a1 i = (r : EReal)
  r5 : ∀ i, ∃ r : ℝ, a5 i = (r : EReal)
  r6 : ∀ i, ∃ r : ℝ, a6 i = (r : EReal)
  r7 : ∀ i, ∃ r : ℝ, a7 i = (r : EReal)
  r8 : ∀ i, ∃ r : ℝ, a8 i = (r : EReal)
  r9 : ∀ i, ∃ r : ℝ, a9 i = (r : EReal)
  r10 : ∀ i, ∃ r : ℝ, a10 i = (r : EReal)
  r11 : ∀ i, ∃ r : ℝ, a11 i = (r : EReal)
  r12 : ∀ i, ∃ r : ℝ, a12 i = (r : EReal)
  src_nonneg : ∀ i, 0 ≤ (a2 i).toInt
  dst_nonneg : ∀ i, 0 ≤ (a3 i).toInt
  graph_nonneg : ∀ i, 0 ≤ (a4 i).toInt
  graph_lt : ∀ i, (a4 i).toInt < 8

/-- The printed precondition being all ones gives the decoded one. -/
theorem good_of_pre (a0 : FVec Ideal S49152x3 .f32) (a1 : FVec Ideal S786432x3 .f32) (a2 a3 a4 : IVec S786432 32)
    (a5 : FVec Ideal S49152 .f32) (a6 : FVec Ideal S32 .f32) (a7 : FVec Ideal S32x64 .f32) (a8 : FVec Ideal S64 .f32)
    (a9 : FVec Ideal S64x64 .f32) (a10 : FVec Ideal S64 .f32) (a11 : FVec Ideal S64x1 .f32) (a12 : FVec Ideal S1 .f32)
    (h : Cert.Pre_finite_inputs.fn (F := Ideal) a0 a1 a2 a3 a4 a5 a6 a7 a8 a9 a10 a11 a12 = (fun _ => 1#1)) :
    Good a0 a1 a2 a3 a4 a5 a6 a7 a8 a9 a10 a11 a12 := by
  have h0 := congrFun h ix0
  dsimp only [fn, fn_part1, fn_part2, fn_part3, andi] at h0
  simp only [IntOp.andi_eq_one] at h0
  obtain ⟨⟨⟨⟨⟨⟨⟨⟨⟨⟨⟨⟨⟨e0, e1⟩, e5⟩, e6⟩, e7⟩, e8⟩, e9⟩, e10⟩, e11⟩, e12⟩, e2⟩, e3⟩, e4⟩, e4'⟩ := h0
  exact
    { r0 := real_of_all_finite _ _ _ a0 e0
      r1 := real_of_all_finite _ _ _ a1 e1
      r5 := real_of_all_finite _ _ _ a5 e5
      r6 := real_of_all_finite _ _ _ a6 e6
      r7 := real_of_all_finite _ _ _ a7 e7
      r8 := real_of_all_finite _ _ _ a8 e8
      r9 := real_of_all_finite _ _ _ a9 e9
      r10 := real_of_all_finite _ _ _ a10 e10
      r11 := real_of_all_finite _ _ _ a11 e11
      r12 := real_of_all_finite _ _ _ a12 e12
      src_nonneg := nonneg_of_all_sge _ _ _ a2 e2
      dst_nonneg := nonneg_of_all_sge _ _ _ a3 e3
      graph_nonneg := nonneg_of_all_sge _ _ _ a4 e4
      graph_lt := lt_of_all_slt _ _ _ a4 e4' }

end Cert.PreFacts

end
-- ==== Proof.RefRes.lean ====
/-
  The reference program's results are the kernel program's results, as functions of the same argument arrays, under
  the decoded precondition. Energies: the per-edge energies agree edge by edge, and both programs sum them per graph
  by the same scatter. Forces: the per-edge gradients agree (the cotangent is 1 where the graph id is in range), the
  wrapped node indices are the indices (none is negative), and the two ways of combining the node sums agree for real
  gradients. Stresses: the same chain of operations applied to equal per-edge forces.
-/
import proofs.«419757_j17763984736960_3_alg».proof.Proof.RefReadP
import proofs.«419757_j17763984736960_3_alg».proof.Proof.RefMisc
import proofs.«419757_j17763984736960_3_alg».proof.Proof.RefFwd
import proofs.«419757_j17763984736960_3_alg».proof.Proof.RefBwd
import proofs.«419757_j17763984736960_3_alg».proof.Proof.KRes
import proofs.«419757_j17763984736960_3_alg».proof.Proof.Algebra
import proofs.«419757_j17763984736960_3_alg».proof.Proof.Tails
import proofs.«419757_j17763984736960_3_alg».proof.Proof.PreFacts

noncomputable section

namespace Cert.RefRes

open Idealize.ShloMosaic Idealize.ShloMosaic.ValueIdx Idealize.SL.Sem Idealize.ShloMosaic.StableHlo
open Cert.ReferenceIdeal Cert.ReferenceIdeal.Gen Cert.ReferenceIdeal.ReadP Cert.EdgeMlp

variable [Cert.KernelIdeal.Facts] [Cert.Pre_finite_inputs.Facts]

variable (x0 : (⟨S49152x3, .f32⟩ : BufTy).Contents (Elt Ideal)) (x1 : (⟨S786432x3, .f32⟩ : BufTy).Contents (Elt Ideal))
  (x2 x3 x4 : (⟨S786432, .i32⟩ : BufTy).Contents (Elt Ideal))
  (x6 : (⟨S32, .f32⟩ : BufTy).Contents (Elt Ideal)) (x7 : (⟨S32x64, .f32⟩ : BufTy).Contents (Elt Ideal))
  (x8 : (⟨S64, .f32⟩ : BufTy).Contents (Elt Ideal)) (x9 : (⟨S64x64, .f32⟩ : BufTy).Contents (Elt Ideal))
  (x10 : (⟨S64, .f32⟩ : BufTy).Contents (Elt Ideal)) (x11 : (⟨S64x1, .f32⟩ : BufTy).Contents (Elt Ideal))
  (x12 : (⟨S1, .f32⟩ : BufTy).Contents (Elt Ideal))

variable (x5 : (⟨S49152, .f32⟩ : BufTy).Contents (Elt Ideal))

/-- A sum and a difference of real numbers is a real number: every displacement coordinate is real. -/
theorem disp_real (h0 : ∀ i, ∃ r : ℝ, x0 i = (r : EReal)) (h1 : ∀ i, ∃ r : ℝ, x1 i = (r : EReal)) (e : Fin 786432) (a : Fin 3) :
    ∃ r : ℝ, dispAt x0 x1 x2 x3 e a = (r : EReal) := by
  obtain ⟨p, hp⟩ := h1 (ix2 e a)
  obtain ⟨q, hq⟩ := h0 (ix2 (rowOf (normWord (x3 (ix1 e)))) a)
  obtain ⟨s, hs⟩ := h0 (ix2 (rowOf (normWord (x2 (ix1 e)))) a)
  refine ⟨p + q - s, ?_⟩
  unfold dispAt
  rw [hp, hq, hs, ← EReal.coe_add, ← EReal.coe_sub]

/-- Real parameter arrays give real parameters. -/
theorem params_real (h6 : ∀ i, ∃ r : ℝ, x6 i = (r : EReal)) (h7 : ∀ i, ∃ r : ℝ, x7 i = (r : EReal)) (h8 : ∀ i, ∃ r : ℝ, x8 i = (r : EReal))
    (h9 : ∀ i, ∃ r : ℝ, x9 i = (r : EReal)) (h10 : ∀ i, ∃ r : ℝ, x10 i = (r : EReal)) (h11 : ∀ i, ∃ r : ℝ, x11 i = (r : EReal))
    (h12 : ∀ i, ∃ r : ℝ, x12 i = (r : EReal)) : (paramsOf x6 x7 x8 x9 x10 x11 x12).IsReal :=
  ⟨fun k => h6 _, fun k h => h7 _, fun h => h8 _, fun j h => h9 _, fun h => h10 _, fun h => h11 _, h12 _⟩

/-- An all-zero table: the broadcast of the zero constant. -/
theorem zeros_apply {s : Shape} (h : S_.BroadcastsInDim s (![] : Fin 0 → Fin s.rank)) (i : s.Idx) :
    (broadcastInDim s ![] h (constant (F := Ideal) S_ .f32 0x00000000#32) : FVec Ideal s .f32) i = 0 := by
  rw [broadcastInDim_apply _ h _ i (fun a => a.elim0) (fun a => a.elim0)]
  exact Ideal.ofBits_zero_f32

variable (hgood : Cert.PreFacts.Good x0 x1 x2 x3 x4 x5 x6 x7 x8 x9 x10 x11 x12)
include hgood

/-- The per-edge energies agree. -/
theorem evec_eq : val_main_v47 (F := Ideal) x0 x1 x2 x3 x6 x7 x8 x9 x10 x11 x12
    = Cert.KernelIdeal.KRes.evec (paramsOf x6 x7 x8 x9 x10 x11 x12) (dispAt x0 x1 x2 x3) := by
  funext i
  obtain ⟨e, rfl⟩ : ∃ e : Fin 786432, i = ix1 e := ⟨i 0, eq_ix1 i⟩
  rw [Cert.ReferenceIdeal.RefFwd.energy_at]
  exact (kerE_eq_refE _ _ (params_real x6 x7 x8 x9 x10 x11 x12 hgood.r6 hgood.r7 hgood.r8 hgood.r9 hgood.r10 hgood.r11 hgood.r12)
    (disp_real x0 x1 x2 x3 hgood.r0 hgood.r1 e)).symm

/-- The per-edge gradients agree. -/
theorem gmat_eq : val_main_v79 (F := Ideal) x0 x1 x2 x3 x4 x6 x7 x8 x9 x10 x11
    = Cert.KernelIdeal.KRes.gmat (paramsOf x6 x7 x8 x9 x10 x11 x12) (dispAt x0 x1 x2 x3) := by
  funext i
  obtain ⟨e, a, rfl⟩ : ∃ (e : Fin 786432) (a : Fin 3), i = ix2 e a := ⟨i 0, i 1, eq_ix2 i⟩
  rw [Cert.ReferenceIdeal.RefBwd.grad_at x0 x1 x2 x3 x4 x6 x7 x8 x9 x10 x11 x12,
    Cert.ReferenceIdeal.RefMisc.ct_at x4 e (hgood.graph_nonneg _) (hgood.graph_lt _)]
  exact (kerG_eq_refG _ _ (params_real x6 x7 x8 x9 x10 x11 x12 hgood.r6 hgood.r7 hgood.r8 hgood.r9 hgood.r10 hgood.r11 hgood.r12)
    (disp_real x0 x1 x2 x3 hgood.r0 hgood.r1 e) a).symm

/-- The gradients are real numbers. -/
theorem gmat_real (i : S786432x3.Idx) : ∃ r : ℝ,
    Cert.KernelIdeal.KRes.gmat (paramsOf x6 x7 x8 x9 x10 x11 x12) (dispAt x0 x1 x2 x3) i = (r : EReal) :=
  kerG_real _ _ (params_real x6 x7 x8 x9 x10 x11 x12 hgood.r6 hgood.r7 hgood.r8 hgood.r9 hgood.r10 hgood.r11 hgood.r12)
    (disp_real x0 x1 x2 x3 hgood.r0 hgood.r1 (i 0)) (i 1)

/-- The energies. -/
theorem energies_eq : val_main_v50 (F := Ideal) x0 x1 x2 x3 x4 x6 x7 x8 x9 x10 x11 x12
    = Cert.KernelIdeal.KRes.resE x4 (Cert.KernelIdeal.KRes.evec (paramsOf x6 x7 x8 x9 x10 x11 x12) (dispAt x0 x1 x2 x3)) := by
  unfold val_main_v50
  rw [evec_eq x0 x1 x2 x3 x4 x6 x7 x8 x9 x10 x11 x12 x5 hgood]
  rfl

/-- The forces. -/
theorem forces_eq : val_main_v86 (F := Ideal) x0 x1 x2 x3 x4 x6 x7 x8 x9 x10 x11
    = Cert.KernelIdeal.KRes.resF x2 x3 (Cert.KernelIdeal.KRes.gmat (paramsOf x6 x7 x8 x9 x10 x11 x12) (dispAt x0 x1 x2 x3)) := by
  unfold val_main_v86 val_main_v85 val_main_v82 val_main_v84 val_main_v80
  rw [gmat_eq x0 x1 x2 x3 x4 x6 x7 x8 x9 x10 x11 x12 x5 hgood,
    Cert.ReferenceIdeal.RefMisc.idx_src x2 (fun e => hgood.src_nonneg _), Cert.ReferenceIdeal.RefMisc.idx_dst x3 (fun e => hgood.dst_nonneg _)]
  exact (Cert.EdgeMlp.Tails.forces_eq Cert.KernelIdeal.scatter_S49152x3_S786432x1_S786432x3_1_0_0_1 scatter_S49152x3_S786432x1_S786432x3_1_0_0_1
    rfl rfl rfl rfl rfl rfl rfl rfl _ _ (zeros_apply _) (zeros_apply _) _ _ _
    (gmat_real x0 x1 x2 x3 x4 x6 x7 x8 x9 x10 x11 x12 x5 hgood)).symm

/-- The stresses. -/
theorem stresses_eq : val_main_v111 (F := Ideal) x0 x1 x2 x3 x4 x5 x6 x7 x8 x9 x10 x11
    = Cert.KernelIdeal.KRes.resS x1 x4 x5 (Cert.KernelIdeal.KRes.gmat (paramsOf x6 x7 x8 x9 x10 x11 x12) (dispAt x0 x1 x2 x3)) := by
  unfold val_main_v111 val_main_v110 val_main_v109 val_main_v108 val_main_v107 val_main_v106 val_main_v105 val_main_v104 val_main_v103
    val_main_v102 val_main_v101 val_main_v100 val_main_v99 val_main_v98 val_main_v97 val_main_v96 val_main_v95 val_main_v94 val_main_v93
    val_main_v92 val_main_v91 val_main_v90 val_main_v89 val_main_v88 val_main_v87
  rw [gmat_eq x0 x1 x2 x3 x4 x6 x7 x8 x9 x10 x11 x12 x5 hgood]
  rfl

end Cert.RefRes

end
-- ==== Proof.lean ====
/-
  An edge network's energies, forces and stresses, computed two ways.

  Every edge e of a graph batch has a displacement D e (its bond vector plus its destination's position minus its
  source's), a length, radial features of the length, two hidden layers with the activation z sig(z), and an energy.
  The results are the energies summed per graph, the forces (minus the gradient of the total energy in the node
  positions) and the per-graph stresses (sums of outer products of bond vectors with the per-edge forces, scaled by
  a constant over the volume).

  The reference differentiates the energy by reverse mode. The kernel evaluates the per-edge network and its gradient
  in the displacement by the chain rule written out by hand, 4096 edges per grid point, the edges along the lanes, and
  leaves the gradient and the energy of every edge in a [4, E] array; the host lines around it gather the positions and
  scatter the gradients. On real data the two per-edge gradients are one function (Algebra); the kernel's launch leaves
  exactly that function of the arguments (KVal, over the generated frame run); the reference's stages read edge by edge
  as the same function (RefFwd, RefBwd); and the scatters that follow agree (RefRes, Tails).

  The statement is made under the precondition that every float input is finite and, added here as the evident domain
  of the integer inputs, that no node index is negative and every graph id is one of the eight graphs: a negative node
  index wraps in the gather and in the reverse pass's scatter but is dropped by the kernel program's scatters, and an
  edge whose graph id is out of range gets cotangent zero in the reverse pass while the kernel's chain rule fixes it at one.
-/
import proofs.«419757_j17763984736960_3_alg».proof.Defs
import proofs.«419757_j17763984736960_3_alg».proof.Proof.Gen.Kernel
import proofs.«419757_j17763984736960_3_alg».proof.Proof.Gen.Kernel.Skeleton
import proofs.«419757_j17763984736960_3_alg».proof.Proof.Gen.Kernel.Launch
import proofs.«419757_j17763984736960_3_alg».proof.Proof.Gen.Kernel.Points
import proofs.«419757_j17763984736960_3_alg».proof.Proof.Gen.Kernel.Frame
import proofs.«419757_j17763984736960_3_alg».proof.Proof.Gen.KernelIdeal
import proofs.«419757_j17763984736960_3_alg».proof.Proof.Gen.KernelIdeal.Skeleton
import proofs.«419757_j17763984736960_3_alg».proof.Proof.Gen.KernelIdeal.Launch
import proofs.«419757_j17763984736960_3_alg».proof.Proof.Gen.KernelIdeal.Points
import proofs.«419757_j17763984736960_3_alg».proof.Proof.Gen.KernelIdeal.Frame
import proofs.«419757_j17763984736960_3_alg».proof.Proof.Gen.ReferenceIdeal
import proofs.«419757_j17763984736960_3_alg».proof.Proof.Gen.Pre_finite_inputs
import proofs.«419757_j17763984736960_3_alg».proof.Proof.RefRun
import proofs.«419757_j17763984736960_3_alg».proof.Proof.RefReadP
import proofs.«419757_j17763984736960_3_alg».proof.Proof.Consts
import proofs.«419757_j17763984736960_3_alg».proof.Proof.KVal
import proofs.«419757_j17763984736960_3_alg».proof.Proof.RefRes
import proofs.«419757_j17763984736960_3_alg».proof.Proof.PreFacts
import Idealize.ShloMosaic.Adequacy
import Idealize.ShloMosaic.Init

noncomputable section

namespace Cert.Proof

open Idealize.ShloMosaic Idealize.SL.Sem

/-- The word-level kernel program runs and keeps its arguments: the generated frame. -/
theorem frame_k : Cert.frame_Kernel := fun m ρ _ => Cert.Kernel.Gen.frame m ρ

/-- The idealized kernel program runs and keeps its arguments: the generated frame. -/
theorem frame_ki : Cert.frame_KernelIdeal := fun m ρ _ => Cert.KernelIdeal.Gen.frame m ρ

/-- The reference runs and keeps its arguments: its generated run, the results dropped. -/
theorem frame_ri : Cert.frame_ReferenceIdeal := fun m ρ _ =>
  (θ_run Cert.ReferenceIdeal.defs _ _).mono (fun _ h c => (h c).2.2.2.2) (Cert.ReferenceIdeal.ValueP.run (F := Ideal) m ρ)

/-- Run from memories that agree on the arguments, under the precondition, the two programs end with equal results. -/
theorem algebraic : Cert.algebraic_KernelIdeal_ReferenceIdeal := by
  intro m ρ m' ρ' hpre hagree
  refine ⟨fun c => Cert.KernelIdeal.KRes.resE (Cert.KernelIdeal.KArgs.A4 m c) (Cert.KernelIdeal.KRes.evec (Cert.KernelIdeal.KArgs.P m c) (Cert.KernelIdeal.KArgs.D m c)),
    fun c => Cert.KernelIdeal.KRes.resF (Cert.KernelIdeal.KArgs.A2 m c) (Cert.KernelIdeal.KArgs.A3 m c) (Cert.KernelIdeal.KRes.gmat (Cert.KernelIdeal.KArgs.P m c) (Cert.KernelIdeal.KArgs.D m c)),
    fun c => Cert.KernelIdeal.KRes.resS (Cert.KernelIdeal.KArgs.A1 m c) (Cert.KernelIdeal.KArgs.A4 m c) (Cert.KernelIdeal.KArgs.A5 m c) (Cert.KernelIdeal.KRes.gmat (Cert.KernelIdeal.KArgs.P m c) (Cert.KernelIdeal.KArgs.D m c)),
    fun _ => Cert.KernelIdeal.KRes.resH, Cert.KernelIdeal.KVal.run m ρ, ?_⟩
  refine (θ_run Cert.ReferenceIdeal.defs _ _).mono (fun r h c => ?_) (Cert.ReferenceIdeal.ValueP.run (F := Ideal) m' ρ')
  obtain ⟨e0, e1, e2, e3, e4, e5, e6, e7, e8, e9, e10, e11, e12⟩ := hagree c
  have hgood := Cert.PreFacts.good_of_pre (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (hpre c)
  obtain ⟨h50, h86, h111, h112, hargs⟩ := h c
  refine ⟨?_, ?_, ?_, ?_, hargs⟩
  · rw [h50, e0, e1, e2, e3, e4, e6, e7, e8, e9, e10, e11, e12]
    exact Cert.RefRes.energies_eq _ _ _ _ _ _ _ _ _ _ _ _ _ hgood
  · rw [h86, e0, e1, e2, e3, e4, e6, e7, e8, e9, e10, e11]
    exact Cert.RefRes.forces_eq _ _ _ _ _ _ _ _ _ _ _ _ _ hgood
  · rw [h111, e0, e1, e2, e3, e4, e5, e6, e7, e8, e9, e10, e11]
    exact Cert.RefRes.stresses_eq _ _ _ _ _ _ _ _ _ _ _ _ _ hgood
  · rw [h112]
    rfl

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
